-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S1x2048x1024 : Shape := ⟨3, ![1, 2048, 1024]⟩
abbrev S50257x1024 : Shape := ⟨2, ![50257, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S50257x1024 : S_.BroadcastsInDim S50257x1024 (![] : Fin 0 → Fin S50257x1024.rank)
  reducesTo_S50257x1024_S_d0_1 : S50257x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v65 : IVec S1 1) (main_v67 : IVec S1 1) : IVec S_ 1 :=
  let main_v68 : IVec S1 1 := andi main_v65 main_v67
  let main_c_26 : IVec S_ 1 := constantI S_ 1 1#1
  let main_v69 : IVec S_ 1 := (fun x v => Host.reduce IntOp.andi x v reducesTo_S1_S_d0 h_S_) main_v68 main_c_26
  let main_v70 : IVec S_ 1 := andi main_v63 main_v69
  main_v70

def fn_part3 {F : FTy → Type} [FloatOps F] (main_arg0 : IVec S1 32) (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 4294917039#32
  let main_v64 : IVec S1 32 := broadcastInDim S1 ![] bcast_S_S1 main_c_24
  let main_v65 : IVec S1 1 := cmpi .sge main_arg0 main_v64
  let main_c_25 : IVec S_ 32 := constantI S_ 32 50257#32
  let main_v66 : IVec S1 32 := broadcastInDim S1 ![] bcast_S_S1 main_c_25
  let main_v67 : IVec S1 1 := cmpi .slt main_arg0 main_v66
  fn_part4 (F := F) main_v63 main_v65 main_v67

def fn_part2 {F : FTy → Type} [FloatOps F] (main_arg0 : IVec S1 32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg0 main_arg12 main_arg13 main_v48 main_v49 main_v50

def fn_part1 {F : FTy → Type} [FloatOps F] (main_arg0 : IVec S1 32) (main_arg5 : FVec F S2048 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S1x1x1024 .f32) (main_arg2 : FVec F S1x2048x1024 .f32) (main_arg3 : FVec F S50257x1024 .f32) (main_arg4 : FVec F S2048x2048 .f32) (main_arg5 : FVec F S2048 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S1x2048x1024 .f32 := Host.absf main_arg2
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_c_1 : IVec S_ 1 := constantI S_ 1 1#1
  let main_v7 : IVec S_ 1 := (fun x v => Host.reduce IntOp.andi x v reducesTo_S1x2048x1024_S_d0_1_2 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S1x2048x1024 : Shape := ⟨3, ![1, 2048, 1024]⟩
abbrev S50257x1024 : Shape := ⟨2, ![50257, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S2048x1024 : Shape := ⟨2, ![2048, 1024]⟩
abbrev S1x2048 : Shape := ⟨2, ![1, 2048]⟩
abbrev S512x2048 : Shape := ⟨2, ![512, 2048]⟩
abbrev S1x512 : Shape := ⟨2, ![1, 512]⟩
abbrev S2048x512 : Shape := ⟨2, ![2048, 512]⟩
abbrev S512x1024 : Shape := ⟨2, ![512, 1024]⟩
abbrev S1x3072 : Shape := ⟨2, ![1, 3072]⟩
abbrev S1024x3072 : Shape := ⟨2, ![1024, 3072]⟩
abbrev S1x50257 : Shape := ⟨2, ![1, 50257]⟩

abbrev nBuf : Space → Nat
  | .hbm => 79
  | .vmem => 29
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x2048x1024, .f32⟩
  | .hbm, ⟨3, _⟩ => ⟨S50257x1024, .f32⟩
  | .hbm, ⟨4, _⟩ => ⟨S2048x2048, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1, .i32⟩
  | .hbm, ⟨23, _⟩ => ⟨S_, .i32⟩
  | .hbm, ⟨24, _⟩ => ⟨S1x1, .i32⟩
  | .hbm, ⟨25, _⟩ => ⟨S1x1, .i1⟩
  | .hbm, ⟨26, _⟩ => ⟨S1x1, .i32⟩
  | .hbm, ⟨27, _⟩ => ⟨S1x1, .i1⟩
  | .hbm, ⟨28, _⟩ => ⟨S1x1, .i1⟩
  | .hbm, ⟨29, _⟩ => ⟨S_, .i1⟩
  | .hbm, ⟨30, _⟩ => ⟨S1, .i1⟩
  | .hbm, ⟨31, _⟩ => ⟨S1x1024, .f32⟩
  | .hbm, ⟨32, _⟩ => ⟨S1x1024, .i1⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S2048x1024, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S_, .f32⟩
  | .hbm, ⟨42, _⟩ => ⟨S1, .f32⟩
  | .hbm, ⟨43, _⟩ => ⟨S_, .f32⟩
  | .hbm, ⟨44, _⟩ => ⟨S1, .f32⟩
  | .hbm, ⟨45, _⟩ => ⟨S1, .f32⟩
  | .hbm, ⟨46, _⟩ => ⟨S1x1, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S_, .f32⟩
  | .hbm, ⟨51, _⟩ => ⟨S1, .f32⟩
  | .hbm, ⟨52, _⟩ => ⟨S1x1, .f32⟩
  | .hbm, ⟨53, _⟩ => ⟨S1x2048, .f32⟩
  | .hbm, ⟨54, _⟩ => ⟨S1x2048, .f32⟩
  | .hbm, ⟨55, _⟩ => ⟨S1x1024, .f32⟩
  | .hbm, ⟨56, _⟩ => ⟨S1x2048, .f32⟩
  | .hbm, ⟨57, _⟩ => ⟨S1x1024, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x50257, .f32⟩
  | .hbm, ⟨62, _⟩ => ⟨S1x50257, .f32⟩
  | .hbm, ⟨63, _⟩ => ⟨S_, .f32⟩
  | .hbm, ⟨64, _⟩ => ⟨S1, .f32⟩
  | .hbm, ⟨65, _⟩ => ⟨S_, .f32⟩
  | .hbm, ⟨66, _⟩ => ⟨S1, .f32⟩
  | .hbm, ⟨67, _⟩ => ⟨S1, .f32⟩
  | .hbm, ⟨68, _⟩ => ⟨S1x1, .f32⟩
  | .hbm, ⟨69, _⟩ => ⟨S1x50257, .f32⟩
  | .hbm, ⟨70, _⟩ => ⟨S1x50257, .f32⟩
  | .hbm, ⟨71, _⟩ => ⟨S1x50257, .f32⟩
  | .hbm, ⟨72, _⟩ => ⟨S_, .f32⟩
  | .hbm, ⟨73, _⟩ => ⟨S1, .f32⟩
  | .hbm, ⟨74, _⟩ => ⟨S1x1, .f32⟩
  | .hbm, ⟨75, _⟩ => ⟨S1x1, .f32⟩
  | .hbm, ⟨76, _⟩ => ⟨S1x50257, .f32⟩
  | .hbm, ⟨77, _⟩ => ⟨S1x50257, .f32⟩
  | .hbm, ⟨78, _⟩ => ⟨S1x1x1024, .f32⟩
  | .local _ .vmem, ⟨0, _⟩ => ⟨S1x2048, .f32⟩
  | .local _ .vmem, ⟨1, _⟩ => ⟨S512x2048, .f32⟩
  | .local _ .vmem, ⟨2, _⟩ => ⟨S512x2048, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x2048, .f32⟩
  | .local _ .vmem, ⟨14, _⟩ => ⟨S1x1024, .f32⟩
  | .local _ .vmem, ⟨15, _⟩ => ⟨S1024x2048, .f32⟩
  | .local _ .vmem, ⟨16, _⟩ => ⟨S1x1024, .f32⟩
  | .local _ .vmem, ⟨17, _⟩ => ⟨S3072x1024, .f32⟩
  | .local _ .vmem, ⟨18, _⟩ => ⟨S3072x1024, .f32⟩
  | .local _ .vmem, ⟨19, _⟩ => ⟨S1x3072, .f32⟩
  | .local _ .vmem, ⟨20, _⟩ => ⟨S1x3072, .f32⟩
  | .local _ .vmem, ⟨21, _⟩ => ⟨S1x1024, .f32⟩
  | .local _ .vmem, ⟨22, _⟩ => ⟨S1x1024, .f32⟩
  | .local _ .vmem, ⟨23, _⟩ => ⟨S2048x1024, .f32⟩
  | .local _ .vmem, ⟨24, _⟩ => ⟨S2048x1024, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c_3 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_cst : Ref sig .tc := ⟨.hbm, 41, rfl⟩
abbrev main_v6 : Ref sig .tc := ⟨.hbm, 42, rfl⟩
abbrev main_cst_0 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_cst_1 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_call1_cst : Ref sig .tc := ⟨.hbm, 63, rfl⟩
abbrev main_call1_v0 : Ref sig .tc := ⟨.hbm, 64, rfl⟩
abbrev main_call1_cst_0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_cst_1 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_v25 : Ref sig .tc := ⟨.hbm, 77, rfl⟩
abbrev main_v26 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3072x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3072x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x3072 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x3072 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x1024_0 : S1.BroadcastsInDim S1x1024 (![0] : Fin 1 → Fin S1x1024.rank)
  bcast_S_S1x1024 : S_.BroadcastsInDim S1x1024 (![] : Fin 0 → Fin S1x1024.rank)
  shapeCasts_S1x1x1024_S1x1024 : S1x1x1024.ShapeCasts S1x1024
  shapeCasts_S1x2048x1024_S2048x1024 : S1x2048x1024.ShapeCasts S2048x1024
  concatenates_S1x1024_S1x1024_S1x2048_d1 : Shape.Concatenates [S1x1024, S1x1024] S1x2048 1
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reducesTo_S1x2048_S1_d1 : S1x2048.ReducesTo [1] S1
  bcast_S1x1_S1x2048_0_1 : S1x1.BroadcastsInDim S1x2048 (![0, 1] : Fin 2 → Fin S1x2048.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024_S1x1024 : S1024.ShapeCasts S1x1024
  shapeCasts_S3072_S1x3072 : S3072.ShapeCasts S1x3072
  inb_S1024x2048_S1024x2048_0_0 : ∀ a, (![0, 0] : Fin 2 → Nat) a + S1024x2048.size a ≤ S1024x2048.size a
  h_S1024x2048 : 0 < S1024x2048.numel
  transposes_S1024x2048_p1_0_S2048x1024 : S1024x2048.Transposes [1, 0] S2048x1024
  inb_S3072x1024_S3072x1024_0_0 : ∀ a, (![0, 0] : Fin 2 → Nat) a + S3072x1024.size a ≤ S3072x1024.size a
  h_S3072x1024 : 0 < S3072x1024.numel
  transposes_S3072x1024_p1_0_S1024x3072 : S3072x1024.Transposes [1, 0] S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  shapeCasts_S50257_S1x50257 : S50257.ShapeCasts S1x50257
  inb_S2048x1024_S2048x1024_0_0 : ∀ a, (![0, 0] : Fin 2 → Nat) a + S2048x1024.size a ≤ S2048x1024.size a
  h_S2048x1024 : 0 < S2048x1024.numel
  transposes_S2048x1024_p1_0_S1024x2048 : S2048x1024.Transposes [1, 0] S1024x2048
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x2048_S1x2048_1_0_0_1_n_n_wf : DotDims.WF S1x1024 S1024x2048 S1x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512.size a ≤ S1x2048.size a
  hwx1_0 : ∀ i : grid1.Coords, EltTy.bits .f32 = 32 ∨ (Rect.block (s := S1x2048) S1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S2048x1024.size a
  hwx1_1 : ∀ i : grid1.Coords, EltTy.bits .f32 = 32 ∨ (Rect.block (s := S2048x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S1024x2048.size a
  hwx2_2 : ∀ i : grid2.Coords, EltTy.bits .f32 = 32 ∨ (Rect.block (s := S1024x2048) S1024x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3072x1024.size a ≤ S3072x1024.size a
  hwx2_4 : ∀ i : grid2.Coords, EltTy.bits .f32 = 32 ∨ (Rect.block (s := S3072x1024) S3072x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3072x1024.size a ≤ S3072x1024.size a
  hwx2_5 : ∀ i : grid2.Coords, EltTy.bits .f32 = 32 ∨ (Rect.block (s := S3072x1024) S3072x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x3072.size a ≤ S1x3072.size a
  hwx2_6 : ∀ i : grid2.Coords, EltTy.bits .f32 = 32 ∨ (Rect.block (s := S1x3072) S1x3072.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x3072.size a ≤ S1x3072.size a
  hwx2_7 : ∀ i : grid2.Coords, EltTy.bits .f32 = 32 ∨ (Rect.block (s := S1x3072) S1x3072.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1024.size a ≤ S1x1024.size a
  hwx2_8 : ∀ i : grid2.Coords, EltTy.bits .f32 = 32 ∨ (Rect.block (s := S1x1024) S1x1024.size (cc2_transform_8 i) (hinb2_8 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x1024.size a ≤ S1x1024.size a
  hwx3_0 : ∀ i : grid3.Coords, EltTy.bits .f32 = 32 ∨ (Rect.block (s := S1x1024) S1x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S2048x1024.size a < S50257x1024.size a
  hwx3_1 : ∀ i : grid3.Coords, EltTy.bits .f32 = 32 ∨ (Rect.unit (s := S50257x1024) (fun a => cc3_transform_1 i a * S2048x1024.size a) (fun a => (Pipeline.Clip.of (cc3_transform_1 i a) (S2048x1024.size a) (S50257x1024.size a)).extent (S2048x1024.size a)) fun a => Pipeline.Clip.inb (Pipeline.Clip.ok_of (hstart3_1 i a))).WholeWords (EltTy.packing .f32)
  hwxs3_1 : ∀ i : grid3.Coords, EltTy.bits .f32 = 32 ∨ (Rect.unit (s := S2048x1024) (fun _ => 0) (fun a => (Pipeline.Clip.of (cc3_transform_1 i a) (S2048x1024.size a) (S50257x1024.size a)).extent (S2048x1024.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1x2048.size a < S1x50257.size a
  hwx3_2 : ∀ i : grid3.Coords, EltTy.bits .f32 = 32 ∨ (Rect.unit (s := S1x50257) (fun a => cc3_transform_2 i a * S1x2048.size a) (fun a => (Pipeline.Clip.of (cc3_transform_2 i a) (S1x2048.size a) (S1x50257.size a)).extent (S1x2048.size a)) fun a => Pipeline.Clip.inb (Pipeline.Clip.ok_of (hstart3_2 i a))).WholeWords (EltTy.packing .f32)
  hwxs3_2 : ∀ i : grid3.Coords, EltTy.bits .f32 = 32 ∨ (Rect.unit (s := S1x2048) (fun _ => 0) (fun a => (Pipeline.Clip.of (cc3_transform_2 i a) (S1x2048.size a) (S1x50257.size a)).extent (S1x2048.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S1x2048.size a < S1x50257.size a
  hwx3_3 : ∀ i : grid3.Coords, EltTy.bits .f32 = 32 ∨ (Rect.unit (s := S1x50257) (fun a => cc3_transform_3 i a * S1x2048.size a) (fun a => (Pipeline.Clip.of (cc3_transform_3 i a) (S1x2048.size a) (S1x50257.size a)).extent (S1x2048.size a)) fun a => Pipeline.Clip.inb (Pipeline.Clip.ok_of (hstart3_3 i a))).WholeWords (EltTy.packing .f32)
  hwxs3_3 : ∀ i : grid3.Coords, EltTy.bits .f32 = 32 ∨ (Rect.unit (s := S1x2048) (fun _ => 0) (fun a => (Pipeline.Clip.of (cc3_transform_3 i a) (S1x2048.size a) (S1x50257.size a)).extent (S1x2048.size a)) fun a => (Nat.zero_add _).trans_le (Pipeline.Clip.extent_le (Pipeline.Clip.ok_of (hstart3_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf

abbrev win0_0 : Pipeline.Window sig grid0 :=
  Pipeline.Window.ofSpec (Memref.whole main_v3) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S1x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1024x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S3072x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S3072x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S1x3072.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v21) S1x3072.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v22) S1x1024.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v22) S1x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg12) S2048x1024.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v23) S1x2048.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v24) S1x2048.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S1x2048x1024 : Shape := ⟨3, ![1, 2048, 1024]⟩
abbrev S50257x1024 : Shape := ⟨2, ![50257, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 114
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x2048x1024, .f32⟩
  | .hbm, ⟨3, _⟩ => ⟨S50257x1024, .f32⟩
  | .hbm, ⟨4, _⟩ => ⟨S2048x2048, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x2048, .f32⟩
  | .hbm, ⟨42, _⟩ => ⟨S1x2048, .f32⟩
  | .hbm, ⟨43, _⟩ => ⟨S2048x1024, .f32⟩
  | .hbm, ⟨44, _⟩ => ⟨S1x1024, .f32⟩
  | .hbm, ⟨45, _⟩ => ⟨S1x2048, .f32⟩
  | .hbm, ⟨46, _⟩ => ⟨S2048x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1024x3072, .f32⟩
  | .hbm, ⟨54, _⟩ => ⟨S1x3072, .f32⟩
  | .hbm, ⟨55, _⟩ => ⟨S1x3072, .f32⟩
  | .hbm, ⟨56, _⟩ => ⟨S1x3072, .f32⟩
  | .hbm, ⟨57, _⟩ => ⟨S1024x3072, .f32⟩
  | .hbm, ⟨58, _⟩ => ⟨S1x3072, .f32⟩
  | .hbm, ⟨59, _⟩ => ⟨S1x3072, .f32⟩
  | .hbm, ⟨60, _⟩ => ⟨S1x3072, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S_, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1024x50257, .f32⟩
  | .hbm, ⟨95, _⟩ => ⟨S1x50257, .f32⟩
  | .hbm, ⟨96, _⟩ => ⟨S1x50257, .f32⟩
  | .hbm, ⟨97, _⟩ => ⟨S1x50257, .f32⟩
  | .hbm, ⟨98, _⟩ => ⟨S_, .f32⟩
  | .hbm, ⟨99, _⟩ => ⟨S1, .f32⟩
  | .hbm, ⟨100, _⟩ => ⟨S_, .f32⟩
  | .hbm, ⟨101, _⟩ => ⟨S1, .f32⟩
  | .hbm, ⟨102, _⟩ => ⟨S1, .f32⟩
  | .hbm, ⟨103, _⟩ => ⟨S1x1, .f32⟩
  | .hbm, ⟨104, _⟩ => ⟨S1x50257, .f32⟩
  | .hbm, ⟨105, _⟩ => ⟨S1x50257, .f32⟩
  | .hbm, ⟨106, _⟩ => ⟨S1x50257, .f32⟩
  | .hbm, ⟨107, _⟩ => ⟨S_, .f32⟩
  | .hbm, ⟨108, _⟩ => ⟨S1, .f32⟩
  | .hbm, ⟨109, _⟩ => ⟨S1x1, .f32⟩
  | .hbm, ⟨110, _⟩ => ⟨S1x1, .f32⟩
  | .hbm, ⟨111, _⟩ => ⟨S1x50257, .f32⟩
  | .hbm, ⟨112, _⟩ => ⟨S1x50257, .f32⟩
  | .hbm, ⟨113, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_3 : Ref sig .tc := ⟨.hbm, 66, rfl⟩
abbrev main_v45 : Ref sig .tc := ⟨.hbm, 67, rfl⟩
abbrev main_v46 : Ref sig .tc := ⟨.hbm, 68, rfl⟩
abbrev main_cst_4 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_5 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_7 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_call1_cst_0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_cst_1 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S2048x2048_S2048x2048_1_0 : S2048x2048.Transposes [1, 0] S2048x2048
  bcast_S2048_S1x2048_1 : S2048.BroadcastsInDim S1x2048 (![1] : Fin 1 → Fin S1x2048.rank)
  reducesTo_S1x2048_S1_d1 : S1x2048.ReducesTo [1] S1
  h_S_ : 0 < S_.numel
  bcast_S1x1_S1x2048_0_1 : S1x1.BroadcastsInDim S1x2048 (![0, 1] : Fin 2 → Fin S1x2048.rank)
  shapeCasts_S1x2048x1024_S2048x1024 : S1x2048x1024.ShapeCasts S2048x1024
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x2048_S1x2048_1_0_0_1_n_n_wf : DotDims.WF S1x2048 S2048x2048 S1x2048 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.RFold.lean ====
/-
  The word-level program's proof data read relationally.  Regions 0 to 2 keep their exact data (read as relations
  that name what the body leaves); of region 3's output window the relation says nothing: at the word level the matrix
  product is one opaque function of its whole operands, and at the last grid point the weight block's rows past the
  array's end hold whatever the fetch's overwrite left, so what the body stores cannot be named.  Nothing after region 3
  takes a branch, an address or a count from that array: only host arithmetic reads it.
-/
import proofs.«423497_j70342974374383_1_alg».proof.Proof.K.Fold
import proofs.«423497_j70342974374383_1_alg».proof.Proof.K.Reg3F

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RDat)

variable (m : (ℓ : Loc nD τ sig) → Buf (Elt F) ℓ) (outs : Outs (F := F))

/-- Every pipeline's relational proof data. -/
def rdats : (p : Fin 4) → (c : Dev nD) → RDat τ (Elt F) Unit ℕ (UR sig nD τ) ℕ (cfgs p) c
  | ⟨0, _⟩ => fun c => (dat0 (E2 m) c).toR
  | ⟨1, _⟩ => fun c => (dat1 (E4 m outs) c).toR
  | ⟨2, _⟩ => fun c => (dat2 (E6 m outs) c).toR
  | ⟨3, _⟩ => fun c => (dat3 (E8 m outs) c).toRForget fgt3

/-- The buffers after region 3 when its output array holds `X`, and after the two host stretches that follow. -/
abbrev V9X (c : Dev nD) (X : Buf (Elt F) ((c : Thread nD τ).loc main_v24)) : Valuation τ sig (Elt F) :=
  Function.update (V8 m outs c) main_v24 X
abbrev V10X (c : Dev nD) (X : Buf (Elt F) ((c : Thread nD τ).loc main_v24)) : Valuation τ sig (Elt F) :=
  StableHlo.after hostOps4 (V9X m outs c X)
abbrev V11X (c : Dev nD) (X : Buf (Elt F) ((c : Thread nD τ).loc main_v24)) : Valuation τ sig (Elt F) :=
  StableHlo.after hostOps4_1 (V10X m outs c X)

/-- A buffer neither host stretch after region 3 writes, other than region 3's output, ends as region 3 was entered. -/
theorem V11X_of (c : Dev nD) (X : Buf (Elt F) ((c : Thread nD τ).loc main_v24)) (r : Ref sig .tc)
    (h1 : r ∉ hostOps4_1_W) (h2 : r ∉ hostOps4_W) (h3 : r ∉ ([main_v24] : List (Ref sig .tc))) :
    V11X m outs c X r = V8 m outs c r :=
  (StableHlo.after_of_writes_sub hostOps4_1 _ hostOps4_1_writes h1).trans
    ((StableHlo.after_of_writes_sub hostOps4 _ hostOps4_writes h2).trans (by
      simp only [V9X, Function.update_of_ne (StableHlo.devRef_ne_of_ne (List.ne_of_not_mem_cons h3) : (Proc.devRef .tc r : DevRef τ sig) ≠ Proc.devRef .tc main_v24)]))

/-- An argument array is as launched when region 3 is entered. -/
theorem V8_arg (c : Dev nD) (r : Ref sig .tc) (h9 : r ∉ ([main_v24] : List (Ref sig .tc))) (h10 : r ∉ hostOps4_W) (h11 : r ∉ hostOps4_1_W)
    (harg : V11 m outs c r = m ((c : Thread nD τ).loc r)) : V8 m outs c r = m ((c : Thread nD τ).loc r) :=
  (V9_of m outs c r h9).symm.trans ((V10_of m outs c r h10).symm.trans ((V11_of m outs c r h11).symm.trans harg))

end Cert.Kernel.Hand

end
-- ==== Proof.K.RSegs.lean ====
/-
  The word-level program's four regions as segments over the relational proof data.  Regions 0 to 2 are left at named
  contents; region 3 is left with its output array at SOME contents, every other buffer as it was entered.
-/
import proofs.«423497_j70342974374383_1_alg».proof.Proof.K.RFold
import proofs.«423497_j70342974374383_1_alg».proof.Proof.K.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RDat)

variable {m : (ℓ : Loc nD τ sig) → Buf (Elt F) ℓ} {outs : Outs (F := F)}

set_option backward.isDefEq.respectTransparency.types false in
/-- Region 0 as a segment of @main over the relational proof data. -/
def rreg0 (hO : OutsOk m outs) : Pipeline.RDat.RegionSeg (pcfgs (F := F)) adm (rdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E2 m) c).toR
  hwaits := Pipeline.RDat.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (V3 m outs c) ∗ R c)
  X c := iprop(∃ r, prngReg c r)
  Y c := iprop(∃ r, prngReg c r)
  Z c := Pipeline.unscopedRest (Ix := Unit) (Name := ℕ) (U := UR sig nD τ) (Lvl := ℕ) spec0 c (E2 m c)
  hentry c := by
    rw [Pipeline.ownSems0_none]
    have hsplit := Pipeline.RDat.arrays_of_unscopedBufs (p := 0) (pcfgs (F := F)) adm (rdats m outs) launch0.win launch0.arr_whole c
      (fun w => (pdats m outs 0 c).share_full (fun _ => rfl) w) (E2 m c) fun w => A_eq0 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m outs 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (rdats m outs 0 c).Φ (Fin.last _) = Pipeline.ΦA spec0 c from rfl]; unfold Pipeline.ΦA
    iintro ⟨Hr, Hp⟩
    isplitl [Hp]; · iexact Hp
    isplitr; · iempintro
    iexact Hr
  hexit c := by
    rw [show (rdats m outs 0 c).arraysAt (Pipeline.pin (pcfgs (F := F)) adm 0).N = (pdats m outs 0 c).arrays ((pdats m outs 0 c).arrAt · cfg0.N)
      from Pipeline.Dat.toR_arraysAt_eq (pdats m outs 0 c) cfg0.N]
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (E2 m c) (E3 m outs c) ((pdats m outs 0 c).arrAt · cfg0.N) (hF0 hO c) (hrest0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 as a segment of @main over the relational proof data. -/
def rreg1 (hO : OutsOk m outs) : Pipeline.RDat.RegionSeg (pcfgs (F := F)) adm (rdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m outs) c).toR
  hwaits := Pipeline.RDat.hwaits_of_owed_zero _ _ _ _ L lv 1 fun _ _ => rfl
  pre c := iprop(StableHlo.held (c : Thread nD τ) (Pipeline.ucRefs τ sig) (V4 m outs c) ∗ R c)
  post c := iprop(StableHlo.held (c : Thread nD τ) (Pipeline.ucRefs τ sig) (V5 m outs c) ∗ R c)
  X c := iprop(∃ r, prngReg c r)
  Y c := iprop(∃ r, prngReg c r)
  Z c := Pipeline.unscopedRest (Ix := Unit) (Name := ℕ) (U := UR sig nD τ) (Lvl := ℕ) spec1 c (E4 m outs c)
  hentry c := by
    rw [Pipeline.ownSems0_none]
    have hsplit := Pipeline.RDat.arrays_of_unscopedBufs (p := 1) (pcfgs (F := F)) adm (rdats m outs) launch1.win launch1.arr_whole c
      (fun w => (pdats m outs 1 c).share_full (fun _ => rfl) w) (E4 m outs c) fun w => A_eq1 (E4 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m outs 1 c).Φ 0 = Pipeline.ΦA spec1 c from Phi1_in (E4 m outs) c]; unfold Pipeline.ΦA
    iintro ⟨Hp, -, Hr⟩
    isplitl [Hr]; · iexact Hr
    iexact Hp
  hout c := by
    rw [Pipeline.ownSems0_none]
    refine (show (rdats m outs 1 c).Φ (Fin.last _) ⊢ Pipeline.ΦA spec1 c from Phi1_out (E4 m outs) c).trans ?_; unfold Pipeline.ΦA
    iintro ⟨Hr, Hp⟩
    isplitl [Hp]; · iexact Hp
    isplitr; · iempintro
    iexact Hr
  hexit c := by
    rw [show (rdats m outs 1 c).arraysAt (Pipeline.pin (pcfgs (F := F)) adm 1).N = (pdats m outs 1 c).arrays ((pdats m outs 1 c).arrAt · cfg1.N)
      from Pipeline.Dat.toR_arraysAt_eq (pdats m outs 1 c) cfg1.N]
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (E4 m outs c) (E5 m outs c) ((pdats m outs 1 c).arrAt · cfg1.N) (hF1 hO c) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 2 as a segment of @main over the relational proof data. -/
def rreg2 (hO : OutsOk m outs) : Pipeline.RDat.RegionSeg (pcfgs (F := F)) adm (rdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E6 m outs) c).toR
  hwaits := Pipeline.RDat.hwaits_of_owed_zero _ _ _ _ L lv 2 fun _ _ => rfl
  pre c := iprop(StableHlo.held (c : Thread nD τ) (Pipeline.ucRefs τ sig) (V6 m outs c) ∗ R c)
  post c := iprop(StableHlo.held (c : Thread nD τ) (Pipeline.ucRefs τ sig) (V7 m outs c) ∗ R c)
  X c := iprop(∃ r, prngReg c r)
  Y c := iprop(∃ r, prngReg c r)
  Z c := Pipeline.unscopedRest (Ix := Unit) (Name := ℕ) (U := UR sig nD τ) (Lvl := ℕ) spec2 c (E6 m outs c)
  hentry c := by
    rw [Pipeline.ownSems0_none]
    have hsplit := Pipeline.RDat.arrays_of_unscopedBufs (p := 2) (pcfgs (F := F)) adm (rdats m outs) launch2.win launch2.arr_whole c
      (fun w => (pdats m outs 2 c).share_full (fun _ => rfl) w) (E6 m outs c) fun w => A_eq2 (E6 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m outs 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (rdats m outs 2 c).Φ (Fin.last _) = Pipeline.ΦA spec2 c from rfl]; unfold Pipeline.ΦA
    iintro ⟨Hr, Hp⟩
    isplitl [Hp]; · iexact Hp
    isplitr; · iempintro
    iexact Hr
  hexit c := by
    rw [show (rdats m outs 2 c).arraysAt (Pipeline.pin (pcfgs (F := F)) adm 2).N = (pdats m outs 2 c).arrays ((pdats m outs 2 c).arrAt · cfg2.N)
      from Pipeline.Dat.toR_arraysAt_eq (pdats m outs 2 c) cfg2.N]
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (E6 m outs c) (E7 m outs c) ((pdats m outs 2 c).arrAt · cfg2.N) (hF2 hO c) (hrest2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- Region 3's arrays at exit when the output array holds `X`: the three inputs as entered. -/
def arr3X (m : (ℓ : Loc nD τ sig) → Buf (Elt F) ℓ) (outs : Outs (F := F)) (c : Dev nD) (X : Buf (Elt F) ((c : Thread nD τ).loc main_v24)) :
    (w : Fin cfg3.W) → Buf (Elt F) ((cfg3.win w).arr.view.loc (c.tc : Thread nD τ))
  | ⟨0, _⟩ => (dat3 (E8 m outs) c).arrAt 0 cfg3.N
  | ⟨1, _⟩ => (dat3 (E8 m outs) c).arrAt 1 cfg3.N
  | ⟨2, _⟩ => (dat3 (E8 m outs) c).arrAt 2 cfg3.N
  | ⟨3, _⟩ => X

/-- They are the contents after region 3 with `X` in the output array, read at the region's arrays. -/
theorem arr3X_eq (c : Dev nD) (X : Buf (Elt F) ((c : Thread nD τ).loc main_v24)) (w : Fin cfg3.W) :
    arr3X m outs c X w = V9X m outs c X (Pipeline.arrRef spec3 w) :=
  match w with
  | ⟨0, _⟩ => (((dat3 (E8 m outs) c).arrAt_in 0 rfl _).trans (A_eq3 (E8 m outs) c 0)).trans
      (Function.update_of_ne (StableHlo.devRef_ne_of_ne (show Pipeline.arrRef spec3 0 ≠ main_v24 by decide) : (Proc.devRef .tc (Pipeline.arrRef spec3 0) : DevRef τ sig) ≠ Proc.devRef .tc main_v24) X (V8 m outs c)).symm
  | ⟨1, _⟩ => (((dat3 (E8 m outs) c).arrAt_in 1 rfl _).trans (A_eq3 (E8 m outs) c 1)).trans
      (Function.update_of_ne (StableHlo.devRef_ne_of_ne (show Pipeline.arrRef spec3 1 ≠ main_v24 by decide) : (Proc.devRef .tc (Pipeline.arrRef spec3 1) : DevRef τ sig) ≠ Proc.devRef .tc main_v24) X (V8 m outs c)).symm
  | ⟨2, _⟩ => (((dat3 (E8 m outs) c).arrAt_in 2 rfl _).trans (A_eq3 (E8 m outs) c 2)).trans
      (Function.update_of_ne (StableHlo.devRef_ne_of_ne (show Pipeline.arrRef spec3 2 ≠ main_v24 by decide) : (Proc.devRef .tc (Pipeline.arrRef spec3 2) : DevRef τ sig) ≠ Proc.devRef .tc main_v24) X (V8 m outs c)).symm
  | ⟨3, _⟩ => (Function.update_self (Proc.devRef .tc main_v24 : DevRef τ sig) X (V8 m outs c)).symm

/-- Every other buffer is as region 3 was entered. -/
theorem V9X_rest (c : Dev nD) (X : Buf (Elt F) ((c : Thread nD τ).loc main_v24)) :
    ∀ b, b ∉ Finset.univ.image (Pipeline.arrRef spec3) → V9X m outs c X b = E8 m outs c b := fun b hb => by
  have hne : b ≠ main_v24 := fun h => hb (Finset.mem_image.mpr ⟨3, Finset.mem_univ _, h.symm⟩)
  exact Function.update_of_ne (StableHlo.devRef_ne_of_ne hne : (Proc.devRef .tc b : DevRef τ sig) ≠ Proc.devRef .tc main_v24) X (V8 m outs c)

set_option backward.isDefEq.respectTransparency.types false in
/-- The arrays so held and the rest make the unscoped buffers after region 3 with `X` in the output array. -/
theorem join3 (c : Dev nD) (X : Buf (Elt F) ((c : Thread nD τ).loc main_v24)) :
    iprop((pdats m outs 3 c).arrays (arr3X m outs c X) ∗ Pipeline.unscopedRest spec3 c (E8 m outs c))
      ⊢ (unscopedBufs c (fun b => V9X m outs c X b) : sProp 𝕄) :=
  Pipeline.unscopedBufs_of_arrays (p := 3) (pcfgs (F := F)) adm (Ix := Unit) (Name := ℕ) (U := UR sig nD τ) (Lvl := ℕ)
    launch3.win launch3.arr_whole c (pdats m outs) ((pdats m outs 3 c).share_full fun _ => rfl)
    (E8 m outs c) (fun b => V9X m outs c X b) (arr3X m outs c X) (arr3X_eq c X) (V9X_rest c X)

set_option maxHeartbeats 1000000 in
set_option backward.isDefEq.respectTransparency.types false in
/-- Region 3 as a segment of @main over the relational proof data. -/
def rreg3 (hO : OutsOk m outs) : Pipeline.RDat.RegionSeg (pcfgs (F := F)) adm (rdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3_fgt_loose (E8 m outs) c).toRForget
  hwaits := Pipeline.RDat.hwaits_of_owed_zero _ _ _ _ L lv 3 fun _ _ => rfl
  pre c := iprop(StableHlo.held (c : Thread nD τ) (Pipeline.ucRefs τ sig) (V8 m outs c) ∗ R c)
  post c := iprop(∃ X : Buf (Elt F) ((c : Thread nD τ).loc main_v24), StableHlo.held (c : Thread nD τ) (Pipeline.ucRefs τ sig) (V9X m outs c X) ∗ R c)
  X c := iprop(∃ r, prngReg c r)
  Y c := iprop(∃ r, prngReg c r)
  Z c := Pipeline.unscopedRest (Ix := Unit) (Name := ℕ) (U := UR sig nD τ) (Lvl := ℕ) spec3 c (E8 m outs c)
  hentry c := by
    rw [Pipeline.ownSems0_none]
    have hsplit := Pipeline.RDat.arrays_of_unscopedBufs (p := 3) (pcfgs (F := F)) adm (rdats m outs) launch3.win launch3.arr_whole c
      (fun w => (pdats m outs 3 c).share_full (fun _ => rfl) w) (E8 m outs c) fun w => A_eq3 (E8 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m outs 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (rdats m outs 3 c).Φ (Fin.last _) = Pipeline.ΦA spec3 c from rfl]; unfold Pipeline.ΦA
    iintro ⟨Hr, Hp⟩
    isplitl [Hp]; · iexact Hp
    isplitr; · iempintro
    iexact Hr
  hexit c := by
    unfold Pipeline.RDat.arraysAt
    rewrite [bigSep_W3]
    iintro ⟨⟨⟨%F0, %h0, H0⟩, ⟨%F1, %h1, H1⟩, ⟨%F2, %h2, H2⟩, ⟨%F3, -, H3⟩⟩, HO, HY, Hrest⟩
    have e0 := ((dat3 (E8 m outs) c).toRForget_arrAt_iff (fgt := fgt3) (w := 0) rfl cfg3.N F0).mp h0
    have e1 := ((dat3 (E8 m outs) c).toRForget_arrAt_iff (fgt := fgt3) (w := 1) rfl cfg3.N F1).mp h1
    have e2 := ((dat3 (E8 m outs) c).toRForget_arrAt_iff (fgt := fgt3) (w := 2) rfl cfg3.N F2).mp h2
    subst e0; subst e1; subst e2
    imodintro
    iexists F3
    isplitl [H0 H1 H2 H3 Hrest]
    · rewrite [← Pipeline.unscopedBufs_held]
      iapply (join3 (m := m) (outs := outs) c F3)
      isplitr [Hrest]
      · unfold Pipeline.Dat.arrays
        rewrite [bigSep_W3]
        isplitl [H0]; · iexact H0
        isplitl [H1]; · iexact H1
        isplitl [H2]; · iexact H2
        iexact H3
      iexact Hrest
    isplitl [HY]; · iexact HY
    unfold Pipeline.RDat.owesAt Pipeline.owesWithin
    icases HO with ⟨%W, -, HO⟩; iexists W; iexact HO

end Cert.Kernel.Hand

end
-- ==== Proof.K.RRun.lean ====
/-
  The run of the word-level program: @main's eleven segments launched once over the relational proof data.  After
  region 3 the two remaining host stretches run from buffer contents that name region 3's output only as "some
  contents"; no argument array is written by any of it, so every weakly fair execution terminates with the argument
  arrays as launched.
-/
import proofs.«423497_j70342974374383_1_alg».proof.Proof.K.RSegs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RDat HostSeg)
open Idealize.ShloMosaic.Pipeline.RDat (Seg)

variable (m : (ℓ : Loc nD τ sig) → Buf (Elt F) ℓ) (outs : Outs (F := F))

/-- What rides beside the buffers, as a family over the items (the same at every item). -/
abbrev ER : Fin 5 → Dev nD → sProp 𝕄 := fun _ c => R c

-- a StableHLO rule stated for any thread, applied at the TensorCore thread, unifies only when unification may unfold
-- plain definitions in a metavariable's type
set_option backward.isDefEq.respectTransparency.types false in
/-- The host stretch after region 3 (the log-softmax), run from buffers that hold region 3's output at some contents. -/
def seg9X : HostSeg (Ix := Unit) (Name := ℕ) (U := UR sig nD τ) (Lvl := ℕ) (pcfgs (F := F)) defs₀ 𝒱₀ L lv where
  prog := StableHlo.seq hostOps4
  pre c := iprop(∃ X : Buf (Elt F) ((c : Thread nD τ).loc main_v24), StableHlo.held (c : Thread nD τ) (Pipeline.ucRefs τ sig) (V9X m outs c X) ∗ R c)
  post c := iprop(∃ X : Buf (Elt F) ((c : Thread nD τ).loc main_v24), StableHlo.held (c : Thread nD τ) (Pipeline.ucRefs τ sig) (V10X m outs c X) ∗ R c)
  run c {β} k K := by
    iintro ⟨Hk, Hbd, ⟨%X, Hh, HR⟩, -⟩
    have hseq := StableHlo.wp_seq (defs := Pipeline.defs (pcfgs (F := F)) defs₀) (Variants.lift 𝒱₀) none Set.univ c (Pipeline.ucRefs τ sig) k (K := K) hostOps4
      (fun op h => Pipeline.sub_ucRefs op ((List.forall_iff_forall_mem.mp hostOps4_sub) op h))
      (fun op h => (List.forall_iff_forall_mem.mp hostOps4_fresh) op h) (V9X m outs c X)
    iapply hseq $$ [Hbd Hh]
    · isplitl [Hbd] <;> iassumption
    iintro ⟨Hbd, Hh⟩
    iapply Hk
    isplitl [Hbd]; · iexact Hbd
    iexists X
    isplitl [Hh] <;> iassumption

set_option backward.isDefEq.respectTransparency.types false in
/-- The last host stretch (the new hidden state broadcast to its result shape), likewise. -/
def seg10X : HostSeg (Ix := Unit) (Name := ℕ) (U := UR sig nD τ) (Lvl := ℕ) (pcfgs (F := F)) defs₀ 𝒱₀ L lv where
  prog := StableHlo.seq hostOps4_1
  pre c := iprop(∃ X : Buf (Elt F) ((c : Thread nD τ).loc main_v24), StableHlo.held (c : Thread nD τ) (Pipeline.ucRefs τ sig) (V10X m outs c X) ∗ R c)
  post c := iprop(∃ X : Buf (Elt F) ((c : Thread nD τ).loc main_v24), StableHlo.held (c : Thread nD τ) (Pipeline.ucRefs τ sig) (V11X m outs c X) ∗ R c)
  run c {β} k K := by
    iintro ⟨Hk, Hbd, ⟨%X, Hh, HR⟩, -⟩
    have hseq := StableHlo.wp_seq (defs := Pipeline.defs (pcfgs (F := F)) defs₀) (Variants.lift 𝒱₀) none Set.univ c (Pipeline.ucRefs τ sig) k (K := K) hostOps4_1
      (fun op h => Pipeline.sub_ucRefs op ((List.forall_iff_forall_mem.mp hostOps4_1_sub) op h))
      (fun op h => (List.forall_iff_forall_mem.mp hostOps4_1_fresh) op h) (V10X m outs c X)
    iapply hseq $$ [Hbd Hh]
    · isplitl [Hbd] <;> iassumption
    iintro ⟨Hbd, Hh⟩
    iapply Hk
    isplitl [Hbd]; · iexact Hbd
    iexists X
    isplitl [Hh] <;> iassumption

variable {m outs}

/-- @main's items as segments. -/
abbrev rsegs (hO : OutsOk m outs) : List (Seg (pcfgs (F := F)) adm (rdats m outs) () defs₀ 𝒱₀ L lv) :=
  [.host (seg0 m 𝒱₀ L lv ER), .host (seg1 m 𝒱₀ L lv ER), .region (rreg0 hO), .host (seg3 m outs 𝒱₀ L lv ER), .region (rreg1 hO),
   .host (seg5 m outs 𝒱₀ L lv ER), .region (rreg2 hO), .host (seg7 m outs 𝒱₀ L lv ER), .region (rreg3 hO), .host (seg9X m outs), .host (seg10X m outs)]

-- the launch theorem's implicit arguments are found by unifying its conclusion with this one, which takes unfolding
-- plain definitions in a metavariable's type
set_option backward.isDefEq.respectTransparency.types false in
/-- THE FRAME of the word-level program at any float instance: from any memory `m` with zero counters every weakly fair
    execution of @main terminates and every final memory holds each argument as launched. -/
theorem frame_of_outs (hO : OutsOk m outs) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.RDat.θ_run_regions_kit_dev (pcfgs (F := F)) adm (rdats m outs) () cellOf_inj emb₁ defs₀ 𝒱₀ L lv m ρ main
    (fun _ => rsegs hO)
    (fun c Q => by
      rewrite [main_chain c, Seg.run_eq_chain,
        show (rsegs hO).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (fun c => by simp only [rsegs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(∃ X : Buf (Elt F) ((c : Thread nD τ).loc main_v24), StableHlo.held (c : Thread nD τ) (Pipeline.ucRefs τ sig) (V11X m outs c X)))
    (hch := fun c => ⟨.rfl, .rfl, .rfl, .rfl, .rfl, .rfl, .rfl, .rfl, .rfl, .rfl, .rfl, by
      show (iprop(∃ X : Buf (Elt F) ((c : Thread nD τ).loc main_v24), StableHlo.held (c : Thread nD τ) (Pipeline.ucRefs τ sig) (V11X m outs c X) ∗ R c) : sProp 𝕄) ⊢ _
      iintro ⟨%X, Hh, -, HO⟩
      isplitl [Hh]; · iexists X; iexact Hh
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  -- the end: each argument's buffer read off the last valuation, whatever region 3 left in its output
  unfold StableHlo.held
  iintro ⟨⟨%X, Hh⟩, HSI⟩
  ihave Hr := (pointsTo_read_all (Pipeline.ucRefs τ sig) (fun b => ((c : Thread nD τ).1, b)) (V11X m outs c X) s') $$ [Hh HSI]
  · isplitl [Hh] <;> iassumption
  icases Hr with ⟨%h, HSI⟩
  imodintro
  isplitr
  · ipureintro
    have harg : ∀ (r : Ref sig .tc) (hm : (Proc.devRef .tc r : DevRef τ sig) ∈ Pipeline.ucRefs τ sig) (h1 : r ∉ hostOps4_1_W) (h2 : r ∉ hostOps4_W)
        (h3 : r ∉ ([main_v24] : List (Ref sig .tc))) (h4 : V11 m outs c r = m ((c : Thread nD τ).loc r)),
        s'.mem.mem ((c.tc : Thread nD τ).loc r) = m ((c.tc : Thread nD τ).loc r) := fun r hm h1 h2 h3 h4 =>
      (h (Proc.devRef .tc r) hm).trans ((V11X_of m outs c X r h1 h2 h3).trans (V8_arg m outs c r h3 h2 h1 h4))
    exact ⟨harg main_arg0 (Finset.mem_filter.mpr ⟨StableHlo.devRef_mem_tcRefs main_arg0, by decide⟩) (by decide) (by decide) (by decide) (V11_main_arg0 m outs c),
      harg main_arg1 (Finset.mem_filter.mpr ⟨StableHlo.devRef_mem_tcRefs main_arg1, by decide⟩) (by decide) (by decide) (by decide) (V11_main_arg1 m outs c),
      harg main_arg2 (Finset.mem_filter.mpr ⟨StableHlo.devRef_mem_tcRefs main_arg2, by decide⟩) (by decide) (by decide) (by decide) (V11_main_arg2 m outs c),
      harg main_arg3 (Finset.mem_filter.mpr ⟨StableHlo.devRef_mem_tcRefs main_arg3, by decide⟩) (by decide) (by decide) (by decide) (V11_main_arg3 m outs c),
      harg main_arg4 (Finset.mem_filter.mpr ⟨StableHlo.devRef_mem_tcRefs main_arg4, by decide⟩) (by decide) (by decide) (by decide) (V11_main_arg4 m outs c),
      harg main_arg5 (Finset.mem_filter.mpr ⟨StableHlo.devRef_mem_tcRefs main_arg5, by decide⟩) (by decide) (by decide) (by decide) (V11_main_arg5 m outs c),
      harg main_arg6 (Finset.mem_filter.mpr ⟨StableHlo.devRef_mem_tcRefs main_arg6, by decide⟩) (by decide) (by decide) (by decide) (V11_main_arg6 m outs c),
      harg main_arg7 (Finset.mem_filter.mpr ⟨StableHlo.devRef_mem_tcRefs main_arg7, by decide⟩) (by decide) (by decide) (by decide) (V11_main_arg7 m outs c),
      harg main_arg8 (Finset.mem_filter.mpr ⟨StableHlo.devRef_mem_tcRefs main_arg8, by decide⟩) (by decide) (by decide) (by decide) (V11_main_arg8 m outs c),
      harg main_arg9 (Finset.mem_filter.mpr ⟨StableHlo.devRef_mem_tcRefs main_arg9, by decide⟩) (by decide) (by decide) (by decide) (V11_main_arg9 m outs c),
      harg main_arg10 (Finset.mem_filter.mpr ⟨StableHlo.devRef_mem_tcRefs main_arg10, by decide⟩) (by decide) (by decide) (by decide) (V11_main_arg10 m outs c),
      harg main_arg11 (Finset.mem_filter.mpr ⟨StableHlo.devRef_mem_tcRefs main_arg11, by decide⟩) (by decide) (by decide) (by decide) (V11_main_arg11 m outs c),
      harg main_arg12 (Finset.mem_filter.mpr ⟨StableHlo.devRef_mem_tcRefs main_arg12, by decide⟩) (by decide) (by decide) (by decide) (V11_main_arg12 m outs c),
      harg main_arg13 (Finset.mem_filter.mpr ⟨StableHlo.devRef_mem_tcRefs main_arg13, by decide⟩) (by decide) (by decide) (by decide) (V11_main_arg13 m outs c)⟩
  · iexact HSI

end Cert.Kernel.Hand

end
-- ==== Proof.KI.Reg0.lean ====
/-
  Region 0, the attention logits: one grid point per 512 rows of attn_W.  The body loads the whole query row
  cat1 (1 x 2048, staged once), the point's 512 x 2048 block of attn_W and its 1 x 512 block of the bias, and stores
  cat1 * blockᵀ + bias into its 1 x 512 output block.  Stated at any float instance and at any contents `V` the
  region is entered from: what the output's staging buffer holds after the body (`out0_3`), the body's triple, the
  pipeline's proof data (each input window left at its block, the output at `out0_3` of the blocks) and the body
  obligation at every point.
-/
import proofs.«423497_j70342974374383_1_alg».proof.Proof.Gen.KernelIdeal.Launch
import proofs.«423497_j70342974374383_1_alg».proof.Proof.Gen.KernelIdeal.Skeleton
import proofs.«423497_j70342974374383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (the query row is
    fetched at the first point only: its block index never moves), for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rq0 : Rect S1x2048 := Rect.unit (s := S1x2048) ![0, 0] S1x2048.size inb_S1x2048_S1x2048_0_0
abbrev rw0 : Rect S512x2048 := Rect.unit (s := S512x2048) ![0, 0] S512x2048.size inb_S512x2048_S512x2048_0_0
abbrev rb0 : Rect S1x512 := Rect.unit (s := S1x512) ![0, 0] S1x512.size inb_S1x512_S1x512_0_0

/-- The output's staging buffer after the body, from the three input buffers: its one store as a piece. -/
def out0_3 (x0 : Vec F S1x2048 .f32) (x1 : Vec F S512x2048 .f32) (x2 : Vec F S1x512 .f32) : Vec F S1x512 .f32 :=
  View.canon [⟨rb0, k0_pay1 (View.ld x0 rq0) (View.ld x1 rw0) (View.ld x2 rb0)⟩]

/-- The one store covers the buffer. -/
theorem cover0_3 (p0 : Vec F S1x512 .f32) (y : S1x512.Idx) :
    ∃ pc ∈ ([⟨rb0, p0⟩] : List (View.Piece (Elt F) S1x512 .f32)), y ∈ pc.1.set :=
  View.cover_of_tiled [⟨rb0, p0⟩] S1x512.size (by rfl) y

set_option maxHeartbeats 1000000 in
/-- The body on whole staging memrefs, the inputs' at contents `x0 x1 x2` and the output's at anything, runs to
    the continuation holding the inputs' as they were and the output's at `out0_3` of them. -/
theorem sound_kernel0 (c : Dev nD) (E : Set ℕ) (i : grid0.Coords)
    (arg1 : Memref sig .tc .vmem S1x2048 .f32) (harg1 : arg1.IsWhole) (arg2 : Memref sig .tc .vmem S512x2048 .f32) (harg2 : arg2.IsWhole)
    (arg3 : Memref sig .tc .vmem S1x512 .f32) (harg3 : arg3.IsWhole) (arg4 : Memref sig .tc .vmem S1x512 .f32) (harg4 : arg4.IsWhole)
    (x0 : Vec F S1x2048 .f32) (x1 : Vec F S512x2048 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__attn_logits_kernel i arg1 harg1 arg2 harg2 arg3 harg3 arg4 harg4) K := by
  simp only [cc0__attn_logits_kernel_eq_skeleton]; unfold cc0__attn_logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at a point each
    input's buffer at its block and the output's at `out0_3` of the blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1, the attention weights applied to the encoder output: one grid point per 512 encoder rows.  The body
  keeps a 1 x 1024 accumulator in a buffer of its own that no window stages.  At the first point it stores zeros into
  it; at every point it loads the point's 1 x 512 block of the weights and its 512 x 1024 block of the encoder output,
  adds their product to the accumulator, and copies the accumulator into the output's 1 x 1024 staging buffer, which
  is written back at the last point only.  So the accumulator is carried from point to point, and the region's
  invariant must say what it holds: `acc1 n`, the sum after point `n`, by recursion on `n`.  Stated at any float
  instance and at any contents `V` the region is entered from: the blocks, the sum, the body's triple in its two
  cases (first point, later points), the invariant (the class's before the first point, afterwards the accumulator
  owned at the previous point's sum beside every other scoped buffer at anything), the pipeline's proof data and the
  body obligation at every point.
-/
import proofs.«423497_j70342974374383_1_alg».proof.Proof.Gen.KernelIdeal.Launch
import proofs.«423497_j70342974374383_1_alg».proof.Proof.Gen.KernelIdeal.Skeleton
import proofs.«423497_j70342974374383_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The accumulator: a whole scoped buffer of the kernel's own, passed beside the windows. -/
abbrev scM1 : Memref sig .tc .vmem S1x1024 .f32 := Memref.whole cc1_scratch0

/-- The whole-buffer rectangles the body loads and stores through. -/
abbrev rw1 : Rect S1x512 := Rect.unit (s := S1x512) ![0, 0] S1x512.size inb_S1x512_S1x512_0_0
abbrev re1 : Rect S512x1024 := Rect.unit (s := S512x1024) ![0, 0] S512x1024.size inb_S512x1024_S512x1024_0_0
abbrev ra1 : Rect S1x1024 := Rect.unit (s := S1x1024) ![0, 0] S1x1024.size inb_S1x1024_S1x1024_0_0

/-- Every scoped buffer of the core that is neither a staging buffer of this pipeline nor the accumulator, at some
    contents each, and the generator register at some state: the part of the invariant the body never opens. -/
def rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The class's invariant, with the accumulator taken out of the scoped rest as a memref owned at some contents. -/
theorem PhiA1_eq (c : Dev nD) :
    (Pipeline.ΦA spec1 c : sProp 𝕄) = iprop((∃ d, owns (c : Thread nD τ) scM1 fullShare d) ∗ rest1 (F := F) c) := by
  unfold Pipeline.ΦA rest1
  rw [Pipeline.scopedRest_split_of_list spec1 c [cc1_scratch0] (by decide) (by decide)]
  simp only [bigSepL_singleton, scM1, owns_whole]
  exact (Std.Associative.assoc (op := (BI.sep : sProp 𝕄 → _ → _)) _ _ _)

/-- The body's one condition, from the grid coordinate: the point is the first. -/
abbrev cond1 (i : grid1.Coords) : Prop :=
  (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

/-- The accumulator after point `n`: zero plus the products of the weight blocks and the encoder blocks of the
    points up to `n`, summed in point order; the output's staging buffer holds a copy of it after every point. -/
def acc1 (c : Dev nD) : (n : ℕ) → n < cfg1.N → Vec F S1x1024 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (acc1 c n (Nat.lt_of_succ_lt hn))

/-- At the first point the sum starts from the stored zeros. -/
theorem acc1_zero (c : Dev nD) (h : 0 < cfg1.N) :
    acc1 V c 0 h = k1_pay2 (iblk1 V c 0 ⟨0, h⟩) (iblk1 V c 1 ⟨0, h⟩) (k1_pay1 (F := F)) := rfl

/-- At a later point it adds that point's product to what the point before left. -/
theorem acc1_succ (c : Dev nD) (n : ℕ) (h : n + 1 < cfg1.N) :
    acc1 V c (n + 1) h = k1_pay2 (iblk1 V c 0 ⟨n + 1, h⟩) (iblk1 V c 1 ⟨n + 1, h⟩) (acc1 V c n (Nat.lt_of_succ_lt h)) := rfl

/-- The same at a point given as such, by whether it is the first. -/
theorem acc1_first (c : Dev nD) (t : Fin cfg1.N) (h : t.val = 0) :
    acc1 V c t.val t.isLt = k1_pay2 (iblk1 V c 0 t) (iblk1 V c 1 t) (k1_pay1 (F := F)) := by
  obtain ⟨n, hn⟩ := t
  cases n with
  | zero => rfl
  | succ n => exact absurd h (Nat.succ_ne_zero n)
theorem acc1_later (c : Dev nD) (t : Fin cfg1.N) (h : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h
  | succ n => rfl

/-- The region's invariant before position `n`: before the first point the class's (the accumulator at anything);
    afterwards the accumulator at what the point before left in it, beside the part no body opens. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c)

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scM1 fullShare (acc1 V c n hn) ∗ rest1 (F := F) c) := rfl
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c) := by
  cases n with
  | zero => exact absurd rfl hz
  | succ n => rfl

/-- The proof data of pipeline 1 on core `c`: the arrays as the region finds them; after the body at a point each
    input's buffer at its block and the output's at the accumulator's contents; the invariant carrying the
    accumulator from point to point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- What the launch hands the region is the invariant before the first point. -/
theorem Phi1_in (c : Dev nD) : (dat1 V c).Φ 0 = Pipeline.ΦA spec1 c := by
  rw [show (dat1 V c).Φ 0 = Phi1 V c 0 (Nat.zero_le _) from rfl, Phi1_zero V c 0 _ rfl]

/-- After any point the invariant gives the class's back: the accumulator's named contents are forgotten. -/
theorem Phi1_forget (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨HS, Hr⟩
  isplitl [HS]
  · iexists _; iexact HS
  iexact Hr

theorem Phi1_out (c : Dev nD) : (dat1 V c).Φ (Fin.last cfg1.N) ⊢ Pipeline.ΦA spec1 c :=
  Phi1_forget V c _ (by rw [Fin.val_last]; have : cfg1.N = 4 := N_1; omega)

/-- The zero offsets of a rank-2 rectangle, as a constant function. -/
theorem zz1 : (![0, 0] : Fin 2 → Nat) = fun _ => 0 := funext fun a => by fin_cases a <;> rfl

/-- After stores the last of which fills the whole buffer, the buffer reads that store's payload, -/
theorem read_writes_whole1 {κ : Kind} {sp : Space} (v : View sig κ sp S1x1024 .f32) (f : v.ty.Contents (Elt F))
    (w : S1x1024.Idx → Elt F .f32) (L : List (View.Piece (Elt F) S1x1024 .f32)) :
    v.read (Elt F) (v.writes (Elt F) f (⟨Rect.unit (s := S1x1024) ![0, 0] S1x1024.size inb_S1x1024_S1x1024_0_0, w⟩ :: L)) = w := by
  rw [View.read_writes_eq_canon _ _ _ (fun y => ⟨_, List.mem_cons_self, View.mem_set_unit_zero zz1 inb_S1x1024_S1x1024_0_0 y⟩),
    View.canon_cons_unit_zero zz1]

/-- and so does a load of the whole buffer after them. -/
theorem readCov_whole1 {κ : Kind} {sp : Space} (v : View sig κ sp S1x1024 .f32)
    (w : S1x1024.Idx → Elt F .f32) (L : List (View.Piece (Elt F) S1x1024 .f32)) :
    v.readCov (⟨Rect.unit (s := S1x1024) ![0, 0] S1x1024.size inb_S1x1024_S1x1024_0_0, w⟩ :: L)
      (Rect.unit (s := S1x1024) ![0, 0] S1x1024.size inb_S1x1024_S1x1024_0_0).toLoadRect = w := by
  rw [View.readCov_eq_canon_ld _ _ _ (fun y => ⟨_, List.mem_cons_self, View.mem_set_unit_zero zz1 inb_S1x1024_S1x1024_0_0 y⟩),
    View.canon_cons_unit_zero zz1, View.ld_unit_zero zz1]

set_option maxHeartbeats 1000000 in
/-- The body at the first point, on whole memrefs, the inputs' at contents `x0 x1`, the output's and the
    accumulator's at anything: it zeroes the accumulator, adds the product of the two blocks, and copies the sum into
    the output's buffer; the inputs are as they were. -/
theorem sound_kernel1_first (c : Dev nD) (E : Set ℕ) (i : grid1.Coords) (hc : cond1 i)
    (arg1 : Memref sig .tc .vmem S1x512 .f32) (harg1 : arg1.IsWhole) (arg2 : Memref sig .tc .vmem S512x1024 .f32) (harg2 : arg2.IsWhole)
    (arg3 : Memref sig .tc .vmem S1x1024 .f32) (harg3 : arg3.IsWhole) (arg4 : Memref sig .tc .vmem S1x1024 .f32) (harg4 : arg4.IsWhole)
    (x0 : Vec F S1x512 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay2 x0 x1 (k1_pay1 (F := F)))
            ∗ owns (c : Thread nD τ) arg4 fullShare (k1_pay2 x0 x1 (k1_pay1 (F := F)))) -∗ K ⟨⟩))
      ⊢ wp frame (wpE (defs₀ (F := F)) Variants.none c none) E (cc1__attn_applied_kernel i arg1 harg1 arg2 harg2 arg3 harg3 arg4 harg4) K := by
  simp only [cc1__attn_applied_kernel_eq_skeleton]; unfold cc1__attn_applied_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole1, readCov_whole1, readCov_whole1]
    simp only [View.readAt_eq_ld, View.ld_unit_zero (S := S1x512) zz1, View.ld_unit_zero (S := S512x1024) zz1]
  iexists _; isplitr
  swap; · iexact H3
  ipureintro
  sl_unfold_run_names
  rw [read_writes_whole1, readCov_whole1]
  simp only [View.readAt_eq_ld, View.ld_unit_zero (S := S1x512) zz1, View.ld_unit_zero (S := S512x1024) zz1]

set_option maxHeartbeats 1000000 in
/-- The body at a later point, the accumulator at contents `xs`: it adds the product of the two blocks to `xs` and
    copies the sum into the output's buffer. -/
theorem sound_kernel1_later (c : Dev nD) (E : Set ℕ) (i : grid1.Coords) (hc : ¬cond1 i)
    (arg1 : Memref sig .tc .vmem S1x512 .f32) (harg1 : arg1.IsWhole) (arg2 : Memref sig .tc .vmem S512x1024 .f32) (harg2 : arg2.IsWhole)
    (arg3 : Memref sig .tc .vmem S1x1024 .f32) (harg3 : arg3.IsWhole) (arg4 : Memref sig .tc .vmem S1x1024 .f32) (harg4 : arg4.IsWhole)
    (x0 : Vec F S1x512 .f32) (x1 : Vec F S512x1024 .f32) (xs : Vec F S1x1024 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k1_pay2 x0 x1 xs)
            ∗ owns (c : Thread nD τ) arg4 fullShare (k1_pay2 x0 x1 xs)) -∗ K ⟨⟩))
      ⊢ wp frame (wpE (defs₀ (F := F)) Variants.none c none) E (cc1__attn_applied_kernel i arg1 harg1 arg2 harg2 arg3 harg3 arg4 harg4) K := by
  simp only [cc1__attn_applied_kernel_eq_skeleton]; unfold cc1__attn_applied_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole1, readCov_whole1]
    simp only [View.readAt_eq_ld, View.ld_unit_zero (S := S1x512) zz1, View.ld_unit_zero (S := S512x1024) zz1, View.ld_unit_zero (S := S1x1024) zz1]
  iexists _; isplitr
  swap; · iexact H3
  ipureintro
  sl_unfold_run_names
  rw [read_writes_whole1]
  simp only [View.readAt_eq_ld, View.ld_unit_zero (S := S1x512) zz1, View.ld_unit_zero (S := S512x1024) zz1, View.ld_unit_zero (S := S1x1024) zz1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: the inputs' memrefs hold their blocks; at the first point the invariant hands over the
    accumulator at anything and the body's first case applies, at a later point it hands it over at what the point
    before left and the second case applies; either way the invariant takes the accumulator back at this point's sum,
    which is also what the output's buffer is left at; the rest of the invariant and the core's dues pass through
    unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Phi1 V c (t.val + 1) t.isLt from rfl, Phi1_succ,
    after1_0, after1_1, after1_2, Phi1_castSucc]
  by_cases hz : t.val = 0
  · rw [Phi1_zero V c _ _ hz, PhiA1_eq, acc1_first V c t hz]
    iintro ⟨⟨HS, Hr⟩, Ho, ⟨%d0, H0⟩, ⟨%d1, H1⟩, ⟨%d2, H2⟩⟩
    iapply (sound_kernel1_first c Set.univ _ ((hcond1 t).mpr hz) _ _ _ _ _ _ _ _ (iblk1 V c 0 t) (iblk1 V c 1 t) _)
    isplitl [H0]; · iexact H0
    isplitl [H1]; · iexact H1
    isplitl [H2]; · iexists _; iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · rw [Phi1_pos V c _ _ hz, acc1_later V c t hz]
    iintro ⟨⟨HS, Hr⟩, Ho, ⟨%d0, H0⟩, ⟨%d1, H1⟩, ⟨%d2, H2⟩⟩
    iapply (sound_kernel1_later c Set.univ _ (fun h => hz ((hcond1 t).mp h)) _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2, the combine and recurrent step: one grid point, nine windows.  The body loads the concatenated row
  (1 x 2048), the previous hidden row (1 x 1024), the combine matrix (1024 x 2048) with its bias (1 x 1024), the two
  gate matrices (3072 x 1024 each) with their biases (1 x 3072 each), forms relu(row * combineᵀ + bias), the two
  gate pre-activations, the reset and update gates and the candidate, and stores
  (1 - z) * tanh(n_in + r * n_hid) + z * h into its 1 x 1024 output block.  Stated at any float instance and at any
  contents `V` the region is entered from: what the output's staging buffer holds after the body (`out2_8`), the
  body's triple, the pipeline's proof data (each input window left at its block, the output at `out2_8` of the
  blocks) and the body obligation at the one point.
-/
import proofs.«423497_j70342974374383_1_alg».proof.Proof.Gen.KernelIdeal.Launch
import proofs.«423497_j70342974374383_1_alg».proof.Proof.Gen.KernelIdeal.Skeleton
import proofs.«423497_j70342974374383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at the point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rc2 : Rect S1x2048 := Rect.unit (s := S1x2048) ![0, 0] S1x2048.size inb_S1x2048_S1x2048_0_0
abbrev rh2 : Rect S1x1024 := Rect.unit (s := S1x1024) ![0, 0] S1x1024.size inb_S1x1024_S1x1024_0_0
abbrev rm2 : Rect S1024x2048 := Rect.unit (s := S1024x2048) ![0, 0] S1024x2048.size inb_S1024x2048_S1024x2048_0_0
abbrev rg2 : Rect S3072x1024 := Rect.unit (s := S3072x1024) ![0, 0] S3072x1024.size inb_S3072x1024_S3072x1024_0_0
abbrev rb2 : Rect S1x3072 := Rect.unit (s := S1x3072) ![0, 0] S1x3072.size inb_S1x3072_S1x3072_0_0

/-- The output's staging buffer after the body, from the eight input buffers: its one store as a piece. -/
def out2_8 (x0 : Vec F S1x2048 .f32) (x1 : Vec F S1x1024 .f32) (x2 : Vec F S1024x2048 .f32) (x3 : Vec F S1x1024 .f32)
    (x4 : Vec F S3072x1024 .f32) (x5 : Vec F S3072x1024 .f32) (x6 : Vec F S1x3072 .f32) (x7 : Vec F S1x3072 .f32) : Vec F S1x1024 .f32 :=
  View.canon [⟨rh2, k2_pay1 (k2_pay2 (View.ld x1 rh2)) (k2_pay4 (View.ld x1 rh2) (View.ld x5 rg2) (View.ld x7 rb2))
    (k2_pay5 (View.ld x0 rc2) (View.ld x2 rm2) (View.ld x3 rh2) (View.ld x1 rh2) (View.ld x4 rg2) (View.ld x5 rg2) (View.ld x6 rb2) (View.ld x7 rb2))
    (k2_pay6 (View.ld x0 rc2) (View.ld x2 rm2) (View.ld x3 rh2) (View.ld x1 rh2) (View.ld x4 rg2) (View.ld x5 rg2) (View.ld x6 rb2) (View.ld x7 rb2))
    (k2_pay7 (View.ld x0 rc2) (View.ld x2 rm2) (View.ld x3 rh2) (View.ld x4 rg2) (View.ld x6 rb2))⟩]

/-- The one store covers the buffer. -/
theorem cover2_8 (p0 : Vec F S1x1024 .f32) (y : S1x1024.Idx) :
    ∃ pc ∈ ([⟨rh2, p0⟩] : List (View.Piece (Elt F) S1x1024 .f32)), y ∈ pc.1.set :=
  View.cover_of_tiled [⟨rh2, p0⟩] S1x1024.size (by rfl) y

set_option maxHeartbeats 1000000 in
/-- The body on whole staging memrefs, the inputs' at contents `x0 … x7` and the output's at anything, runs to
    the continuation holding the inputs' as they were and the output's at `out2_8` of them. -/
theorem sound_kernel2 (c : Dev nD) (E : Set ℕ) (i : grid2.Coords)
    (arg1 : Memref sig .tc .vmem S1x2048 .f32) (harg1 : arg1.IsWhole) (arg2 : Memref sig .tc .vmem S1x1024 .f32) (harg2 : arg2.IsWhole)
    (arg3 : Memref sig .tc .vmem S1024x2048 .f32) (harg3 : arg3.IsWhole) (arg4 : Memref sig .tc .vmem S1x1024 .f32) (harg4 : arg4.IsWhole)
    (arg5 : Memref sig .tc .vmem S3072x1024 .f32) (harg5 : arg5.IsWhole) (arg6 : Memref sig .tc .vmem S3072x1024 .f32) (harg6 : arg6.IsWhole)
    (arg7 : Memref sig .tc .vmem S1x3072 .f32) (harg7 : arg7.IsWhole) (arg8 : Memref sig .tc .vmem S1x3072 .f32) (harg8 : arg8.IsWhole)
    (arg9 : Memref sig .tc .vmem S1x1024 .f32) (harg9 : arg9.IsWhole)
    (x0 : Vec F S1x2048 .f32) (x1 : Vec F S1x1024 .f32) (x2 : Vec F S1024x2048 .f32) (x3 : Vec F S1x1024 .f32)
    (x4 : Vec F S3072x1024 .f32) (x5 : Vec F S3072x1024 .f32) (x6 : Vec F S1x3072 .f32) (x7 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E
          (cc2__comb_gru_kernel i arg1 harg1 arg2 harg2 arg3 harg3 arg4 harg4 arg5 harg5 arg6 harg6 arg7 harg7 arg8 harg8 arg9 harg9) K := by
  simp only [cc2__comb_gru_kernel_eq_skeleton]; unfold cc2__comb_gru_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-- The proof data of pipeline 2 on core `c`: the arrays as the region finds them; after the body each input's
    buffer at its block and the output's at `out2_8` of the blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t)
        (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t)
      (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at the point, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at the point: the inputs' memrefs hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t)
    (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of pipeline 2, at its one point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3, the output logits: one grid point per 2048 rows of out_W (50257 rows: 25 points, the last block
  overhanging the matrix by 943 rows).  The body loads the whole hidden row h_new (1 x 1024, staged once), the
  point's 2048 x 1024 block of out_W and its 1 x 2048 block of the bias row, and stores h_new * blockᵀ + bias into
  its 1 x 2048 output block.  At the last point the transfers of the matrix, the bias and the output are cut at the
  arrays' ends: a fetch fills only the part of the staging buffer inside the array and leaves the rest at contents
  nothing names, and only the part inside the array is written back.  Stated here: what the output's staging buffer
  holds after the body (`out3_3`), the body's triple at any float instance, the pipeline's proof data (each cut
  window described on the part its transfers move, filled out with a fixed element), and, at the ideal floats, the
  body obligation up to the unmoved parts: there output column j is bias[j] + Σ_k h[k]·W[j,k], so a column inside
  the array reads only rows of the block and entries of the bias inside their arrays.
-/
import proofs.«423497_j70342974374383_1_alg».proof.Proof.Gen.KernelIdeal.Launch
import proofs.«423497_j70342974374383_1_alg».proof.Proof.Gen.KernelIdeal.Skeleton
import proofs.«423497_j70342974374383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section AnyFloats

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, its part inside the array, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The same filled out to the whole staging buffer with a fixed element past the array's end (nothing reads it:
    a cut window's buffer is described on the moved part only). -/
def fblk3 (c : Dev nD) (w : Fin cfg3.W) (t : Fin cfg3.N) : (cfg3.win w).block.Idx → Elt F (cfg3.win w).elt :=
  (cfg3.win w).fill (cfg3.grid.coords t) (fun _ => Classical.arbitrary _) (iblk3 V c w t)

/-- The whole-buffer rectangles the body loads and stores through. -/
abbrev rh3 : Rect S1x1024 := Rect.unit (s := S1x1024) ![0, 0] S1x1024.size inb_S1x1024_S1x1024_0_0
abbrev rw3 : Rect S2048x1024 := Rect.unit (s := S2048x1024) ![0, 0] S2048x1024.size inb_S2048x1024_S2048x1024_0_0
abbrev rb3 : Rect S1x2048 := Rect.unit (s := S1x2048) ![0, 0] S1x2048.size inb_S1x2048_S1x2048_0_0

/-- The output's staging buffer after the body, from the three input buffers: its one store as a piece. -/
def out3_3 (x0 : Vec F S1x1024 .f32) (x1 : Vec F S2048x1024 .f32) (x2 : Vec F S1x2048 .f32) : Vec F S1x2048 .f32 :=
  View.canon [⟨rb3, k3_pay1 (View.ld x0 rh3) (View.ld x1 rw3) (View.ld x2 rb3)⟩]

/-- The one store covers the buffer. -/
theorem cover3_3 (p0 : Vec F S1x2048 .f32) (y : S1x2048.Idx) :
    ∃ pc ∈ ([⟨rb3, p0⟩] : List (View.Piece (Elt F) S1x2048 .f32)), y ∈ pc.1.set :=
  View.cover_of_tiled [⟨rb3, p0⟩] S1x2048.size (by rfl) y

set_option maxHeartbeats 1000000 in
/-- The body on whole staging memrefs, the inputs' at contents `x0 x1 x2` and the output's at anything, runs to
    the continuation holding the inputs' as they were and the output's at `out3_3` of them. -/
theorem sound_kernel3 (c : Dev nD) (E : Set ℕ) (i : grid3.Coords)
    (arg1 : Memref sig .tc .vmem S1x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__out_logits_kernel i arg1 harg1 arg2 harg2 arg3 harg3 arg4 harg4) K := by
  simp only [cc3__out_logits_kernel_eq_skeleton]; unfold cc3__out_logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body at a point the
    hidden row's buffer at its block, the matrix's and the bias's at their blocks filled out, the output's at
    `out3_3` of those; the invariant the scoped rest and the generator register, untouched; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => fblk3 V c 1 t
    | ⟨2, _⟩ => fblk3 V c 2 t
    | ⟨3, _⟩ => out3_3 (iblk3 V c 0 t) (fblk3 V c 1 t) (fblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = fblk3 V c 1 t := by dsimp only [dat3]
theorem after3_2 (c : Dev nD) (t : Fin cfg3.N) : (dat3 V c).after 2 t = fblk3 V c 2 t := by dsimp only [dat3]
theorem after3_3 (c : Dev nD) (t : Fin cfg3.N) :
    (dat3 V c).after 3 t = out3_3 (iblk3 V c 0 t) (fblk3 V c 1 t) (fblk3 V c 2 t) := by dsimp only [dat3]

/-! ## What the body finds in the inputs' buffers -/

/-- The hidden row's buffer holds its block at every point, fetched there or not (it is fetched at the first point
    only: its block index never moves), for any proof data whose array is `V`'s and whose body leaves the block in
    place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The matrix's and the bias's buffers are fetched at every point: each holds its block on the part inside the
    array and, past the array's end, contents `d` nothing names, for any proof data whose arrays are `V`'s. -/
theorem before3_1_of {c : Dev nD} (dat : Dat τ (Elt F) Unit ℕ (UR sig nD τ) ℕ cfg3 c) (hA : dat.A 1 = V c (Pipeline.arrRef spec3 1))
    (t : Fin cfg3.N) (d) : dat.before 1 t d = (cfg3.win 1).fill (cfg3.grid.coords t) d (iblk3 V c 1 t) :=
  (dat.before_fetched 1 t (fetch3_1 t) d).trans (by unfold Dat.fetched Dat.blockOf iblk3; rw [hA])
theorem before3_2_of {c : Dev nD} (dat : Dat τ (Elt F) Unit ℕ (UR sig nD τ) ℕ cfg3 c) (hA : dat.A 2 = V c (Pipeline.arrRef spec3 2))
    (t : Fin cfg3.N) (d) : dat.before 2 t d = (cfg3.win 2).fill (cfg3.grid.coords t) d (iblk3 V c 2 t) :=
  (dat.before_fetched 2 t (fetch3_2 t) d).trans (by unfold Dat.fetched Dat.blockOf iblk3; rw [hA])

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) :
    (dat3 V c).before 1 t d = (cfg3.win 1).fill (cfg3.grid.coords t) d (iblk3 V c 1 t) :=
  before3_1_of V (dat3 V c) (A_eq3 V c 1) t d
theorem before3_2 (c : Dev nD) (t : Fin cfg3.N) (d) :
    (dat3 V c).before 2 t d = (cfg3.win 2).fill (cfg3.grid.coords t) d (iblk3 V c 2 t) :=
  before3_2_of V (dat3 V c) (A_eq3 V c 2) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: the hidden row's buffer at its block; each cut window's buffer at anything that is its
    stated contents on the part the window's transfers move. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare
        ((cfg3.win 1).fill (cfg3.grid.coords t) d ((cfg3.win 1).cut (cfg3.grid.coords t) ((dat3 V c).after 1 t))))
    ∗ (∃ d, owns (c : Thread nD τ) (st3_2 t) fullShare
        ((cfg3.win 2).fill (cfg3.grid.coords t) d ((cfg3.win 2).cut (cfg3.grid.coords t) ((dat3 V c).after 2 t))))
    ∗ (∃ d, owns (c : Thread nD τ) (st3_3 t) fullShare
        ((cfg3.win 3).fill (cfg3.grid.coords t) d ((cfg3.win 3).cut (cfg3.grid.coords t) ((dat3 V c).after 3 t)))))

end AnyFloats

/-! ## At the ideal floats: one output column reads one row of the block and one entry of the bias -/

section IdealFloats

local notation "𝕄ᵢ" => MT nD τ sig Unit (Elt Ideal) ℕ (UR sig nD τ) ℕ

theorem zero2 : (![0, 0] : Fin 2 → Nat) = fun _ => 0 := funext fun a => by fin_cases a <;> rfl

/-- The output's buffer after the body is the payload of the inputs' buffers (the one store covers it, the loads
    read whole buffers). -/
theorem out3_3_eq {F : FTy → Type} [FloatOps F] (x0 : Vec F S1x1024 .f32) (x1 : Vec F S2048x1024 .f32) (x2 : Vec F S1x2048 .f32) :
    out3_3 x0 x1 x2 = k3_pay1 x0 x1 x2 := by
  unfold out3_3
  rw [View.canon_unit_zero zero2, View.ld_unit_zero zero2, View.ld_unit_zero zero2, View.ld_unit_zero zero2]

/-- Column `j` of the output is the bias at `j` plus the product of the hidden row with row `j` of the block: two
    blocks that agree on row `j` and two bias rows that agree at `j` give the same column `j`. -/
theorem out3_3_congr (x0 : Vec Ideal S1x1024 .f32) (x1 x1' : Vec Ideal S2048x1024 .f32) (x2 x2' : Vec Ideal S1x2048 .f32)
    (j : S1x2048.Idx) (h1 : ∀ i : S2048x1024.Idx, (i 0).val = (j 1).val → x1 i = x1' i) (h2 : x2 j = x2' j) :
    out3_3 x0 x1 x2 j = out3_3 x0 x1' x2' j := by
  rw [out3_3_eq, out3_3_eq]
  unfold k3_pay1
  dsimp only
  unfold addf
  rw [shapeCast_self x2, shapeCast_self x2', h2]
  refine congrArg (fun z : Ideal .f32 => FloatOps.addf z (show Ideal .f32 from x2' j)) ?_
  simp only [matmul]
  rw [Ideal.matmul_constant_zero_apply, Ideal.matmul_constant_zero_apply]
  refine Finset.sum_congr rfl fun k _ => ?_
  congr 1
  unfold transpose truncf
  rw [h1 _ rfl]

variable (V : (c : Dev nD) → (b : Ref sig .tc) → Buf (Elt Ideal) ((c : Thread nD τ).loc b))

/-- On the part of the output's buffer that is written back, what the body computes from the matrix's and the
    bias's buffers does not depend on what they hold past their arrays' ends: a column that is written back lies
    inside the output array, so its row of the matrix and its entry of the bias lie inside theirs (the three
    windows are cut at the same column). -/
theorem cut_out3_3 (c : Dev nD) (t : Fin cfg3.N) (x0 : Vec Ideal S1x1024 .f32)
    (d1 d1' : (cfg3.win 1).block.Idx → Elt Ideal (cfg3.win 1).elt) (d2 d2' : (cfg3.win 2).block.Idx → Elt Ideal (cfg3.win 2).elt) :
    (cfg3.win 3).cut (cfg3.grid.coords t)
        (out3_3 x0 ((cfg3.win 1).fill (cfg3.grid.coords t) d1 (iblk3 V c 1 t)) ((cfg3.win 2).fill (cfg3.grid.coords t) d2 (iblk3 V c 2 t)))
      = (cfg3.win 3).cut (cfg3.grid.coords t)
        (out3_3 x0 ((cfg3.win 1).fill (cfg3.grid.coords t) d1' (iblk3 V c 1 t)) ((cfg3.win 2).fill (cfg3.grid.coords t) d2' (iblk3 V c 2 t))) := by
  funext j
  have hj : ∀ a, (j a).val < (cfg3.win 3).xsize (cfg3.grid.coords t) a := fun a => (j a).isLt
  refine out3_3_congr x0 _ _ _ _ ((cfg3.win 3).xinj (cfg3.grid.coords t) j) (fun i hi => ?_) ?_
  · have hm : (cfg3.win 1).moved (cfg3.grid.coords t) i = true := ((cfg3.win 1).moved_iff _ i).mpr fun a => by
      match a with
      | ⟨0, _⟩ => exact hi ▸ hj 1
      | ⟨1, _⟩ => exact (i 1).isLt
    unfold Window.fill; rw [dif_pos hm, dif_pos hm]
  · have hm : (cfg3.win 2).moved (cfg3.grid.coords t) ((cfg3.win 3).xinj (cfg3.grid.coords t) j) = true :=
      ((cfg3.win 2).moved_iff _ _).mpr fun a => hj a
    unfold Window.fill; rw [dif_pos hm, dif_pos hm]

set_option maxHeartbeats 1000000 in
/-- The body at any point: the hidden row's memref holds its block, the matrix's and the bias's their blocks filled
    out with whatever the cut fetches left past the arrays' ends, so `sound_kernel3` applies at those contents; the
    inputs are handed back as found, which on the moved parts is what the proof data state, and so is the output
    (`cut_out3_3`); the invariant and the core's dues pass through unread. -/
theorem sound_body3 (c : Dev nD) (t : Fin cfg3.N) :
    bodyPre3 V c t ⊢ wp frame (wpE (defs₀ (F := Ideal)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t)
    ((cfg3.win 1).fill (cfg3.grid.coords t) d1 (iblk3 V c 1 t)) ((cfg3.win 2).fill (cfg3.grid.coords t) d2 (iblk3 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  have h1 : (cfg3.win 1).cut (cfg3.grid.coords t) (fblk3 V c 1 t) = iblk3 V c 1 t := (cfg3.win 1).cut_fill _ _ _
  have h2 : (cfg3.win 2).cut (cfg3.grid.coords t) (fblk3 V c 2 t) = iblk3 V c 2 t := (cfg3.win 2).cut_fill _ _ _
  have h3 : (cfg3.win 3).cut (cfg3.grid.coords t)
        (out3_3 (iblk3 V c 0 t) ((cfg3.win 1).fill (cfg3.grid.coords t) d1 (iblk3 V c 1 t)) ((cfg3.win 2).fill (cfg3.grid.coords t) d2 (iblk3 V c 2 t)))
      = (cfg3.win 3).cut (cfg3.grid.coords t) (out3_3 (iblk3 V c 0 t) (fblk3 V c 1 t) (fblk3 V c 2 t)) :=
    cut_out3_3 V c t _ d1 _ d2 _
  isplitl [H1]
  · iexists d1; rw [h1]; iexact H1
  isplitl [H2]
  · iexists d2; rw [h2]; iexact H2
  · iexists (out3_3 (iblk3 V c 0 t) ((cfg3.win 1).fill (cfg3.grid.coords t) d1 (iblk3 V c 1 t)) ((cfg3.win 2).fill (cfg3.grid.coords t) d2 (iblk3 V c 2 t)))
    rw [(cfg3.win 3).fill_congr_cut _ h3]; iexact H3

/-- The body obligation of pipeline 3 at the ideal floats, at every point, each cut window's buffer described on the
    part its transfers move. -/
theorem body_obligation3_loose (c : Dev nD) :
    BodyObligationLoose (dat3 (F := Ideal) V c) (defs₀ (F := Ideal)) Variants.none () Set.univ := fun t => by
  rw [bigSep_W3, bigSep_W3]
  exact sound_body3 V c t

end IdealFloats

end Cert.KernelIdeal.Hand

end
-- ==== Proof.KI.Fold.lean ====
/-
  The contents of the TensorCore's buffers between the items of @main, and every pipeline's proof data at the
  contents its region is entered from.  Between two items the buffers hold the launch memory pushed through the host
  stretches so far, each region's output array at what that region's write-backs leave (`outs`); the four equations
  `OutsOk` say that `outs` is exactly that: region 0 leaves the attention logits, region 1 the weighted sum of the
  encoder rows, region 2 the new hidden state, region 3 the output logits.
-/
import proofs.«423497_j70342974374383_1_alg».proof.Proof.KI.Reg0
import proofs.«423497_j70342974374383_1_alg».proof.Proof.KI.Reg1
import proofs.«423497_j70342974374383_1_alg».proof.Proof.KI.Reg2
import proofs.«423497_j70342974374383_1_alg».proof.Proof.KI.Reg3
import proofs.«423497_j70342974374383_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- The contents each region is entered from, and left at, read at the TensorCore's references. -/
abbrev E2 : (c : Dev nD) → (b : Ref sig .tc) → Buf (Elt F) ((c : Thread nD τ).loc b) := fun c b => V2 m c b
abbrev E3 : (c : Dev nD) → (b : Ref sig .tc) → Buf (Elt F) ((c : Thread nD τ).loc b) := fun c b => V3 m outs c b
abbrev E4 : (c : Dev nD) → (b : Ref sig .tc) → Buf (Elt F) ((c : Thread nD τ).loc b) := fun c b => V4 m outs c b
abbrev E5 : (c : Dev nD) → (b : Ref sig .tc) → Buf (Elt F) ((c : Thread nD τ).loc b) := fun c b => V5 m outs c b
abbrev E6 : (c : Dev nD) → (b : Ref sig .tc) → Buf (Elt F) ((c : Thread nD τ).loc b) := fun c b => V6 m outs c b
abbrev E7 : (c : Dev nD) → (b : Ref sig .tc) → Buf (Elt F) ((c : Thread nD τ).loc b) := fun c b => V7 m outs c b
abbrev E8 : (c : Dev nD) → (b : Ref sig .tc) → Buf (Elt F) ((c : Thread nD τ).loc b) := fun c b => V8 m outs c b
abbrev E9 : (c : Dev nD) → (b : Ref sig .tc) → Buf (Elt F) ((c : Thread nD τ).loc b) := fun c b => V9 m outs c b

/-- Every pipeline's proof data, each at its region's entry contents. -/
def pdats : (p : Fin 4) → (c : Dev nD) → Dat τ (Elt F) Unit ℕ (UR sig nD τ) ℕ (cfgs p) c
  | ⟨0, _⟩ => fun c => dat0 (E2 m) c
  | ⟨1, _⟩ => fun c => dat1 (E4 m outs) c
  | ⟨2, _⟩ => fun c => dat2 (E6 m outs) c
  | ⟨3, _⟩ => fun c => dat3 (E8 m outs) c

/-- `outs` names what each region's write-backs leave in its output array. -/
structure OutsOk : Prop where
  h3 : ∀ c, outs 3 main_v5 c = (dat0 (E2 m) c).arrAt 3 cfg0.N
  h5 : ∀ c, outs 5 main_v17 c = (dat1 (E4 m outs) c).arrAt 2 cfg1.N
  h7 : ∀ c, outs 7 main_v22 c = (dat2 (E6 m outs) c).arrAt 8 cfg2.N
  h9 : ∀ c, outs 9 main_v24 c = (dat3 (E8 m outs) c).arrAt 3 cfg3.N

variable {m outs}

/-! At a region's exit each of its arrays holds what the pipeline leaves — an input what it held, the output the
    write-backs — and every other buffer what it held at entry. -/

theorem hF0 (hO : OutsOk m outs) (c : Dev nD) (w : Fin cfg0.W) :
    (dat0 (E2 m) c).arrAt w cfg0.N = E3 m outs c (Pipeline.arrRef spec0 w) :=
  match w with
  | ⟨0, _⟩ => (((dat0 (E2 m) c).arrAt_in 0 rfl _).trans (A_eq0 (E2 m) c 0)).trans (V3_of m outs c _ (by decide)).symm
  | ⟨1, _⟩ => (((dat0 (E2 m) c).arrAt_in 1 rfl _).trans (A_eq0 (E2 m) c 1)).trans (V3_of m outs c _ (by decide)).symm
  | ⟨2, _⟩ => (((dat0 (E2 m) c).arrAt_in 2 rfl _).trans (A_eq0 (E2 m) c 2)).trans (V3_of m outs c _ (by decide)).symm
  | ⟨3, _⟩ => (hO.h3 c).symm.trans (by show _ = V3 m outs c main_v5; simp only [V3, Function.update_self])
theorem hrest0 (c : Dev nD) : ∀ b, b ∉ Finset.univ.image (Pipeline.arrRef spec0) → E3 m outs c b = E2 m c b :=
  fun b hb => V3_of m outs c b fun h => hb (Finset.mem_image.mpr ⟨3, Finset.mem_univ _, (List.mem_singleton.mp h).symm⟩)

theorem hF1 (hO : OutsOk m outs) (c : Dev nD) (w : Fin cfg1.W) :
    (dat1 (E4 m outs) c).arrAt w cfg1.N = E5 m outs c (Pipeline.arrRef spec1 w) :=
  match w with
  | ⟨0, _⟩ => (((dat1 (E4 m outs) c).arrAt_in 0 rfl _).trans (A_eq1 (E4 m outs) c 0)).trans (V5_of m outs c _ (by decide)).symm
  | ⟨1, _⟩ => (((dat1 (E4 m outs) c).arrAt_in 1 rfl _).trans (A_eq1 (E4 m outs) c 1)).trans (V5_of m outs c _ (by decide)).symm
  | ⟨2, _⟩ => (hO.h5 c).symm.trans (by show _ = V5 m outs c main_v17; simp only [V5, Function.update_self])
theorem hrest1 (c : Dev nD) : ∀ b, b ∉ Finset.univ.image (Pipeline.arrRef spec1) → E5 m outs c b = E4 m outs c b :=
  fun b hb => V5_of m outs c b fun h => hb (Finset.mem_image.mpr ⟨2, Finset.mem_univ _, (List.mem_singleton.mp h).symm⟩)

set_option maxHeartbeats 4000000 in
theorem hF2 (hO : OutsOk m outs) (c : Dev nD) (w : Fin cfg2.W) :
    (dat2 (E6 m outs) c).arrAt w cfg2.N = E7 m outs c (Pipeline.arrRef spec2 w) :=
  match w with
  | ⟨0, _⟩ => (((dat2 (E6 m outs) c).arrAt_in 0 rfl _).trans (A_eq2 (E6 m outs) c 0)).trans (V7_of m outs c _ (by decide)).symm
  | ⟨1, _⟩ => (((dat2 (E6 m outs) c).arrAt_in 1 rfl _).trans (A_eq2 (E6 m outs) c 1)).trans (V7_of m outs c _ (by decide)).symm
  | ⟨2, _⟩ => (((dat2 (E6 m outs) c).arrAt_in 2 rfl _).trans (A_eq2 (E6 m outs) c 2)).trans (V7_of m outs c _ (by decide)).symm
  | ⟨3, _⟩ => (((dat2 (E6 m outs) c).arrAt_in 3 rfl _).trans (A_eq2 (E6 m outs) c 3)).trans (V7_of m outs c _ (by decide)).symm
  | ⟨4, _⟩ => (((dat2 (E6 m outs) c).arrAt_in 4 rfl _).trans (A_eq2 (E6 m outs) c 4)).trans (V7_of m outs c _ (by decide)).symm
  | ⟨5, _⟩ => (((dat2 (E6 m outs) c).arrAt_in 5 rfl _).trans (A_eq2 (E6 m outs) c 5)).trans (V7_of m outs c _ (by decide)).symm
  | ⟨6, _⟩ => (((dat2 (E6 m outs) c).arrAt_in 6 rfl _).trans (A_eq2 (E6 m outs) c 6)).trans (V7_of m outs c _ (by decide)).symm
  | ⟨7, _⟩ => (((dat2 (E6 m outs) c).arrAt_in 7 rfl _).trans (A_eq2 (E6 m outs) c 7)).trans (V7_of m outs c _ (by decide)).symm
  | ⟨8, _⟩ => (hO.h7 c).symm.trans (by show _ = V7 m outs c main_v22; simp only [V7, Function.update_self])
theorem hrest2 (c : Dev nD) : ∀ b, b ∉ Finset.univ.image (Pipeline.arrRef spec2) → E7 m outs c b = E6 m outs c b :=
  fun b hb => V7_of m outs c b fun h => hb (Finset.mem_image.mpr ⟨8, Finset.mem_univ _, (List.mem_singleton.mp h).symm⟩)

theorem hF3 (hO : OutsOk m outs) (c : Dev nD) (w : Fin cfg3.W) :
    (dat3 (E8 m outs) c).arrAt w cfg3.N = E9 m outs c (Pipeline.arrRef spec3 w) :=
  match w with
  | ⟨0, _⟩ => (((dat3 (E8 m outs) c).arrAt_in 0 rfl _).trans (A_eq3 (E8 m outs) c 0)).trans (V9_of m outs c _ (by decide)).symm
  | ⟨1, _⟩ => (((dat3 (E8 m outs) c).arrAt_in 1 rfl _).trans (A_eq3 (E8 m outs) c 1)).trans (V9_of m outs c _ (by decide)).symm
  | ⟨2, _⟩ => (((dat3 (E8 m outs) c).arrAt_in 2 rfl _).trans (A_eq3 (E8 m outs) c 2)).trans (V9_of m outs c _ (by decide)).symm
  | ⟨3, _⟩ => (hO.h9 c).symm.trans (by show _ = V9 m outs c main_v24; simp only [V9, Function.update_self])
theorem hrest3 (c : Dev nD) : ∀ b, b ∉ Finset.univ.image (Pipeline.arrRef spec3) → E9 m outs c b = E8 m outs c b :=
  fun b hb => V9_of m outs c b fun h => hb (Finset.mem_image.mpr ⟨3, Finset.mem_univ _, (List.mem_singleton.mp h).symm⟩)

end Cert.KernelIdeal.Hand

end
-- ==== Proof.KI.Run.lean ====
/-
  The run of the idealized kernel program: @main as its eleven segments — seven stretches of host operations and
  the four kernel regions — launched once; every weakly fair execution terminates and the final memory holds every
  unscoped buffer at the last boundary's contents.  The frame claim and the three results are read off that.
-/
import proofs.«423497_j70342974374383_1_alg».proof.Proof.KI.Segs3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

-- the launch theorem's implicit arguments are found by unifying its conclusion with this one, which takes unfolding
-- plain definitions in a metavariable's type
set_option backward.isDefEq.respectTransparency.types false in
/-- The launch over @main's segments, given one record per region entered from and left at this module's thread
    states: every weakly fair execution of @main from memory `m` with zero counters terminates, and the final memory
    holds EVERY unscoped buffer of every core at the last boundary's contents `V11 m outs c` — the arguments, and the
    three results among them. -/
theorem vals_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c)) :
    θ_run defs (onTc (τ := τ) (main (F := F))) ⟨m, fun _ => 0, ρ⟩ (fun r => ∀ c : Dev nD,
      ∀ b ∈ Pipeline.ucRefs τ sig, r.2.mem (((c : Thread nD τ)).1, b) = V11 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, .rfl, hpre0 c, hpost0 c, hpre1 c, hpost1 c, hpre2 c, hpost2 c, hpre3 c, hpost3 c, .rfl, sep_mono .rfl (hE4 c)⟩)
    (hinit := ?_) (QY := fun c s => ∀ b ∈ Pipeline.ucRefs τ sig, s.mem (((c : Thread nD τ)).1, b) = V11 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact h
    · iexact HSI

end Cert.KernelIdeal.Hand

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄ᵢ" => MT nD τ sig Unit (Elt Ideal) ℕ (UR sig nD τ) ℕ

/-- At the ideal instance: from any memory `m` with zero counters every weakly fair execution of @main terminates
    with every unscoped buffer at the last boundary's contents, `outs` being what the regions leave. -/
theorem run_vals (m : (ℓ : Loc nD τ sig) → Buf (Elt Ideal) ℓ) (ρ : Dev nD → PrngReg) (outs : Outs (F := Ideal)) (hO : OutsOk m outs) :
    θ_run defs (onTc (τ := τ) (main (F := Ideal))) ⟨m, fun _ => 0, ρ⟩ (fun r => ∀ c : Dev nD,
      ∀ b ∈ Pipeline.ucRefs τ sig, r.2.mem (((c : Thread nD τ)).1, b) = V11 m outs c b) :=
  vals_cond (F := Ideal) m emb₁ () 𝒱₀ L lv (fun _ _ => rfl) ρ outs (pdats m outs) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄ᵢ)
            ⊢ BI.own (emb₁ (initOf (Pipeline.cells cfgs cellOf_inj) (Pipeline.launchToks cfgs cellOf_inj))) from .rfl)
        iexact Hu
      iapply (show (BI.emp : sProp 𝕄ᵢ) ⊢ bigSep Finset.univ (fun _ : Dev nD => (BI.emp : sProp 𝕄ᵢ)) from by rw [BI.bigSep_emp_const])
      iempintro)
    (fun _ c => R c)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄ᵢ) ⊢ (R c : sProp 𝕄ᵢ) := fun c => by
        iintro ⟨-, HO, -, Hp, -⟩
        isplitl [Hp]; · iexists _; iexact Hp
        iexists ∅; iexact HO
      have hmono : (bigSep Finset.univ (fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp))) : sProp 𝕄ᵢ)
          ⊢ bigSep Finset.univ (fun c : Dev nD => (R c : sProp 𝕄ᵢ)) :=
        bigSep_mono fun c _ => hcore c
      iintro ⟨H, -⟩
      imodintro
      iapply hmono
      iexact H)
    (fun c => by iintro ⟨-, H⟩; iexact H)
    (reg0 hO) (fun _ => .rfl) (fun _ => .rfl) (reg1 hO) (fun _ => .rfl) (fun _ => .rfl)
    (reg2 hO) (fun _ => .rfl) (fun _ => .rfl) (reg3 hO) (fun _ => .rfl) (fun _ => .rfl)

end Cert.KernelIdeal.Hand

end
-- ==== Proof.KI.Outs.lean ====
/-
  The contents each region leaves in its output array, as one function of the launch memory.  The four equations
  that name them look circular, each region's contents being read from the buffers the earlier regions left, but are
  not: the buffers before region k depend only on what regions 0 .. k-1 left.  So the four arrays are defined in
  order, each from the buffers built with the ones before it, and put together into one assignment that answers with
  the launch contents at every other reference.
-/
import proofs.«423497_j70342974374383_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

/-- The assignment `o` changed at the one reference `r₀` to `x`, whatever the item number. -/
def putAt (o : Outs (F := F)) (r₀ : Ref sig .tc) (x : (c : Dev nD) → Buf (Elt F) ((c : Thread nD τ).loc r₀)) : Outs (F := F) :=
  fun J r c => if h : r = r₀ then h ▸ x c else o J r c

theorem putAt_self (o : Outs (F := F)) (r₀ : Ref sig .tc) (x : (c : Dev nD) → Buf (Elt F) ((c : Thread nD τ).loc r₀)) (J : ℕ) (c : Dev nD) :
    putAt o r₀ x J r₀ c = x c := by
  unfold putAt; rw [dif_pos rfl]

theorem putAt_of_ne (o : Outs (F := F)) (r₀ : Ref sig .tc) (x : (c : Dev nD) → Buf (Elt F) ((c : Thread nD τ).loc r₀)) (J : ℕ) {r : Ref sig .tc}
    (hr : r ≠ r₀) (c : Dev nD) : putAt o r₀ x J r c = o J r c := by
  unfold putAt; rw [dif_neg hr]

/-- The launch contents at every reference: the assignment the four arrays are put into. -/
def outsBase : Outs (F := F) := fun _ r c => m ((c : Thread nD τ).loc r)

/-- What region 0 leaves in its output array; the assignment holding it; -/
def left0 (c : Dev nD) : Buf (Elt F) ((c : Thread nD τ).loc main_v5) := (dat0 (E2 m) c).arrAt 3 cfg0.N
def outs0 : Outs (F := F) := putAt (outsBase m) main_v5 (left0 m)
/-- what region 1 leaves, from the buffers built with region 0's array; -/
def left1 (c : Dev nD) : Buf (Elt F) ((c : Thread nD τ).loc main_v17) := (dat1 (E4 m (outs0 m)) c).arrAt 2 cfg1.N
def outs1 : Outs (F := F) := putAt (outs0 m) main_v17 (left1 m)
/-- what region 2 leaves, from the buffers built with the first two; -/
def left2 (c : Dev nD) : Buf (Elt F) ((c : Thread nD τ).loc main_v22) := (dat2 (E6 m (outs1 m)) c).arrAt 8 cfg2.N
def outs2 : Outs (F := F) := putAt (outs1 m) main_v22 (left2 m)
/-- what region 3 leaves, from the buffers built with the first three. -/
def left3 (c : Dev nD) : Buf (Elt F) ((c : Thread nD τ).loc main_v24) := (dat3 (E8 m (outs2 m)) c).arrAt 3 cfg3.N

/-- All four together. -/
def outsOf : Outs (F := F) := putAt (outs2 m) main_v24 (left3 m)

/-- The buffers before region 1 read an assignment only at region 0's array, -/
theorem E4_congr {o o' : Outs (F := F)} (h3 : ∀ c, o 3 main_v5 c = o' 3 main_v5 c) : E4 m o = E4 m o' := by
  funext c b
  show V4 m o c b = V4 m o' c b
  unfold V4 V3
  rw [h3 c]
/-- those before region 2 at the first two regions' arrays, -/
theorem E6_congr {o o' : Outs (F := F)} (h3 : ∀ c, o 3 main_v5 c = o' 3 main_v5 c) (h5 : ∀ c, o 5 main_v17 c = o' 5 main_v17 c) :
    E6 m o = E6 m o' := by
  funext c b
  show V6 m o c b = V6 m o' c b
  unfold V6 V5 V4 V3
  rw [h3 c, h5 c]
/-- and those before region 3 at the first three. -/
theorem E8_congr {o o' : Outs (F := F)} (h3 : ∀ c, o 3 main_v5 c = o' 3 main_v5 c) (h5 : ∀ c, o 5 main_v17 c = o' 5 main_v17 c)
    (h7 : ∀ c, o 7 main_v22 c = o' 7 main_v22 c) : E8 m o = E8 m o' := by
  funext c b
  show V8 m o c b = V8 m o' c b
  unfold V8 V7 V6 V5 V4 V3
  rw [h3 c, h5 c, h7 c]

/-- The four output arrays are four different references, so each stage reads back what was put at it. -/
theorem outs0_v5 (J : ℕ) (c : Dev nD) : outs0 m J main_v5 c = left0 m c := putAt_self _ _ _ J c
theorem outs1_v5 (J : ℕ) (c : Dev nD) : outs1 m J main_v5 c = left0 m c :=
  (putAt_of_ne (outs0 m) main_v17 (left1 m) J (r := main_v5) (by decide) c).trans (outs0_v5 m J c)
theorem outs1_v17 (J : ℕ) (c : Dev nD) : outs1 m J main_v17 c = left1 m c := putAt_self _ _ _ J c
theorem outs2_v5 (J : ℕ) (c : Dev nD) : outs2 m J main_v5 c = left0 m c :=
  (putAt_of_ne (outs1 m) main_v22 (left2 m) J (r := main_v5) (by decide) c).trans (outs1_v5 m J c)
theorem outs2_v17 (J : ℕ) (c : Dev nD) : outs2 m J main_v17 c = left1 m c :=
  (putAt_of_ne (outs1 m) main_v22 (left2 m) J (r := main_v17) (by decide) c).trans (outs1_v17 m J c)
theorem outs2_v22 (J : ℕ) (c : Dev nD) : outs2 m J main_v22 c = left2 m c := putAt_self _ _ _ J c
theorem outsOf_v5 (J : ℕ) (c : Dev nD) : outsOf m J main_v5 c = left0 m c :=
  (putAt_of_ne (outs2 m) main_v24 (left3 m) J (r := main_v5) (by decide) c).trans (outs2_v5 m J c)
theorem outsOf_v17 (J : ℕ) (c : Dev nD) : outsOf m J main_v17 c = left1 m c :=
  (putAt_of_ne (outs2 m) main_v24 (left3 m) J (r := main_v17) (by decide) c).trans (outs2_v17 m J c)
theorem outsOf_v22 (J : ℕ) (c : Dev nD) : outsOf m J main_v22 c = left2 m c :=
  (putAt_of_ne (outs2 m) main_v24 (left3 m) J (r := main_v22) (by decide) c).trans (outs2_v22 m J c)
theorem outsOf_v24 (J : ℕ) (c : Dev nD) : outsOf m J main_v24 c = left3 m c := putAt_self _ _ _ J c

/-- The assignment names what each region's write-backs leave: region k's array was defined from the buffers built
    with the arrays of the regions before it, and those buffers read the whole assignment at just those arrays. -/
theorem outsOf_ok : OutsOk m (outsOf m) where
  h3 c := outsOf_v5 m 3 c
  h5 c := by
    rw [outsOf_v17, E4_congr m (o := outsOf m) (o' := outs0 m) (fun c => (outsOf_v5 m 3 c).trans (outs0_v5 m 3 c).symm)]
    rfl
  h7 c := by
    rw [outsOf_v22, E6_congr m (o := outsOf m) (o' := outs1 m) (fun c => (outsOf_v5 m 3 c).trans (outs1_v5 m 3 c).symm)
      (fun c => (outsOf_v17 m 5 c).trans (outs1_v17 m 5 c).symm)]
    rfl
  h9 c := by
    rw [outsOf_v24, E8_congr m (o := outsOf m) (o' := outs2 m) (fun c => (outsOf_v5 m 3 c).trans (outs2_v5 m 3 c).symm)
      (fun c => (outsOf_v17 m 5 c).trans (outs2_v17 m 5 c).symm) (fun c => (outsOf_v22 m 7 c).trans (outs2_v22 m 7 c).symm)]
    rfl

end Cert.KernelIdeal.Hand

end
-- ==== Proof.KI.Take.lean ====
/-
  What the index-range conjunct of the precondition gives.  The token index is one signed 32-bit word tok with
  -50257 ≤ tok < 50257.  The embedding lookup first wraps a negative index (tok + 50257 when tok < 0), gathers the
  row of the table at the wrapped index, and then keeps the gathered row only where 0 ≤ wrapped ≤ 50256, putting a
  NaN constant elsewhere.  Under the range the wrapped index always lies in [0, 50256], so the keep-mask is all ones and
  the lookup is the plain gather at the wrapped index.
-/
import proofs.«423497_j70342974374383_1_alg».proof.Defs
import proofs.«423497_j70342974374383_1_alg».proof.Proof.Gen.KernelIdeal.Regions
import proofs.«423497_j70342974374383_1_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem

/-- A word in [-50257, 50257), wrapped by +50257 when negative, lies in [0, 50256]. -/
theorem wrap_in_range (tok : BitVec 32) (hlo : IntOp.cmpi .sge tok 4294917039#32 = 1#1) (hhi : IntOp.cmpi .slt tok 50257#32 = 1#1) :
    IntOp.cmpi .sge (Scalar.select (IntOp.cmpi .slt tok 0#32) (IntOp.addi tok 50257#32) tok) 0#32 = 1#1
      ∧ IntOp.cmpi .sle (Scalar.select (IntOp.cmpi .slt tok 0#32) (IntOp.addi tok 50257#32) tok) 50256#32 = 1#1 := by
  have e1 : (4294917039#32 : BitVec 32).toInt = -50257 := by decide
  have e2 : (50257#32 : BitVec 32).toInt = 50257 := by decide
  have e0 : (0#32 : BitVec 32).toInt = 0 := by decide
  have e3 : (50256#32 : BitVec 32).toInt = 50256 := by decide
  rw [IntOp.cmpi_sge, e1] at hlo
  rw [IntOp.cmpi_slt, e2] at hhi
  by_cases hneg : tok.toInt < 0
  · have hc : IntOp.cmpi .slt tok 0#32 = 1#1 := IntOp.cmpi_slt.2 (by rw [e0]; exact hneg)
    have hadd : (IntOp.addi tok 50257#32).toInt = tok.toInt + 50257 := by
      show (tok + 50257#32).toInt = _
      rw [BitVec.toInt_add, e2]
      exact Int.bmod_eq_of_le (by omega) (by omega)
    rw [hc, ValueIdx.select_one, IntOp.cmpi_sge, IntOp.cmpi_sle, hadd, e0, e3]
    omega
  · have hc : ¬ IntOp.cmpi .slt tok 0#32 = 1#1 := fun h => hneg (by have h' := IntOp.cmpi_slt.1 h; rwa [e0] at h')
    rw [ValueIdx.eq_zero_of_ne_one hc, ValueIdx.select_zero, IntOp.cmpi_sge, IntOp.cmpi_sle, e0, e3]
    omega

/-- The one index of the token array. -/
abbrev tok0 : S1.Idx := ValueIdx.ix1 (0 : Fin 1)

/-- The token array has one index. -/
instance take_S1_subsingleton : Subsingleton S1.Idx :=
  ⟨fun a b => by rw [ValueIdx.eq_ix1 a, ValueIdx.eq_ix1 b]; exact congrArg ValueIdx.ix1 (Subsingleton.elim (α := Fin 1) _ _)⟩

/-- The precondition's last conjunct, read at the token word: -50257 ≤ tok < 50257 (signed). -/
theorem tok_range (m : (ℓ : Loc nD τ sig) → Buf (Elt Ideal) ℓ) (hpre : Cert.Pre_KernelIdeal m) (c : Dev nD) :
    IntOp.cmpi .sge ((m ((c.tc : Thread nD τ).loc main_arg0) : IVec S1 32) tok0) 4294917039#32 = 1#1
      ∧ IntOp.cmpi .slt ((m ((c.tc : Thread nD τ).loc main_arg0) : IVec S1 32) tok0) 50257#32 = 1#1 := by
  have e := congrFun (hpre c) ValueIdx.ix0
  dsimp only [Cert.Pre_finite_inputs.fn, Cert.Pre_finite_inputs.fn_part1, Cert.Pre_finite_inputs.fn_part2, Cert.Pre_finite_inputs.fn_part3,
    Cert.Pre_finite_inputs.fn_part4] at e
  -- the last conjunct: the all-reduction of (tok ≥ -50257) ∧ (tok < 50257) over the one-entry array
  have h69 := (IntOp.andi_eq_one.1 e).2
  haveI : Subsingleton Cert.Pre_finite_inputs.S_.Idx := ⟨fun a b => funext fun d => d.elim0⟩
  have h68 := Host.reduce_andi_all _ _ _ _ ValueIdx.ix0 h69 tok0
  have h := IntOp.andi_eq_one.1 h68
  exact ⟨h.1, h.2⟩

/-- A left fold by `and` from 1 over words that are all 1 is 1. -/
theorem take_foldl_andi_one {ι : Type} (f : ι → BitVec 1) (hf : ∀ n, f n = 1#1) :
    ∀ l : List ι, l.foldl (fun r n => IntOp.andi r (f n)) 1#1 = 1#1
  | [] => rfl
  | a :: l => by
    have h1 : IntOp.andi (1#1 : BitVec 1) 1#1 = 1#1 := by decide
    rw [List.foldl_cons, hf a, h1]
    exact take_foldl_andi_one f hf l

/-- A reduction by `and` from the constant 1 of an array that is 1 everywhere is 1 everywhere. -/
theorem take_reduce_andi_one {s t u : Shape} {axes : List (Fin s.rank)} (x : s.Idx → BitVec 1) (h : s.ReducesTo axes t) (hu : 0 < u.numel)
    (hx : ∀ i, x i = 1#1) (j : t.Idx) : Host.reduce IntOp.andi x (constantI u 1 1#1) h hu j = 1#1 := by
  rw [Host.reduce_eq_foldl]
  exact take_foldl_andi_one x hx _

/-- A select whose mask is 1 everywhere is its first operand. -/
theorem take_select_of_mask {α : Type} {s : Shape} (k : IVec s 1) (a b : s.Idx → α) (hk : ∀ i, k i = 1#1) : select k a b = a := by
  funext i
  rw [ValueIdx.select_apply, hk i, ValueIdx.select_one]

/-- A one-entry array laid out as a 1 x 1 array reads its one entry. -/
theorem take_bcast11_apply {α : Type} (w : S1.Idx → α) (i : S1x1.Idx) : broadcastInDim S1x1 ![0] bcast_S1_S1x1_0 w i = w tok0 :=
  congrArg w (Subsingleton.elim _ _)

/-- The token index wrapped into the table: tok + 50257 where tok < 0, else tok. -/
abbrev takeWrapped (tok : IVec S1 32) : IVec S1 32 :=
  select (cmpi .slt tok (broadcastInDim S1 ![] bcast_S_S1 (constantI S_ 32 0#32)))
    (addi tok (broadcastInDim S1 ![] bcast_S_S1 (constantI S_ 32 50257#32))) tok

/-- The lookup's keep-mask: 0 ≤ w ≤ 50256 at the 1 x 1 array of start indices, reduced by `and` along its second axis. -/
abbrev takeKeep (w : IVec S1 32) : IVec S1 1 :=
  Host.reduce IntOp.andi
    (andi (cmpi .sge (broadcastInDim S1x1 ![0] bcast_S1_S1x1_0 w) (broadcastInDim S1x1 ![] bcast_S_S1x1 (constantI S_ 32 0#32)))
      (cmpi .sle (broadcastInDim S1x1 ![0] bcast_S1_S1x1_0 w) (broadcastInDim S1x1 ![1] bcast_S1_S1x1_1 (constantI S1 32 50256#32))))
    (constantI S_ 1 1#1) reducesTo_S1x1_S1_d1 h_S_

/-- For a token in [-50257, 50257) the keep-mask of the wrapped index is 1. -/
theorem takeKeep_one (tok : IVec S1 32) (hlo : IntOp.cmpi .sge (tok tok0) 4294917039#32 = 1#1) (hhi : IntOp.cmpi .slt (tok tok0) 50257#32 = 1#1)
    (j : S1.Idx) : takeKeep (takeWrapped tok) j = 1#1 := by
  refine take_reduce_andi_one _ _ _ (fun i => ?_) j
  obtain ⟨h0, h1⟩ := wrap_in_range (tok tok0) hlo hhi
  show IntOp.andi (IntOp.cmpi .sge (broadcastInDim S1x1 ![0] bcast_S1_S1x1_0 (takeWrapped tok) i) 0#32)
    (IntOp.cmpi .sle (broadcastInDim S1x1 ![0] bcast_S1_S1x1_0 (takeWrapped tok) i) 50256#32) = 1#1
  rw [take_bcast11_apply]
  exact IntOp.andi_eq_one.2 ⟨h0, h1⟩

set_option maxHeartbeats 1000000 in
/-- Under the precondition the embedded row the host stretch writes is the gather of the table at the wrapped index. -/
theorem embedded_eq (m : (ℓ : Loc nD τ sig) → Buf (Elt Ideal) ℓ) (hpre : Cert.Pre_KernelIdeal m) (c : Dev nD) :
    (V1 m c main_v0 : FVec Ideal S1x1024 .f32)
      = Host.gather gather_S50257x1024_S1x1_S1x1024_1_0_n_n_0_1_11024 (m ((c.tc : Thread nD τ).loc main_arg3) : FVec Ideal S50257x1024 .f32)
          (broadcastInDim S1x1 ![0] bcast_S1_S1x1_0
            (select (cmpi .slt (m ((c.tc : Thread nD τ).loc main_arg0) : IVec S1 32) (broadcastInDim S1 ![] bcast_S_S1 (constantI S_ 32 0#32)))
              (addi (m ((c.tc : Thread nD τ).loc main_arg0) : IVec S1 32) (broadcastInDim S1 ![] bcast_S_S1 (constantI S_ 32 50257#32)))
              (m ((c.tc : Thread nD τ).loc main_arg0) : IVec S1 32))) := by
  -- what the stretch writes: the select between the gathered row and the NaN constant, on the keep-mask
  have e : (V1 m c main_v0 : FVec Ideal S1x1024 .f32)
      = select (broadcastInDim S1x1024 ![0] bcast_S1_S1x1024_0 (takeKeep (takeWrapped (m ((c.tc : Thread nD τ).loc main_arg0) : IVec S1 32))))
          (Host.gather gather_S50257x1024_S1x1_S1x1024_1_0_n_n_0_1_11024 (m ((c.tc : Thread nD τ).loc main_arg3) : FVec Ideal S50257x1024 .f32)
            (broadcastInDim S1x1 ![0] bcast_S1_S1x1_0 (takeWrapped (m ((c.tc : Thread nD τ).loc main_arg0) : IVec S1 32))))
          (broadcastInDim S1x1024 ![] bcast_S_S1x1024 (constant (F := Ideal) S_ .f32 0x7FC00000#32)) := by
    show StableHlo.after hostOps0 (V0 m c) (Proc.devRef .tc main_v0) = _
    after_results_simp
    rfl
  obtain ⟨hlo, hhi⟩ := tok_range m hpre c
  rw [e]
  exact take_select_of_mask _ _ _ (fun i => takeKeep_one _ hlo hhi _)

end Cert.KernelIdeal.Hand

end
-- ==== Proof.KI.Host.lean ====
/-
  What the host stretches between the kernel regions write.  The program's host operations are reshapes of argument
  arrays, two concatenations, one broadcast, and two longer chains: a softmax over the 2048 attention logits
  (subtract the row maximum, exponentiate, divide by the row sum) and a log-softmax over the 50257 output logits
  (subtract the row maximum, then subtract the logarithm of the row sum of exponentials).  Each chain is named as one
  function of the array it is applied to; every array a stretch writes is stated as that stretch's operations applied to
  the arrays as they stood before the stretch, and the arrays no item in between writes are carried across.
-/
import proofs.«423497_j70342974374383_1_alg».proof.Proof.KI.Take

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The softmax of a row of 2048 logits as the program computes it: x minus its maximum (taken against -inf),
    exponentiated, divided by the sum of the exponentials. -/
def softmaxK (x : FVec F S1x2048 .f32) : FVec F S1x2048 .f32 :=
  let mx : FVec F S1 .f32 := Host.reduce FloatOps.maximumf x (constant (F := F) S_ .f32 0xFF800000#32) reducesTo_S1x2048_S1_d1 h_S_
  let mx' : FVec F S1 .f32 := maximumf (broadcastInDim S1 ![] bcast_S_S1 (constant (F := F) S_ .f32 0xFF800000#32)) mx
  let e : FVec F S1x2048 .f32 :=
    Host.exp (F := F) (subf x (broadcastInDim S1x2048 ![0, 1] bcast_S1x1_S1x2048_0_1 (broadcastInDim S1x1 ![0] bcast_S1_S1x1_0 mx')))
  let s : FVec F S1 .f32 := Host.reduceAdd (F := F) e (constant (F := F) S_ .f32 0x00000000#32) reducesTo_S1x2048_S1_d1 h_S_
  Host.divf (F := F) e (broadcastInDim S1x2048 ![0, 1] bcast_S1x1_S1x2048_0_1 (broadcastInDim S1x1 ![0] bcast_S1_S1x1_0 s))

/-- The log-softmax of a row of 50257 logits as the program computes it: x minus its maximum (taken against -inf),
    minus the logarithm of the sum of the exponentials of that difference. -/
def logSoftmaxK (x : FVec F S1x50257 .f32) : FVec F S1x50257 .f32 :=
  let mx : FVec F S1 .f32 := Host.reduce FloatOps.maximumf x (constant (F := F) S_ .f32 0xFF800000#32) reducesTo_S1x50257_S1_d1 h_S_
  let mx' : FVec F S1 .f32 := maximumf (broadcastInDim S1 ![] bcast_S_S1 (constant (F := F) S_ .f32 0xFF800000#32)) mx
  let d : FVec F S1x50257 .f32 :=
    subf x (broadcastInDim S1x50257 ![0, 1] bcast_S1x1_S1x50257_0_1 (broadcastInDim S1x1 ![0] bcast_S1_S1x1_0 mx'))
  let s : FVec F S1 .f32 := Host.reduceAdd (F := F) (Host.exp (F := F) d) (constant (F := F) S_ .f32 0x00000000#32) reducesTo_S1x50257_S1_d1 h_S_
  subf d (broadcastInDim S1x50257 ![0, 1] bcast_S1x1_S1x50257_0_1 (Host.log (F := F) (broadcastInDim S1x1 ![0] bcast_S1_S1x1_0 s)))

variable (m : (ℓ : Loc nD τ sig) → Buf (Elt F) ℓ) (outs : Outs (F := F)) (c : Dev nD)

/-! ## Each stretch on any contents `W` of the buffers before it -/

section Stretches

variable (W : Valuation τ sig (Elt F))

theorem ops0_1_v1 : (StableHlo.after hostOps0_1 W (Proc.devRef .tc main_v1) : FVec F S1x1024 .f32)
    = shapeCast S1x1024 (W (Proc.devRef .tc main_arg1) : FVec F S1x1x1024 .f32) shapeCasts_S1x1x1024_S1x1024 := by
  after_results_simp
  try rfl
theorem ops0_1_v2 : (StableHlo.after hostOps0_1 W (Proc.devRef .tc main_v2) : FVec F S2048x1024 .f32)
    = shapeCast S2048x1024 (W (Proc.devRef .tc main_arg2) : FVec F S1x2048x1024 .f32) shapeCasts_S1x2048x1024_S2048x1024 := by
  after_results_simp
  try rfl
theorem ops0_1_v3 : (StableHlo.after hostOps0_1 W (Proc.devRef .tc main_v3) : FVec F S1x2048 .f32)
    = concatenate S1x2048 1 [⟨S1x1024, (W (Proc.devRef .tc main_v0) : FVec F S1x1024 .f32)⟩,
        ⟨S1x1024, shapeCast S1x1024 (W (Proc.devRef .tc main_arg1) : FVec F S1x1x1024 .f32) shapeCasts_S1x1x1024_S1x1024⟩]
        concatenates_S1x1024_S1x1024_S1x2048_d1 := by
  after_results_simp
  try rfl
theorem ops0_1_v4 : (StableHlo.after hostOps0_1 W (Proc.devRef .tc main_v4) : FVec F S1x2048 .f32)
    = shapeCast S1x2048 (W (Proc.devRef .tc main_arg5) : FVec F S2048 .f32) shapeCasts_S2048_S1x2048 := by
  after_results_simp
  try rfl
theorem ops1_v16 : (StableHlo.after hostOps1 W (Proc.devRef .tc main_v16) : FVec F S1x2048 .f32)
    = softmaxK (W (Proc.devRef .tc main_v5) : FVec F S1x2048 .f32) := by
  after_results_simp
  try rfl
theorem ops2_v18 : (StableHlo.after hostOps2 W (Proc.devRef .tc main_v18) : FVec F S1x2048 .f32)
    = concatenate S1x2048 1 [⟨S1x1024, (W (Proc.devRef .tc main_v0) : FVec F S1x1024 .f32)⟩,
        ⟨S1x1024, (W (Proc.devRef .tc main_v17) : FVec F S1x1024 .f32)⟩] concatenates_S1x1024_S1x1024_S1x2048_d1 := by
  after_results_simp
  try rfl
theorem ops2_v19 : (StableHlo.after hostOps2 W (Proc.devRef .tc main_v19) : FVec F S1x1024 .f32)
    = shapeCast S1x1024 (W (Proc.devRef .tc main_arg7) : FVec F S1024 .f32) shapeCasts_S1024_S1x1024 := by
  after_results_simp
  try rfl
theorem ops2_v20 : (StableHlo.after hostOps2 W (Proc.devRef .tc main_v20) : FVec F S1x3072 .f32)
    = shapeCast S1x3072 (W (Proc.devRef .tc main_arg10) : FVec F S3072 .f32) shapeCasts_S3072_S1x3072 := by
  after_results_simp
  try rfl
theorem ops2_v21 : (StableHlo.after hostOps2 W (Proc.devRef .tc main_v21) : FVec F S1x3072 .f32)
    = shapeCast S1x3072 (W (Proc.devRef .tc main_arg11) : FVec F S3072 .f32) shapeCasts_S3072_S1x3072 := by
  after_results_simp
  try rfl
theorem ops3_v23 : (StableHlo.after hostOps3 W (Proc.devRef .tc main_v23) : FVec F S1x50257 .f32)
    = shapeCast S1x50257 (W (Proc.devRef .tc main_arg13) : FVec F S50257 .f32) shapeCasts_S50257_S1x50257 := by
  after_results_simp
  try rfl
theorem ops4_1_v26 : (StableHlo.after hostOps4_1 W (Proc.devRef .tc main_v26) : FVec F S1x1x1024 .f32)
    = broadcastInDim S1x1x1024 ![1, 2] bcast_S1x1024_S1x1x1024_1_2 (W (Proc.devRef .tc main_v22) : FVec F S1x1024 .f32) := by
  after_results_simp
  try rfl

end Stretches

/-! ## The argument arrays, which no item writes, as launched -/

theorem V1_main_arg1 : V1 m c main_arg1 = (m ((c : Thread nD τ).loc main_arg1)) :=
  (V1_of m c main_arg1 (by decide)).trans <| rfl
theorem V1_main_arg2 : V1 m c main_arg2 = (m ((c : Thread nD τ).loc main_arg2)) :=
  (V1_of m c main_arg2 (by decide)).trans <| rfl
theorem V1_main_arg5 : V1 m c main_arg5 = (m ((c : Thread nD τ).loc main_arg5)) :=
  (V1_of m c main_arg5 (by decide)).trans <| rfl
theorem V2_main_arg4 : V2 m c main_arg4 = (m ((c : Thread nD τ).loc main_arg4)) :=
  (V2_of m c main_arg4 (by decide)).trans <| (V1_of m c main_arg4 (by decide)).trans <| rfl
theorem V5_main_arg7 : V5 m outs c main_arg7 = (m ((c : Thread nD τ).loc main_arg7)) :=
  (V5_of m outs c main_arg7 (by decide)).trans <| (V4_of m outs c main_arg7 (by decide)).trans <| (V3_of m outs c main_arg7 (by decide)).trans <| (V2_of m c main_arg7 (by decide)).trans <| (V1_of m c main_arg7 (by decide)).trans <| rfl
theorem V5_main_arg10 : V5 m outs c main_arg10 = (m ((c : Thread nD τ).loc main_arg10)) :=
  (V5_of m outs c main_arg10 (by decide)).trans <| (V4_of m outs c main_arg10 (by decide)).trans <| (V3_of m outs c main_arg10 (by decide)).trans <| (V2_of m c main_arg10 (by decide)).trans <| (V1_of m c main_arg10 (by decide)).trans <| rfl
theorem V5_main_arg11 : V5 m outs c main_arg11 = (m ((c : Thread nD τ).loc main_arg11)) :=
  (V5_of m outs c main_arg11 (by decide)).trans <| (V4_of m outs c main_arg11 (by decide)).trans <| (V3_of m outs c main_arg11 (by decide)).trans <| (V2_of m c main_arg11 (by decide)).trans <| (V1_of m c main_arg11 (by decide)).trans <| rfl
theorem V6_main_arg6 : V6 m outs c main_arg6 = (m ((c : Thread nD τ).loc main_arg6)) :=
  (V6_of m outs c main_arg6 (by decide)).trans <| (V5_of m outs c main_arg6 (by decide)).trans <| (V4_of m outs c main_arg6 (by decide)).trans <| (V3_of m outs c main_arg6 (by decide)).trans <| (V2_of m c main_arg6 (by decide)).trans <| (V1_of m c main_arg6 (by decide)).trans <| rfl
theorem V6_main_arg8 : V6 m outs c main_arg8 = (m ((c : Thread nD τ).loc main_arg8)) :=
  (V6_of m outs c main_arg8 (by decide)).trans <| (V5_of m outs c main_arg8 (by decide)).trans <| (V4_of m outs c main_arg8 (by decide)).trans <| (V3_of m outs c main_arg8 (by decide)).trans <| (V2_of m c main_arg8 (by decide)).trans <| (V1_of m c main_arg8 (by decide)).trans <| rfl
theorem V6_main_arg9 : V6 m outs c main_arg9 = (m ((c : Thread nD τ).loc main_arg9)) :=
  (V6_of m outs c main_arg9 (by decide)).trans <| (V5_of m outs c main_arg9 (by decide)).trans <| (V4_of m outs c main_arg9 (by decide)).trans <| (V3_of m outs c main_arg9 (by decide)).trans <| (V2_of m c main_arg9 (by decide)).trans <| (V1_of m c main_arg9 (by decide)).trans <| rfl
theorem V7_main_arg13 : V7 m outs c main_arg13 = (m ((c : Thread nD τ).loc main_arg13)) :=
  (V7_of m outs c main_arg13 (by decide)).trans <| (V6_of m outs c main_arg13 (by decide)).trans <| (V5_of m outs c main_arg13 (by decide)).trans <| (V4_of m outs c main_arg13 (by decide)).trans <| (V3_of m outs c main_arg13 (by decide)).trans <| (V2_of m c main_arg13 (by decide)).trans <| (V1_of m c main_arg13 (by decide)).trans <| rfl
theorem V8_main_arg12 : V8 m outs c main_arg12 = (m ((c : Thread nD τ).loc main_arg12)) :=
  (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m outs c main_arg12 (by decide)).trans <| (V2_of m c main_arg12 (by decide)).trans <| (V1_of m c main_arg12 (by decide)).trans <| rfl

/-! ## What is carried across items that do not write it -/

theorem V5_main_v0 : V5 m outs c main_v0 = V1 m c main_v0 :=
  (V5_of m outs c main_v0 (by decide)).trans <| (V4_of m outs c main_v0 (by decide)).trans <| (V3_of m outs c main_v0 (by decide)).trans <| (V2_of m c main_v0 (by decide))
theorem V4_main_v2 : V4 m outs c main_v2 = V2 m c main_v2 :=
  (V4_of m outs c main_v2 (by decide)).trans <| (V3_of m outs c main_v2 (by decide))
theorem V6_main_v1 : V6 m outs c main_v1 = V2 m c main_v1 :=
  (V6_of m outs c main_v1 (by decide)).trans <| (V5_of m outs c main_v1 (by decide)).trans <| (V4_of m outs c main_v1 (by decide)).trans <| (V3_of m outs c main_v1 (by decide))
theorem V8_main_v22 : V8 m outs c main_v22 = V7 m outs c main_v22 :=
  (V8_of m outs c main_v22 (by decide))
theorem V10_main_v22 : V10 m outs c main_v22 = V7 m outs c main_v22 :=
  (V10_of m outs c main_v22 (by decide)).trans <| (V9_of m outs c main_v22 (by decide)).trans <| (V8_of m outs c main_v22 (by decide))
theorem V11_main_v25 : V11 m outs c main_v25 = V10 m outs c main_v25 :=
  (V11_of m outs c main_v25 (by decide))
theorem V11_main_v16 : V11 m outs c main_v16 = V4 m outs c main_v16 :=
  (V11_of m outs c main_v16 (by decide)).trans <| (V10_of m outs c main_v16 (by decide)).trans <| (V9_of m outs c main_v16 (by decide)).trans <| (V8_of m outs c main_v16 (by decide)).trans <| (V7_of m outs c main_v16 (by decide)).trans <| (V6_of m outs c main_v16 (by decide)).trans <| (V5_of m outs c main_v16 (by decide))

/-! ## What each stretch writes -/

theorem h_v1 : (V2 m c main_v1 : FVec F S1x1024 .f32) = shapeCast S1x1024 ((m ((c : Thread nD τ).loc main_arg1)) : FVec F S1x1x1024 .f32) shapeCasts_S1x1x1024_S1x1024 := by
  have e := ops0_1_v1 (V1 m c)
  rw [V1_main_arg1 m c] at e
  exact e
theorem h_v2 : (V2 m c main_v2 : FVec F S2048x1024 .f32) = shapeCast S2048x1024 ((m ((c : Thread nD τ).loc main_arg2)) : FVec F S1x2048x1024 .f32) shapeCasts_S1x2048x1024_S2048x1024 := by
  have e := ops0_1_v2 (V1 m c)
  rw [V1_main_arg2 m c] at e
  exact e
theorem h_v3 : (V2 m c main_v3 : FVec F S1x2048 .f32) = concatenate S1x2048 1 [⟨S1x1024, (V1 m c main_v0 : FVec F S1x1024 .f32)⟩, ⟨S1x1024, shapeCast S1x1024 ((m ((c : Thread nD τ).loc main_arg1)) : FVec F S1x1x1024 .f32) shapeCasts_S1x1x1024_S1x1024⟩] concatenates_S1x1024_S1x1024_S1x2048_d1 := by
  have e := ops0_1_v3 (V1 m c)
  rw [V1_main_arg1 m c] at e
  exact e
theorem h_v4 : (V2 m c main_v4 : FVec F S1x2048 .f32) = shapeCast S1x2048 ((m ((c : Thread nD τ).loc main_arg5)) : FVec F S2048 .f32) shapeCasts_S2048_S1x2048 := by
  have e := ops0_1_v4 (V1 m c)
  rw [V1_main_arg5 m c] at e
  exact e
theorem h_v16 : (V4 m outs c main_v16 : FVec F S1x2048 .f32) = softmaxK (V3 m outs c main_v5 : FVec F S1x2048 .f32) :=
  ops1_v16 (V3 m outs c)
theorem h_v18 : (V6 m outs c main_v18 : FVec F S1x2048 .f32) = concatenate S1x2048 1 [⟨S1x1024, (V5 m outs c main_v0 : FVec F S1x1024 .f32)⟩, ⟨S1x1024, (V5 m outs c main_v17 : FVec F S1x1024 .f32)⟩] concatenates_S1x1024_S1x1024_S1x2048_d1 :=
  ops2_v18 (V5 m outs c)
theorem h_v19 : (V6 m outs c main_v19 : FVec F S1x1024 .f32) = shapeCast S1x1024 ((m ((c : Thread nD τ).loc main_arg7)) : FVec F S1024 .f32) shapeCasts_S1024_S1x1024 := by
  have e := ops2_v19 (V5 m outs c)
  rw [V5_main_arg7 m outs c] at e
  exact e
theorem h_v20 : (V6 m outs c main_v20 : FVec F S1x3072 .f32) = shapeCast S1x3072 ((m ((c : Thread nD τ).loc main_arg10)) : FVec F S3072 .f32) shapeCasts_S3072_S1x3072 := by
  have e := ops2_v20 (V5 m outs c)
  rw [V5_main_arg10 m outs c] at e
  exact e
theorem h_v21 : (V6 m outs c main_v21 : FVec F S1x3072 .f32) = shapeCast S1x3072 ((m ((c : Thread nD τ).loc main_arg11)) : FVec F S3072 .f32) shapeCasts_S3072_S1x3072 := by
  have e := ops2_v21 (V5 m outs c)
  rw [V5_main_arg11 m outs c] at e
  exact e
theorem h_v23 : (V8 m outs c main_v23 : FVec F S1x50257 .f32) = shapeCast S1x50257 ((m ((c : Thread nD τ).loc main_arg13)) : FVec F S50257 .f32) shapeCasts_S50257_S1x50257 := by
  have e := ops3_v23 (V7 m outs c)
  rw [V7_main_arg13 m outs c] at e
  exact e
theorem h_v26 : (V11 m outs c main_v26 : FVec F S1x1x1024 .f32) = broadcastInDim S1x1x1024 ![1, 2] bcast_S1x1024_S1x1x1024_1_2 (V10 m outs c main_v22 : FVec F S1x1024 .f32) :=
  ops4_1_v26 (V10 m outs c)

end Cert.KernelIdeal.Hand

end
-- ==== Proof.KI.HostLS.lean ====
/-
  The log-softmax stretch: the row it writes is the log-softmax of the output logits as they stood before it.  The
  stretch is fifteen operations on a row of 50257 logits: the row maximum (taken against -inf), its two broadcasts
  back to the row, the difference, its exponential, the row sum, its broadcast, the logarithm, the broadcast back to
  the row and the final difference.  Each operation is read off any contents it is run from — what it writes, as its
  function of what it reads, and which of the live rows it keeps — and the fifteen readings are chained; the functions
  are never opened, so nothing about the row's length is computed.
-/
import proofs.«423497_j70342974374383_1_alg».proof.Proof.KI.Host

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-! The fifteen operations of the stretch, one by one: what each writes, from any contents, and what it keeps.  Each
    result is first read for an arbitrary function in the operation's place, so that nothing about the row's length
    is ever computed. -/

abbrev lsm1 : HloOp τ sig (Elt F) :=
  StableHlo.TRef.nullary (.of main_call1_cst : StableHlo.TRef sig ⟨S_, .f32⟩) (constant (F := F) S_ .f32 0xFF800000#32)
abbrev lsm2 : HloOp τ sig (Elt F) :=
  StableHlo.TRef.binary (.of main_v24 : StableHlo.TRef sig ⟨S1x50257, .f32⟩) (.of main_call1_cst : StableHlo.TRef sig ⟨S_, .f32⟩) (.of main_call1_v0 : StableHlo.TRef sig ⟨S1, .f32⟩) (fun x v => Host.reduce FloatOps.maximumf x v reducesTo_S1x50257_S1_d1 h_S_)
abbrev lsm3 : HloOp τ sig (Elt F) :=
  StableHlo.TRef.nullary (.of main_call1_cst_0 : StableHlo.TRef sig ⟨S_, .f32⟩) (constant (F := F) S_ .f32 0xFF800000#32)
abbrev lsm4 : HloOp τ sig (Elt F) :=
  StableHlo.TRef.unary (.of main_call1_cst_0 : StableHlo.TRef sig ⟨S_, .f32⟩) (.of main_call1_v1 : StableHlo.TRef sig ⟨S1, .f32⟩) (broadcastInDim S1 ![] bcast_S_S1)
abbrev lsm5 : HloOp τ sig (Elt F) :=
  StableHlo.TRef.binary (.of main_call1_v1 : StableHlo.TRef sig ⟨S1, .f32⟩) (.of main_call1_v0 : StableHlo.TRef sig ⟨S1, .f32⟩) (.of main_call1_v2 : StableHlo.TRef sig ⟨S1, .f32⟩) maximumf
abbrev lsm6 : HloOp τ sig (Elt F) :=
  StableHlo.TRef.unary (.of main_call1_v2 : StableHlo.TRef sig ⟨S1, .f32⟩) (.of main_call1_v3 : StableHlo.TRef sig ⟨S1x1, .f32⟩) (broadcastInDim S1x1 ![0] bcast_S1_S1x1_0)
abbrev lsm7 : HloOp τ sig (Elt F) :=
  StableHlo.TRef.unary (.of main_call1_v3 : StableHlo.TRef sig ⟨S1x1, .f32⟩) (.of main_call1_v4 : StableHlo.TRef sig ⟨S1x50257, .f32⟩) (broadcastInDim S1x50257 ![0, 1] bcast_S1x1_S1x50257_0_1)
abbrev lsm8 : HloOp τ sig (Elt F) :=
  StableHlo.TRef.binary (.of main_v24 : StableHlo.TRef sig ⟨S1x50257, .f32⟩) (.of main_call1_v4 : StableHlo.TRef sig ⟨S1x50257, .f32⟩) (.of main_call1_v5 : StableHlo.TRef sig ⟨S1x50257, .f32⟩) subf
abbrev lsm9 : HloOp τ sig (Elt F) :=
  StableHlo.TRef.unary (.of main_call1_v5 : StableHlo.TRef sig ⟨S1x50257, .f32⟩) (.of main_call1_v6 : StableHlo.TRef sig ⟨S1x50257, .f32⟩) Host.exp
abbrev lsm10 : HloOp τ sig (Elt F) :=
  StableHlo.TRef.nullary (.of main_call1_cst_1 : StableHlo.TRef sig ⟨S_, .f32⟩) (constant (F := F) S_ .f32 0x00000000#32)
abbrev lsm11 : HloOp τ sig (Elt F) :=
  StableHlo.TRef.binary (.of main_call1_v6 : StableHlo.TRef sig ⟨S1x50257, .f32⟩) (.of main_call1_cst_1 : StableHlo.TRef sig ⟨S_, .f32⟩) (.of main_call1_v7 : StableHlo.TRef sig ⟨S1, .f32⟩) (fun x v => Host.reduceAdd x v reducesTo_S1x50257_S1_d1 h_S_)
abbrev lsm12 : HloOp τ sig (Elt F) :=
  StableHlo.TRef.unary (.of main_call1_v7 : StableHlo.TRef sig ⟨S1, .f32⟩) (.of main_call1_v8 : StableHlo.TRef sig ⟨S1x1, .f32⟩) (broadcastInDim S1x1 ![0] bcast_S1_S1x1_0)
abbrev lsm13 : HloOp τ sig (Elt F) :=
  StableHlo.TRef.unary (.of main_call1_v8 : StableHlo.TRef sig ⟨S1x1, .f32⟩) (.of main_call1_v9 : StableHlo.TRef sig ⟨S1x1, .f32⟩) Host.log
abbrev lsm14 : HloOp τ sig (Elt F) :=
  StableHlo.TRef.unary (.of main_call1_v9 : StableHlo.TRef sig ⟨S1x1, .f32⟩) (.of main_call1_v10 : StableHlo.TRef sig ⟨S1x50257, .f32⟩) (broadcastInDim S1x50257 ![0, 1] bcast_S1x1_S1x50257_0_1)
abbrev lsm15 : HloOp τ sig (Elt F) :=
  StableHlo.TRef.binary (.of main_call1_v5 : StableHlo.TRef sig ⟨S1x50257, .f32⟩) (.of main_call1_v10 : StableHlo.TRef sig ⟨S1x50257, .f32⟩) (.of main_v25 : StableHlo.TRef sig ⟨S1x50257, .f32⟩) subf

theorem lsm1_res (X : Valuation τ sig (Elt F)) :
    ((lsm1 (F := F)).result X (Proc.devRef .tc main_call1_cst) : FVec F S_ .f32) = (constant (F := F) S_ .f32 0xFF800000#32) := by
  have key : ∀ f : FVec F S_ .f32, ((StableHlo.TRef.nullary (.of main_call1_cst : StableHlo.TRef sig ⟨S_, .f32⟩) f : HloOp τ sig (Elt F)).result X (Proc.devRef .tc main_call1_cst) : FVec F S_ .f32)
      = f := fun f => by
    rw [StableHlo.nullary_result]
    rfl
  exact key _
theorem lsm2_res (X : Valuation τ sig (Elt F)) :
    ((lsm2 (F := F)).result X (Proc.devRef .tc main_call1_v0) : FVec F S1 .f32) = Host.reduce FloatOps.maximumf (X (Proc.devRef .tc main_v24) : FVec F S1x50257 .f32) (X (Proc.devRef .tc main_call1_cst) : FVec F S_ .f32) reducesTo_S1x50257_S1_d1 h_S_ := by
  have key : ∀ f : FVec F S1x50257 .f32 → FVec F S_ .f32 → FVec F S1 .f32, ((StableHlo.TRef.binary (.of main_v24 : StableHlo.TRef sig ⟨S1x50257, .f32⟩) (.of main_call1_cst : StableHlo.TRef sig ⟨S_, .f32⟩) (.of main_call1_v0 : StableHlo.TRef sig ⟨S1, .f32⟩) f : HloOp τ sig (Elt F)).result X (Proc.devRef .tc main_call1_v0) : FVec F S1 .f32)
      = f (X (Proc.devRef .tc main_v24)) (X (Proc.devRef .tc main_call1_cst)) := fun f => by
    rw [StableHlo.binary_result]
    rfl
  exact key _
theorem lsm3_res (X : Valuation τ sig (Elt F)) :
    ((lsm3 (F := F)).result X (Proc.devRef .tc main_call1_cst_0) : FVec F S_ .f32) = (constant (F := F) S_ .f32 0xFF800000#32) := by
  have key : ∀ f : FVec F S_ .f32, ((StableHlo.TRef.nullary (.of main_call1_cst_0 : StableHlo.TRef sig ⟨S_, .f32⟩) f : HloOp τ sig (Elt F)).result X (Proc.devRef .tc main_call1_cst_0) : FVec F S_ .f32)
      = f := fun f => by
    rw [StableHlo.nullary_result]
    rfl
  exact key _
theorem lsm4_res (X : Valuation τ sig (Elt F)) :
    ((lsm4 (F := F)).result X (Proc.devRef .tc main_call1_v1) : FVec F S1 .f32) = broadcastInDim S1 ![] bcast_S_S1 (X (Proc.devRef .tc main_call1_cst_0) : FVec F S_ .f32) := by
  have key : ∀ f : FVec F S_ .f32 → FVec F S1 .f32, ((StableHlo.TRef.unary (.of main_call1_cst_0 : StableHlo.TRef sig ⟨S_, .f32⟩) (.of main_call1_v1 : StableHlo.TRef sig ⟨S1, .f32⟩) f : HloOp τ sig (Elt F)).result X (Proc.devRef .tc main_call1_v1) : FVec F S1 .f32)
      = f (X (Proc.devRef .tc main_call1_cst_0)) := fun f => by
    rw [StableHlo.unary_result]
    rfl
  exact key _
theorem lsm5_res (X : Valuation τ sig (Elt F)) :
    ((lsm5 (F := F)).result X (Proc.devRef .tc main_call1_v2) : FVec F S1 .f32) = maximumf (X (Proc.devRef .tc main_call1_v1) : FVec F S1 .f32) (X (Proc.devRef .tc main_call1_v0) : FVec F S1 .f32) := by
  have key : ∀ f : FVec F S1 .f32 → FVec F S1 .f32 → FVec F S1 .f32, ((StableHlo.TRef.binary (.of main_call1_v1 : StableHlo.TRef sig ⟨S1, .f32⟩) (.of main_call1_v0 : StableHlo.TRef sig ⟨S1, .f32⟩) (.of main_call1_v2 : StableHlo.TRef sig ⟨S1, .f32⟩) f : HloOp τ sig (Elt F)).result X (Proc.devRef .tc main_call1_v2) : FVec F S1 .f32)
      = f (X (Proc.devRef .tc main_call1_v1)) (X (Proc.devRef .tc main_call1_v0)) := fun f => by
    rw [StableHlo.binary_result]
    rfl
  exact key _
theorem lsm6_res (X : Valuation τ sig (Elt F)) :
    ((lsm6 (F := F)).result X (Proc.devRef .tc main_call1_v3) : FVec F S1x1 .f32) = broadcastInDim S1x1 ![0] bcast_S1_S1x1_0 (X (Proc.devRef .tc main_call1_v2) : FVec F S1 .f32) := by
  have key : ∀ f : FVec F S1 .f32 → FVec F S1x1 .f32, ((StableHlo.TRef.unary (.of main_call1_v2 : StableHlo.TRef sig ⟨S1, .f32⟩) (.of main_call1_v3 : StableHlo.TRef sig ⟨S1x1, .f32⟩) f : HloOp τ sig (Elt F)).result X (Proc.devRef .tc main_call1_v3) : FVec F S1x1 .f32)
      = f (X (Proc.devRef .tc main_call1_v2)) := fun f => by
    rw [StableHlo.unary_result]
    rfl
  exact key _
theorem lsm7_res (X : Valuation τ sig (Elt F)) :
    ((lsm7 (F := F)).result X (Proc.devRef .tc main_call1_v4) : FVec F S1x50257 .f32) = broadcastInDim S1x50257 ![0, 1] bcast_S1x1_S1x50257_0_1 (X (Proc.devRef .tc main_call1_v3) : FVec F S1x1 .f32) := by
  have key : ∀ f : FVec F S1x1 .f32 → FVec F S1x50257 .f32, ((StableHlo.TRef.unary (.of main_call1_v3 : StableHlo.TRef sig ⟨S1x1, .f32⟩) (.of main_call1_v4 : StableHlo.TRef sig ⟨S1x50257, .f32⟩) f : HloOp τ sig (Elt F)).result X (Proc.devRef .tc main_call1_v4) : FVec F S1x50257 .f32)
      = f (X (Proc.devRef .tc main_call1_v3)) := fun f => by
    rw [StableHlo.unary_result]
    rfl
  exact key _
theorem lsm8_res (X : Valuation τ sig (Elt F)) :
    ((lsm8 (F := F)).result X (Proc.devRef .tc main_call1_v5) : FVec F S1x50257 .f32) = subf (X (Proc.devRef .tc main_v24) : FVec F S1x50257 .f32) (X (Proc.devRef .tc main_call1_v4) : FVec F S1x50257 .f32) := by
  have key : ∀ f : FVec F S1x50257 .f32 → FVec F S1x50257 .f32 → FVec F S1x50257 .f32, ((StableHlo.TRef.binary (.of main_v24 : StableHlo.TRef sig ⟨S1x50257, .f32⟩) (.of main_call1_v4 : StableHlo.TRef sig ⟨S1x50257, .f32⟩) (.of main_call1_v5 : StableHlo.TRef sig ⟨S1x50257, .f32⟩) f : HloOp τ sig (Elt F)).result X (Proc.devRef .tc main_call1_v5) : FVec F S1x50257 .f32)
      = f (X (Proc.devRef .tc main_v24)) (X (Proc.devRef .tc main_call1_v4)) := fun f => by
    rw [StableHlo.binary_result]
    rfl
  exact key _
theorem lsm9_res (X : Valuation τ sig (Elt F)) :
    ((lsm9 (F := F)).result X (Proc.devRef .tc main_call1_v6) : FVec F S1x50257 .f32) = Host.exp (F := F) (X (Proc.devRef .tc main_call1_v5) : FVec F S1x50257 .f32) := by
  have key : ∀ f : FVec F S1x50257 .f32 → FVec F S1x50257 .f32, ((StableHlo.TRef.unary (.of main_call1_v5 : StableHlo.TRef sig ⟨S1x50257, .f32⟩) (.of main_call1_v6 : StableHlo.TRef sig ⟨S1x50257, .f32⟩) f : HloOp τ sig (Elt F)).result X (Proc.devRef .tc main_call1_v6) : FVec F S1x50257 .f32)
      = f (X (Proc.devRef .tc main_call1_v5)) := fun f => by
    rw [StableHlo.unary_result]
    rfl
  exact key _
theorem lsm10_res (X : Valuation τ sig (Elt F)) :
    ((lsm10 (F := F)).result X (Proc.devRef .tc main_call1_cst_1) : FVec F S_ .f32) = (constant (F := F) S_ .f32 0x00000000#32) := by
  have key : ∀ f : FVec F S_ .f32, ((StableHlo.TRef.nullary (.of main_call1_cst_1 : StableHlo.TRef sig ⟨S_, .f32⟩) f : HloOp τ sig (Elt F)).result X (Proc.devRef .tc main_call1_cst_1) : FVec F S_ .f32)
      = f := fun f => by
    rw [StableHlo.nullary_result]
    rfl
  exact key _
theorem lsm11_res (X : Valuation τ sig (Elt F)) :
    ((lsm11 (F := F)).result X (Proc.devRef .tc main_call1_v7) : FVec F S1 .f32) = Host.reduceAdd (F := F) (X (Proc.devRef .tc main_call1_v6) : FVec F S1x50257 .f32) (X (Proc.devRef .tc main_call1_cst_1) : FVec F S_ .f32) reducesTo_S1x50257_S1_d1 h_S_ := by
  have key : ∀ f : FVec F S1x50257 .f32 → FVec F S_ .f32 → FVec F S1 .f32, ((StableHlo.TRef.binary (.of main_call1_v6 : StableHlo.TRef sig ⟨S1x50257, .f32⟩) (.of main_call1_cst_1 : StableHlo.TRef sig ⟨S_, .f32⟩) (.of main_call1_v7 : StableHlo.TRef sig ⟨S1, .f32⟩) f : HloOp τ sig (Elt F)).result X (Proc.devRef .tc main_call1_v7) : FVec F S1 .f32)
      = f (X (Proc.devRef .tc main_call1_v6)) (X (Proc.devRef .tc main_call1_cst_1)) := fun f => by
    rw [StableHlo.binary_result]
    rfl
  exact key _
theorem lsm12_res (X : Valuation τ sig (Elt F)) :
    ((lsm12 (F := F)).result X (Proc.devRef .tc main_call1_v8) : FVec F S1x1 .f32) = broadcastInDim S1x1 ![0] bcast_S1_S1x1_0 (X (Proc.devRef .tc main_call1_v7) : FVec F S1 .f32) := by
  have key : ∀ f : FVec F S1 .f32 → FVec F S1x1 .f32, ((StableHlo.TRef.unary (.of main_call1_v7 : StableHlo.TRef sig ⟨S1, .f32⟩) (.of main_call1_v8 : StableHlo.TRef sig ⟨S1x1, .f32⟩) f : HloOp τ sig (Elt F)).result X (Proc.devRef .tc main_call1_v8) : FVec F S1x1 .f32)
      = f (X (Proc.devRef .tc main_call1_v7)) := fun f => by
    rw [StableHlo.unary_result]
    rfl
  exact key _
theorem lsm13_res (X : Valuation τ sig (Elt F)) :
    ((lsm13 (F := F)).result X (Proc.devRef .tc main_call1_v9) : FVec F S1x1 .f32) = Host.log (F := F) (X (Proc.devRef .tc main_call1_v8) : FVec F S1x1 .f32) := by
  have key : ∀ f : FVec F S1x1 .f32 → FVec F S1x1 .f32, ((StableHlo.TRef.unary (.of main_call1_v8 : StableHlo.TRef sig ⟨S1x1, .f32⟩) (.of main_call1_v9 : StableHlo.TRef sig ⟨S1x1, .f32⟩) f : HloOp τ sig (Elt F)).result X (Proc.devRef .tc main_call1_v9) : FVec F S1x1 .f32)
      = f (X (Proc.devRef .tc main_call1_v8)) := fun f => by
    rw [StableHlo.unary_result]
    rfl
  exact key _
theorem lsm14_res (X : Valuation τ sig (Elt F)) :
    ((lsm14 (F := F)).result X (Proc.devRef .tc main_call1_v10) : FVec F S1x50257 .f32) = broadcastInDim S1x50257 ![0, 1] bcast_S1x1_S1x50257_0_1 (X (Proc.devRef .tc main_call1_v9) : FVec F S1x1 .f32) := by
  have key : ∀ f : FVec F S1x1 .f32 → FVec F S1x50257 .f32, ((StableHlo.TRef.unary (.of main_call1_v9 : StableHlo.TRef sig ⟨S1x1, .f32⟩) (.of main_call1_v10 : StableHlo.TRef sig ⟨S1x50257, .f32⟩) f : HloOp τ sig (Elt F)).result X (Proc.devRef .tc main_call1_v10) : FVec F S1x50257 .f32)
      = f (X (Proc.devRef .tc main_call1_v9)) := fun f => by
    rw [StableHlo.unary_result]
    rfl
  exact key _
theorem lsm15_res (X : Valuation τ sig (Elt F)) :
    ((lsm15 (F := F)).result X (Proc.devRef .tc main_v25) : FVec F S1x50257 .f32) = subf (X (Proc.devRef .tc main_call1_v5) : FVec F S1x50257 .f32) (X (Proc.devRef .tc main_call1_v10) : FVec F S1x50257 .f32) := by
  have key : ∀ f : FVec F S1x50257 .f32 → FVec F S1x50257 .f32 → FVec F S1x50257 .f32, ((StableHlo.TRef.binary (.of main_call1_v5 : StableHlo.TRef sig ⟨S1x50257, .f32⟩) (.of main_call1_v10 : StableHlo.TRef sig ⟨S1x50257, .f32⟩) (.of main_v25 : StableHlo.TRef sig ⟨S1x50257, .f32⟩) f : HloOp τ sig (Elt F)).result X (Proc.devRef .tc main_v25) : FVec F S1x50257 .f32)
      = f (X (Proc.devRef .tc main_call1_v5)) (X (Proc.devRef .tc main_call1_v10)) := fun f => by
    rw [StableHlo.binary_result]
    rfl
  exact key _

theorem lsm1_keep_v24 (X : Valuation τ sig (Elt F)) : (lsm1 (F := F)).result X (Proc.devRef .tc main_v24) = X (Proc.devRef .tc main_v24) := by
  unfold lsm1
  rw [StableHlo.nullary_result_ne]
  decide
theorem lsm2_keep_v24 (X : Valuation τ sig (Elt F)) : (lsm2 (F := F)).result X (Proc.devRef .tc main_v24) = X (Proc.devRef .tc main_v24) := by
  unfold lsm2
  rw [StableHlo.binary_result_ne]
  decide
theorem lsm3_keep_v24 (X : Valuation τ sig (Elt F)) : (lsm3 (F := F)).result X (Proc.devRef .tc main_v24) = X (Proc.devRef .tc main_v24) := by
  unfold lsm3
  rw [StableHlo.nullary_result_ne]
  decide
theorem lsm4_keep_v24 (X : Valuation τ sig (Elt F)) : (lsm4 (F := F)).result X (Proc.devRef .tc main_v24) = X (Proc.devRef .tc main_v24) := by
  unfold lsm4
  rw [StableHlo.unary_result_ne]
  decide
theorem lsm5_keep_v24 (X : Valuation τ sig (Elt F)) : (lsm5 (F := F)).result X (Proc.devRef .tc main_v24) = X (Proc.devRef .tc main_v24) := by
  unfold lsm5
  rw [StableHlo.binary_result_ne]
  decide
theorem lsm6_keep_v24 (X : Valuation τ sig (Elt F)) : (lsm6 (F := F)).result X (Proc.devRef .tc main_v24) = X (Proc.devRef .tc main_v24) := by
  unfold lsm6
  rw [StableHlo.unary_result_ne]
  decide
theorem lsm7_keep_v24 (X : Valuation τ sig (Elt F)) : (lsm7 (F := F)).result X (Proc.devRef .tc main_v24) = X (Proc.devRef .tc main_v24) := by
  unfold lsm7
  rw [StableHlo.unary_result_ne]
  decide
theorem lsm3_keep_v0 (X : Valuation τ sig (Elt F)) : (lsm3 (F := F)).result X (Proc.devRef .tc main_call1_v0) = X (Proc.devRef .tc main_call1_v0) := by
  unfold lsm3
  rw [StableHlo.nullary_result_ne]
  decide
theorem lsm4_keep_v0 (X : Valuation τ sig (Elt F)) : (lsm4 (F := F)).result X (Proc.devRef .tc main_call1_v0) = X (Proc.devRef .tc main_call1_v0) := by
  unfold lsm4
  rw [StableHlo.unary_result_ne]
  decide
theorem lsm9_keep_v5 (X : Valuation τ sig (Elt F)) : (lsm9 (F := F)).result X (Proc.devRef .tc main_call1_v5) = X (Proc.devRef .tc main_call1_v5) := by
  unfold lsm9
  rw [StableHlo.unary_result_ne]
  decide
theorem lsm10_keep_v5 (X : Valuation τ sig (Elt F)) : (lsm10 (F := F)).result X (Proc.devRef .tc main_call1_v5) = X (Proc.devRef .tc main_call1_v5) := by
  unfold lsm10
  rw [StableHlo.nullary_result_ne]
  decide
theorem lsm11_keep_v5 (X : Valuation τ sig (Elt F)) : (lsm11 (F := F)).result X (Proc.devRef .tc main_call1_v5) = X (Proc.devRef .tc main_call1_v5) := by
  unfold lsm11
  rw [StableHlo.binary_result_ne]
  decide
theorem lsm12_keep_v5 (X : Valuation τ sig (Elt F)) : (lsm12 (F := F)).result X (Proc.devRef .tc main_call1_v5) = X (Proc.devRef .tc main_call1_v5) := by
  unfold lsm12
  rw [StableHlo.unary_result_ne]
  decide
theorem lsm13_keep_v5 (X : Valuation τ sig (Elt F)) : (lsm13 (F := F)).result X (Proc.devRef .tc main_call1_v5) = X (Proc.devRef .tc main_call1_v5) := by
  unfold lsm13
  rw [StableHlo.unary_result_ne]
  decide
theorem lsm14_keep_v5 (X : Valuation τ sig (Elt F)) : (lsm14 (F := F)).result X (Proc.devRef .tc main_call1_v5) = X (Proc.devRef .tc main_call1_v5) := by
  unfold lsm14
  rw [StableHlo.unary_result_ne]
  decide
theorem lsm10_keep_v6 (X : Valuation τ sig (Elt F)) : (lsm10 (F := F)).result X (Proc.devRef .tc main_call1_v6) = X (Proc.devRef .tc main_call1_v6) := by
  unfold lsm10
  rw [StableHlo.nullary_result_ne]
  decide

/-- The stretch is those fifteen operations, -/
theorem hostOps4_eq : (hostOps4 : List (HloOp τ sig (Elt F))) = [lsm1, lsm2, lsm3, lsm4, lsm5, lsm6, lsm7, lsm8, lsm9, lsm10, lsm11, lsm12, lsm13, lsm14, lsm15] := rfl

/-- and run from any contents they leave in the result row the log-softmax of the logits row they found. -/
theorem after_hostOps4 (W : Valuation τ sig (Elt F)) :
    (StableHlo.after hostOps4 W (Proc.devRef .tc main_v25) : FVec F S1x50257 .f32) = logSoftmaxK (W (Proc.devRef .tc main_v24) : FVec F S1x50257 .f32) := by
  rw [hostOps4_eq]
  simp only [StableHlo.after_cons, StableHlo.after_nil]
  rw [lsm15_res]
  rw [lsm14_res, lsm14_keep_v5]
  rw [lsm13_res, lsm13_keep_v5]
  rw [lsm12_res, lsm12_keep_v5]
  rw [lsm11_res, lsm11_keep_v5]
  rw [lsm10_res, lsm10_keep_v6, lsm10_keep_v5]
  rw [lsm9_res, lsm9_keep_v5]
  rw [lsm8_res]
  rw [lsm7_res, lsm7_keep_v24]
  rw [lsm6_res, lsm6_keep_v24]
  rw [lsm5_res, lsm5_keep_v24]
  rw [lsm4_res, lsm4_keep_v0, lsm4_keep_v24]
  rw [lsm3_res, lsm3_keep_v0, lsm3_keep_v24]
  rw [lsm2_res, lsm2_keep_v24]
  rw [lsm1_res, lsm1_keep_v24]
  rfl

variable (m : (ℓ : Loc nD τ sig) → Buf (Elt F) ℓ) (outs : Outs (F := F)) (c : Dev nD)

/-- The log-probabilities row after the last-but-one stretch is the log-softmax of the logits row region 3 left. -/
theorem h_v25 : (V10 m outs c main_v25 : FVec F S1x50257 .f32) = logSoftmaxK (V9 m outs c main_v24 : FVec F S1x50257 .f32) :=
  after_hostOps4 (V9 m outs c)

end Cert.KernelIdeal.Hand

end
-- ==== Proof.Spec.lean ====
/-
  What the decoder step computes, index by index, on the extended reals.  A row vector is an array of shape [1, n];
  `affineT x W b` is x·Wᵀ + b for a weight matrix stored row per output (the layout of every weight here), `vecMat`
  is x·M.  The attention logits are `affineT` of the query row; the applied attention is `vecMat` of the attention
  weights and the encoder rows; the new hidden state is one GRU step (gate order r, z, n) on relu of the combined
  row; the output logits are `affineT` of the new hidden state.  The two softmaxes are applied outside these functions
  (both programs apply them by the same host operations).
-/
import Idealize.ShloMosaic.PureOps.Ideal
import Idealize.ShloMosaic.Lib.ValueIdx

noncomputable section

namespace Cert.Spec

open Idealize.ShloMosaic Idealize.ShloMosaic.ValueIdx

/-- A row vector of length `n`, and an `r` by `c` matrix, as array shapes. -/
abbrev Row (n : Nat) : Shape := ⟨2, ![1, n]⟩
abbrev Mat (r c : Nat) : Shape := ⟨2, ![r, c]⟩

/-- The column of an index into a row vector. -/
abbrev col {n : Nat} (j : (Row n).Idx) : Fin n := ⟨(j 1).val, idx2_lt1 j⟩

/-- The float words 1.0 and 0.0 as extended reals. -/
abbrev one32 : EReal := Ideal.ofBits .f32 0x3F800000#32
abbrev zero32 : EReal := Ideal.ofBits .f32 0x00000000#32

/-- `x·Wᵀ + b`: entry `j` is the sum over `q` of `x[q] · W[j, q]`, plus `b[j]`. -/
def affineT {n k : Nat} (x : (Row k).Idx → EReal) (W : (Mat n k).Idx → EReal) (b : (Row n).Idx → EReal) : (Row n).Idx → EReal :=
  fun j => (∑ q : Fin k, x (ix2 0 q) * W (ix2 (col j) q)) + b j

/-- `x·M`: entry `j` is the sum over `q` of `x[q] · M[q, j]`. -/
def vecMat {k n : Nat} (x : (Row k).Idx → EReal) (M : (Mat k n).Idx → EReal) : (Row n).Idx → EReal :=
  fun j => ∑ q : Fin k, x (ix2 0 q) * M (ix2 q (col j))

/-- The logistic function as both programs spell it: 1 / (1 + e⁻ˣ). -/
def sigm (x : EReal) : EReal := Ideal.div one32 (one32 + Ideal.exp (-x))

/-- Entry `j + off` of a row of length 3072, for `j` a column of a row of length 1024 (a gate's slice). -/
def gate (off : Nat) (hoff : off + 1024 ≤ 3072) (g : (Row 3072).Idx → EReal) (j : (Row 1024).Idx) : EReal :=
  g (ix2 0 ⟨(col j).val + off, by have := (col j).isLt; omega⟩)

/-- relu of the combined row: max (cat2·comb_Wᵀ + comb_b, 0). -/
def combined (cat2 : (Row 2048).Idx → EReal) (combW : (Mat 1024 2048).Idx → EReal) (combb : (Row 1024).Idx → EReal) :
    (Row 1024).Idx → EReal :=
  fun j => max (affineT cat2 combW combb j) zero32

/-- One GRU step: with gx = x·W_ihᵀ + b_ih and gh = h·W_hhᵀ + b_hh (rows of length 3072, gates r, z, n in thirds),
    r = σ(gx_r + gh_r), z = σ(gx_z + gh_z), n = tanh(gx_n + r·gh_n), and the new state (1 − z)·n + z·h. -/
def gruStep (x h : (Row 1024).Idx → EReal) (Wih Whh : (Mat 3072 1024).Idx → EReal) (bih bhh : (Row 3072).Idx → EReal) :
    (Row 1024).Idx → EReal :=
  fun j =>
    let gx := affineT x Wih bih
    let gh := affineT h Whh bhh
    let r := sigm (gate 0 (by omega) gx j + gate 0 (by omega) gh j)
    let z := sigm (gate 1024 (by omega) gx j + gate 1024 (by omega) gh j)
    let n := Ideal.tanh (gate 2048 (by omega) gx j + r * gate 2048 (by omega) gh j)
    (one32 - z) * n + z * h j

/-- The new hidden state from the combined row's inputs. -/
def hiddenNew (cat2 : (Row 2048).Idx → EReal) (h : (Row 1024).Idx → EReal) (combW : (Mat 1024 2048).Idx → EReal)
    (combb : (Row 1024).Idx → EReal) (Wih Whh : (Mat 3072 1024).Idx → EReal) (bih bhh : (Row 3072).Idx → EReal) :
    (Row 1024).Idx → EReal :=
  gruStep (combined cat2 combW combb) h Wih Whh bih bhh

end Cert.Spec

end
-- ==== Proof.KI.Val0.lean ====
/-
  Region 0's output array, read at the extended reals.  Each of the four grid points stores, into its 1 x 512 block of
  the output row, the query row times the transpose of its 512 x 2048 block of the weight matrix, plus its block of the
  bias row; the format changes in between are the identity here.  The four blocks tile the row, so after the region
  the row holds query * weightsᵀ + bias: at column j the sum over k of query[k] * weight[j, k], plus the bias at j.
-/
import proofs.«423497_j70342974374383_1_alg».proof.Proof.KI.Reg0
import proofs.«423497_j70342974374383_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## The body's product at an index -/

/-- The product's dimension numbers: the left operand's row is the result's, its column the contraction index; -/
theorem lhs0_0 (i : S1x512.Idx) (q : dot_S1x2048_S2048x512_S1x512_1_0_0_1_n_n.contr.Idx) :
    (dot_S1x2048_S2048x512_S1x512_1_0_0_1_n_n.lhsIdx i q 0).val = (i 0).val := by
  unfold DotDims.lhsIdx
  rw [dif_neg (show ¬(0 : Fin S1x2048.rank) ∈ dot_S1x2048_S2048x512_S1x512_1_0_0_1_n_n.lhsBatch by decide), dif_pos (show (0 : Fin S1x2048.rank) ∈ dot_S1x2048_S2048x512_S1x512_1_0_0_1_n_n.lhsNonContracting by decide)]
  rfl
theorem lhs0_1 (i : S1x512.Idx) (q : dot_S1x2048_S2048x512_S1x512_1_0_0_1_n_n.contr.Idx) :
    (dot_S1x2048_S2048x512_S1x512_1_0_0_1_n_n.lhsIdx i q 1).val = (q ⟨0, by decide⟩).val :=
  dot_S1x2048_S2048x512_S1x512_1_0_0_1_n_n.lhsIdx_val_of_single rfl i q
/-- the right operand's row is the contraction index, its column the result's. -/
theorem rhs0_0 (i : S1x512.Idx) (q : dot_S1x2048_S2048x512_S1x512_1_0_0_1_n_n.contr.Idx) :
    (dot_S1x2048_S2048x512_S1x512_1_0_0_1_n_n.rhsIdx i q 0).val = (q ⟨0, by decide⟩).val :=
  dot_S1x2048_S2048x512_S1x512_1_0_0_1_n_n.rhsIdx_val_of_single rfl i q
theorem rhs0_1 (i : S1x512.Idx) (q : dot_S1x2048_S2048x512_S1x512_1_0_0_1_n_n.contr.Idx) :
    (dot_S1x2048_S2048x512_S1x512_1_0_0_1_n_n.rhsIdx i q 1).val = (i 1).val := by
  unfold DotDims.rhsIdx
  rw [dif_neg (show ¬(1 : Fin S2048x512.rank) ∈ dot_S1x2048_S2048x512_S1x512_1_0_0_1_n_n.rhsBatch by decide), dif_pos (show (1 : Fin S2048x512.rank) ∈ dot_S1x2048_S2048x512_S1x512_1_0_0_1_n_n.rhsNonContracting by decide)]
  rfl

/-- The product into the zero row, at column `j`: the sum over the contraction index `k` of the left operand at
    `(0, k)` times the right at `(k, j)`. -/
theorem matmul0_apply (l : FVec Ideal S1x2048 .bf16) (r : FVec Ideal S2048x512 .bf16) (j : S1x512.Idx) :
    matmul dot_S1x2048_S2048x512_S1x512_1_0_0_1_n_n none l r (constant (F := Ideal) S1x512 .f32 0x00000000#32) j
      = ∑ k : Fin 2048, l (ix2 (0 : Fin 1) k) * r (ix2 k (⟨(j 1).val, idx2_lt1 j⟩ : Fin 512)) := by
  show FloatOps.matmul dot_S1x2048_S2048x512_S1x512_1_0_0_1_n_n none l r (constant (F := Ideal) S1x512 .f32 0x00000000#32) j = _
  rw [Ideal.matmul_constant_zero_apply, ← Equiv.sum_comp (contrEquiv1 dot_S1x2048_S2048x512_S1x512_1_0_0_1_n_n 2048 rfl rfl).symm]
  refine Finset.sum_congr rfl fun k _ => ?_
  have hk := contrEquiv1_symm_val dot_S1x2048_S2048x512_S1x512_1_0_0_1_n_n 2048 rfl rfl k
  have h0 : (j 0).val = 0 := by have := idx2_lt0 j; omega
  have el : dot_S1x2048_S2048x512_S1x512_1_0_0_1_n_n.lhsIdx j ((contrEquiv1 dot_S1x2048_S2048x512_S1x512_1_0_0_1_n_n 2048 rfl rfl).symm k) = ix2 (0 : Fin 1) k := funext fun a => Fin.ext (by
    match a with
    | ⟨0, _⟩ => exact (lhs0_0 _ _).trans h0
    | ⟨1, _⟩ => exact (lhs0_1 _ _).trans hk)
  have er : dot_S1x2048_S2048x512_S1x512_1_0_0_1_n_n.rhsIdx j ((contrEquiv1 dot_S1x2048_S2048x512_S1x512_1_0_0_1_n_n 2048 rfl rfl).symm k) = ix2 k (⟨(j 1).val, idx2_lt1 j⟩ : Fin 512) := funext fun a => Fin.ext (by
    match a with
    | ⟨0, _⟩ => exact (rhs0_0 _ _).trans hk
    | ⟨1, _⟩ => exact rhs0_1 _ _)
  rw [el, er]

/-- The transposed weight block at `(k, r)` is the block at `(r, k)`. -/
theorem transpose0_apply (x : FVec Ideal S512x2048 .bf16) (k : Fin 2048) (r : Fin 512) :
    transpose S2048x512 [1, 0] x transposes_S512x2048_p1_0_S2048x512 (ix2 k r) = x (ix2 r k) :=
  transpose_apply [1, 0] x transposes_S512x2048_p1_0_S2048x512 (ix2 k r) (ix2 r k) (fun b => match b with
    | ⟨0, _⟩ => rfl
    | ⟨1, _⟩ => rfl)

/-- The body's stored row at column `j`: the inner product of the query row with row `j` of the weight block, plus
    the bias block there. -/
theorem pay0_apply (x0 : Vec Ideal S1x2048 .f32) (x1 : Vec Ideal S512x2048 .f32) (x2 : Vec Ideal S1x512 .f32) (j : S1x512.Idx) :
    k0_pay1 x0 x1 x2 j = (∑ k : Fin 2048, x0 (ix2 (0 : Fin 1) k) * x1 (ix2 (⟨(j 1).val, idx2_lt1 j⟩ : Fin 512) k)) + x2 j := by
  unfold k0_pay1
  dsimp only
  rw [addf_apply, matmul0_apply, shapeCast_self, shapeCast_self]
  refine congrArg (· + x2 j) (Finset.sum_congr rfl fun k _ => ?_)
  rw [transpose0_apply]
  rfl

/-! ## From the blocks to the row -/

variable (V : (c : Dev nD) → (b : Ref sig .tc) → Buf (Elt Ideal) ((c : Thread nD τ).loc b))

theorem zero_off0 : (![0, 0] : Fin 2 → Nat) = fun _ => 0 := funext fun a => by fin_cases a <;> rfl

/-- The block index maps over the four points: the query row's block never moves; the weight block's row index, the
    bias block's column index and the output block's column index are one number, at most 3; every other index is 0. -/
theorem idx_facts0 : ∀ t : Fin cfg0.N,
    win0_0.index t (0 : Fin 2) = 0 ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) = 0 ∧ win0_3.index t (1 : Fin 2) ≤ 3 :=
  (by decide +kernel : ∀ t : Fin grid0.N, _)

/-- Each of the four column blocks of the output row is some point's. -/
theorem idx_onto0 : ∀ p : Fin 4, ∃ t : Fin cfg0.N, win0_3.index t = ![0, p.val] :=
  (by decide +kernel : ∀ p : Fin 4, ∃ t : Fin grid0.N, win0_3.index t = ![0, p.val])

/-- The body's stored row on blocks cut from whole arrays: if the query buffer is the query row, the weight buffer
    rows `512 n ..` of the weights, and the bias buffer at `y` the bias at `i`, with `i` column `512 n + y`, then the
    stored row at `y` is query * weightsᵀ + bias at `i`. -/
theorem pay0_eq_affineT (q : (Cert.Spec.Row 2048).Idx → EReal) (W : (Cert.Spec.Mat 2048 2048).Idx → EReal) (b : (Cert.Spec.Row 2048).Idx → EReal)
    (x0 : Vec Ideal S1x2048 .f32) (x1 : Vec Ideal S512x2048 .f32) (x2 : Vec Ideal S1x512 .f32) (n : Nat) (y : S1x512.Idx) (i : (Cert.Spec.Row 2048).Idx)
    (hi : (i 1).val = n * 512 + (y 1).val)
    (h0 : ∀ k : Fin 2048, x0 (ix2 (0 : Fin 1) k) = q (ix2 (0 : Fin 1) k))
    (h1 : ∀ (r : Fin 512) (k : Fin 2048) (r' : Fin 2048), r'.val = n * 512 + r.val → x1 (ix2 r k) = W (ix2 r' k))
    (h2 : x2 y = b i) :
    k0_pay1 x0 x1 x2 y = Cert.Spec.affineT q W b i := by
  rw [pay0_apply]
  unfold Cert.Spec.affineT
  rw [h2]
  refine congrArg (· + b i) (Finset.sum_congr rfl fun k _ => ?_)
  rw [h0 k, h1 ⟨(y 1).val, idx2_lt1 y⟩ k (Cert.Spec.col i) hi]

/-- What point `t` writes back is block `t` of query * weightsᵀ + bias of the arrays as the region finds them. -/
theorem flushed0_eq (c : Dev nD) (t : Fin cfg0.N) :
    (dat0 V c).flushed 3 t = ((cfg0.win 3).blk t).view.read (Elt Ideal) (Cert.Spec.affineT (n := 2048) (k := 2048) (V c main_v3) (V c main_arg4) (V c main_v4)) := by
  show (cfg0.win 3).cut (grid0.coords t) ((dat0 V c).after 3 t) = _
  rw [after0_3]
  unfold out0_3
  rw [View.canon_unit_zero zero_off0]
  simp only [View.ld_unit_zero (S := S1x2048) zero_off0, View.ld_unit_zero (S := S512x2048) zero_off0, View.ld_unit_zero (S := S1x512) zero_off0]
  obtain ⟨e0, e1, e2, e3, e4, e5, e6, e7⟩ := idx_facts0 t
  funext y
  show k0_pay1 (iblk0 V c 0 t) (iblk0 V c 1 t) (iblk0 V c 2 t) y = Cert.Spec.affineT (n := 2048) (k := 2048) (V c main_v3) (V c main_arg4) (V c main_v4) (((cfg0.win 3).blk t).view.emb y)
  refine pay0_eq_affineT _ _ _ _ _ _ (win0_3.index t (1 : Fin 2)) y _ ?_ ?_ ?_ ?_
  · show win0_3.index t (1 : Fin 2) * 512 + 1 * (y 1).val = win0_3.index t (1 : Fin 2) * 512 + (y 1).val
    omega
  · intro k
    show V c main_v3 (((cfg0.win 0).blk t).view.emb (ix2 (0 : Fin 1) k)) = V c main_v3 (ix2 (0 : Fin 1) k)
    refine congrArg _ (funext fun a => Fin.ext ?_)
    match a with
    | ⟨0, _⟩ => show win0_0.index t (0 : Fin 2) * 1 + 1 * 0 = 0; omega
    | ⟨1, _⟩ => show win0_0.index t (1 : Fin 2) * 2048 + 1 * k.val = k.val; omega
  · intro r k r' hr
    show V c main_arg4 (((cfg0.win 1).blk t).view.emb (ix2 r k)) = V c main_arg4 (ix2 r' k)
    refine congrArg _ (funext fun a => Fin.ext ?_)
    match a with
    | ⟨0, _⟩ => show win0_1.index t (0 : Fin 2) * 512 + 1 * r.val = r'.val; omega
    | ⟨1, _⟩ => show win0_1.index t (1 : Fin 2) * 2048 + 1 * k.val = k.val; omega
  · show V c main_v4 (((cfg0.win 2).blk t).view.emb y) = V c main_v4 (((cfg0.win 3).blk t).view.emb y)
    refine congrArg _ (funext fun a => Fin.ext ?_)
    match a with
    | ⟨0, _⟩ => show win0_2.index t (0 : Fin 2) * 1 + 1 * (y 0).val = win0_3.index t (0 : Fin 2) * 1 + 1 * (y 0).val; omega
    | ⟨1, _⟩ => show win0_2.index t (1 : Fin 2) * 512 + 1 * (y 1).val = win0_3.index t (1 : Fin 2) * 512 + 1 * (y 1).val; omega

/-- An index of the output row is in point `t`'s block iff each coordinate is in the block's range on its axis. -/
theorem mem_blk0 (t : Fin cfg0.N) (i : S1x2048.Idx) :
    i ∈ ((cfg0.win 3).blk t).view.set ↔ ∀ a : Fin 2, win0_3.index t a * S1x512.size a ≤ (i a).val ∧ (i a).val < win0_3.index t a * S1x512.size a + S1x512.size a := by
  show i ∈ ((View.whole main_v5).slice (win0_3.rect t)).set ↔ _
  rw [View.set_slice_whole, Rect.mem_set_unit]
  exact Iff.rfl

/-- The four blocks tile the row: column `j` is in the block of the point whose block index is `j / 512`. -/
theorem cover0 (i : S1x2048.Idx) : ∃ t : Fin cfg0.N, (cfg0.win 3).flush t = true ∧ i ∈ ((cfg0.win 3).blk t).view.set := by
  have hi0 : (i 0).val < 1 := idx2_lt0 i
  have hi1 : (i 1).val < 2048 := idx2_lt1 i
  obtain ⟨t, ht⟩ := idx_onto0 ⟨(i 1).val / 512, by omega⟩
  have q0 : win0_3.index t (0 : Fin 2) = 0 := congrFun ht 0
  have q1 : win0_3.index t (1 : Fin 2) = (i 1).val / 512 := congrFun ht 1
  refine ⟨t, flush0_3 t, ?_⟩
  rw [mem_blk0]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 512 ≤ (i 1).val ∧ (i 1).val < win0_3.index t (1 : Fin 2) * 512 + 512; omega

/-- The output row after the region is query * weightsᵀ + bias of the query row, the weight matrix and the bias row
    as the region finds them. -/
theorem val0 (c : Dev nD) : (dat0 V c).arrAt 3 cfg0.N = Cert.Spec.affineT (n := 2048) (k := 2048) (V c main_v3) (V c main_arg4) (V c main_v4) :=
  (dat0 V c).arrAt_eq_of_cover 3 _ (fun t _ => flushed0_eq V c t) cover0

end Cert.KernelIdeal.Hand

end
-- ==== Proof.KI.Val1.lean ====
/-
  Region 1's output array, read at the extended reals.  The accumulator starts from zeros and each of the four grid
  points adds to it the product of its 1 x 512 block of the attention weights with its 512 x 1024 block of the encoder
  rows; the format changes in between are the identity here.  So after point n the accumulator at column j is the sum
  of the first 512 (n + 1) products weight[q] * encoder[q, j], by induction on the point, and after the last point all
  2048 of them.  The output's block is the whole row and is written back once, at the last point, from a copy of the
  accumulator: after the region the row holds weights * encoder, at column j the sum over q of weight[q] *
  encoder[q, j].
-/
import proofs.«423497_j70342974374383_1_alg».proof.Proof.KI.Reg1
import proofs.«423497_j70342974374383_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## The body's product at an index -/

/-- The product's dimension numbers: the left operand's row is the result's, its column the contraction index; -/
theorem lhs1_0 (i : S1x1024.Idx) (q : dot_S1x512_S512x1024_S1x1024_1_0_0_1_n_n.contr.Idx) :
    (dot_S1x512_S512x1024_S1x1024_1_0_0_1_n_n.lhsIdx i q 0).val = (i 0).val := by
  unfold DotDims.lhsIdx
  rw [dif_neg (show ¬(0 : Fin S1x512.rank) ∈ dot_S1x512_S512x1024_S1x1024_1_0_0_1_n_n.lhsBatch by decide), dif_pos (show (0 : Fin S1x512.rank) ∈ dot_S1x512_S512x1024_S1x1024_1_0_0_1_n_n.lhsNonContracting by decide)]
  rfl
theorem lhs1_1 (i : S1x1024.Idx) (q : dot_S1x512_S512x1024_S1x1024_1_0_0_1_n_n.contr.Idx) :
    (dot_S1x512_S512x1024_S1x1024_1_0_0_1_n_n.lhsIdx i q 1).val = (q ⟨0, by decide⟩).val :=
  dot_S1x512_S512x1024_S1x1024_1_0_0_1_n_n.lhsIdx_val_of_single rfl i q
/-- the right operand's row is the contraction index, its column the result's. -/
theorem rhs1_0 (i : S1x1024.Idx) (q : dot_S1x512_S512x1024_S1x1024_1_0_0_1_n_n.contr.Idx) :
    (dot_S1x512_S512x1024_S1x1024_1_0_0_1_n_n.rhsIdx i q 0).val = (q ⟨0, by decide⟩).val :=
  dot_S1x512_S512x1024_S1x1024_1_0_0_1_n_n.rhsIdx_val_of_single rfl i q
theorem rhs1_1 (i : S1x1024.Idx) (q : dot_S1x512_S512x1024_S1x1024_1_0_0_1_n_n.contr.Idx) :
    (dot_S1x512_S512x1024_S1x1024_1_0_0_1_n_n.rhsIdx i q 1).val = (i 1).val := by
  unfold DotDims.rhsIdx
  rw [dif_neg (show ¬(1 : Fin S512x1024.rank) ∈ dot_S1x512_S512x1024_S1x1024_1_0_0_1_n_n.rhsBatch by decide), dif_pos (show (1 : Fin S512x1024.rank) ∈ dot_S1x512_S512x1024_S1x1024_1_0_0_1_n_n.rhsNonContracting by decide)]
  rfl

/-- The product into the zero row, at column `j`: the sum over the contraction index `k` of the left operand at
    `(0, k)` times the right at `(k, j)`. -/
theorem matmul1_apply (l : FVec Ideal S1x512 .bf16) (r : FVec Ideal S512x1024 .bf16) (j : S1x1024.Idx) :
    matmul dot_S1x512_S512x1024_S1x1024_1_0_0_1_n_n none l r (constant (F := Ideal) S1x1024 .f32 0x00000000#32) j
      = ∑ k : Fin 512, l (ix2 (0 : Fin 1) k) * r (ix2 k (⟨(j 1).val, idx2_lt1 j⟩ : Fin 1024)) := by
  show FloatOps.matmul dot_S1x512_S512x1024_S1x1024_1_0_0_1_n_n none l r (constant (F := Ideal) S1x1024 .f32 0x00000000#32) j = _
  rw [Ideal.matmul_constant_zero_apply, ← Equiv.sum_comp (contrEquiv1 dot_S1x512_S512x1024_S1x1024_1_0_0_1_n_n 512 rfl rfl).symm]
  refine Finset.sum_congr rfl fun k _ => ?_
  have hk := contrEquiv1_symm_val dot_S1x512_S512x1024_S1x1024_1_0_0_1_n_n 512 rfl rfl k
  have h0 : (j 0).val = 0 := by have := idx2_lt0 j; omega
  have el : dot_S1x512_S512x1024_S1x1024_1_0_0_1_n_n.lhsIdx j ((contrEquiv1 dot_S1x512_S512x1024_S1x1024_1_0_0_1_n_n 512 rfl rfl).symm k) = ix2 (0 : Fin 1) k := funext fun a => Fin.ext (by
    match a with
    | ⟨0, _⟩ => exact (lhs1_0 _ _).trans h0
    | ⟨1, _⟩ => exact (lhs1_1 _ _).trans hk)
  have er : dot_S1x512_S512x1024_S1x1024_1_0_0_1_n_n.rhsIdx j ((contrEquiv1 dot_S1x512_S512x1024_S1x1024_1_0_0_1_n_n 512 rfl rfl).symm k) = ix2 k (⟨(j 1).val, idx2_lt1 j⟩ : Fin 1024) := funext fun a => Fin.ext (by
    match a with
    | ⟨0, _⟩ => exact (rhs1_0 _ _).trans hk
    | ⟨1, _⟩ => exact rhs1_1 _ _)
  rw [el, er]

/-- The row the body stores into the accumulator, at column `j`: what the accumulator held there plus the inner
    product of the weight block with column `j` of the encoder block (the format changes are the identity here). -/
theorem pay2_apply (x0 : Vec Ideal S1x512 .f32) (x1 : Vec Ideal S512x1024 .f32) (xs : Vec Ideal S1x1024 .f32) (j : S1x1024.Idx) :
    k1_pay2 x0 x1 xs j = xs j + ∑ k : Fin 512, x0 (ix2 (0 : Fin 1) k) * x1 (ix2 k (⟨(j 1).val, idx2_lt1 j⟩ : Fin 1024)) := by
  unfold k1_pay2
  dsimp only
  rw [shapeCast_self, addf_apply, matmul1_apply]
  simp only [shapeCast_self, truncf_apply]

/-- The row the body stores at the first point is zero everywhere. -/
theorem pay1_apply (j : S1x1024.Idx) : k1_pay1 (F := Ideal) j = 0 := by
  unfold k1_pay1
  rw [shapeCast_self, broadcast_apply]
  exact Ideal.ofBits_zero_f32

/-! ## The sum, run by run -/

/-- The product of weight `q` and the encoder row `q` at column `jj`, as a function of a natural number (zero past
    the arrays' end, which no sum below reaches). -/
def term1 (W : (Cert.Spec.Row 2048).Idx → EReal) (E : (Cert.Spec.Mat 2048 1024).Idx → EReal) (jj : Fin 1024) (q : ℕ) : EReal :=
  if h : q < 2048 then W (ix2 (0 : Fin 1) (⟨q, h⟩ : Fin 2048)) * E (ix2 (⟨q, h⟩ : Fin 2048) jj) else 0

/-- The weights times the encoder rows at column `j` is the sum of the 2048 products. -/
theorem vecMat_eq_range (W : (Cert.Spec.Row 2048).Idx → EReal) (E : (Cert.Spec.Mat 2048 1024).Idx → EReal) (j : (Cert.Spec.Row 1024).Idx) :
    Cert.Spec.vecMat W E j = ∑ q ∈ Finset.range 2048, term1 W E (Cert.Spec.col j) q := by
  unfold Cert.Spec.vecMat
  rw [← Fin.sum_univ_eq_sum_range]
  refine Finset.sum_congr rfl fun q _ => ?_
  unfold term1
  rw [dif_pos q.isLt]

/-- A point's inner product is one run of 512 of them: if the weight buffer holds weights `512 n ..` and the encoder
    buffer rows `512 n ..`, the inner product at column `jj` is the sum of products `512 n .. 512 n + 511`. -/
theorem block_eq_range (W : (Cert.Spec.Row 2048).Idx → EReal) (E : (Cert.Spec.Mat 2048 1024).Idx → EReal)
    (x0 : Vec Ideal S1x512 .f32) (x1 : Vec Ideal S512x1024 .f32) (n : ℕ) (hn : n < 4) (jj : Fin 1024)
    (h0 : ∀ (k : Fin 512) (k' : Fin 2048), k'.val = n * 512 + k.val → x0 (ix2 (0 : Fin 1) k) = W (ix2 (0 : Fin 1) k'))
    (h1 : ∀ (k : Fin 512) (k' : Fin 2048), k'.val = n * 512 + k.val → x1 (ix2 k jj) = E (ix2 k' jj)) :
    ∑ k : Fin 512, x0 (ix2 (0 : Fin 1) k) * x1 (ix2 k jj) = ∑ q ∈ Finset.range 512, term1 W E jj (n * 512 + q) := by
  rw [← Fin.sum_univ_eq_sum_range (fun q => term1 W E jj (n * 512 + q))]
  refine Finset.sum_congr rfl fun k _ => ?_
  have hk : n * 512 + k.val < 2048 := by have := k.isLt; omega
  unfold term1
  rw [dif_pos hk, h0 k ⟨n * 512 + k.val, hk⟩ rfl, h1 k ⟨n * 512 + k.val, hk⟩ rfl]

/-! ## From the blocks to the arrays -/

variable (V : (c : Dev nD) → (b : Ref sig .tc) → Buf (Elt Ideal) ((c : Thread nD τ).loc b))

/-- The block index maps over the four points: the weight block's column index and the encoder block's row index are
    the point's position; every other index, the output block's included, is 0. -/
theorem idx_facts1 : ∀ t : Fin cfg1.N,
    win1_0.index t (0 : Fin 2) = 0 ∧ win1_0.index t (1 : Fin 2) = t.val
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- The weight block at point `t` holds weights `512 t ..`, -/
theorem iblk1_0_apply (c : Dev nD) (t : Fin cfg1.N) (k : Fin 512) (k' : Fin 2048) (hk : k'.val = t.val * 512 + k.val) :
    iblk1 V c 0 t (ix2 (0 : Fin 1) k) = V c main_v16 (ix2 (0 : Fin 1) k') := by
  obtain ⟨e0, e1, e2, e3, e4, e5⟩ := idx_facts1 t
  show V c main_v16 (((cfg1.win 0).blk t).view.emb (ix2 (0 : Fin 1) k)) = V c main_v16 (ix2 (0 : Fin 1) k')
  refine congrArg _ (funext fun a => Fin.ext ?_)
  match a with
  | ⟨0, _⟩ => show win1_0.index t (0 : Fin 2) * 1 + 1 * 0 = 0; omega
  | ⟨1, _⟩ => show win1_0.index t (1 : Fin 2) * 512 + 1 * k.val = k'.val; omega

/-- and the encoder block rows `512 t ..`, every column. -/
theorem iblk1_1_apply (c : Dev nD) (t : Fin cfg1.N) (k : Fin 512) (jj : Fin 1024) (k' : Fin 2048) (hk : k'.val = t.val * 512 + k.val) :
    iblk1 V c 1 t (ix2 k jj) = V c main_v2 (ix2 k' jj) := by
  obtain ⟨e0, e1, e2, e3, e4, e5⟩ := idx_facts1 t
  show V c main_v2 (((cfg1.win 1).blk t).view.emb (ix2 k jj)) = V c main_v2 (ix2 k' jj)
  refine congrArg _ (funext fun a => Fin.ext ?_)
  match a with
  | ⟨0, _⟩ => show win1_1.index t (0 : Fin 2) * 512 + 1 * k.val = k'.val; omega
  | ⟨1, _⟩ => show win1_1.index t (1 : Fin 2) * 1024 + 1 * jj.val = jj.val; omega

/-- THE ACCUMULATION at an index: after point `n` the accumulator at column `j` is the sum of the first
    `512 (n + 1)` products of a weight and the encoder row of its index at that column, by induction on the point. -/
theorem acc1_apply (c : Dev nD) : ∀ (n : ℕ) (hn : n < cfg1.N) (j : S1x1024.Idx),
    acc1 V c n hn j = ∑ q ∈ Finset.range ((n + 1) * 512), term1 (V c main_v16) (V c main_v2) (⟨(j 1).val, idx2_lt1 j⟩ : Fin 1024) q
  | 0, hn, j => by
    have h4 : (0 : ℕ) < 4 := by omega
    rw [acc1_zero, pay2_apply, pay1_apply, zero_add,
      block_eq_range (V c main_v16) (V c main_v2) _ _ 0 h4 _
        (fun k k' hk => iblk1_0_apply V c ⟨0, hn⟩ k k' hk) (fun k k' hk => iblk1_1_apply V c ⟨0, hn⟩ k _ k' hk)]
    simp only [Nat.zero_mul, Nat.zero_add, Nat.one_mul]
  | n + 1, hn, j => by
    have h4 : n + 1 < 4 := lt_of_lt_of_eq hn (show cfg1.N = 4 from N_1)
    rw [acc1_succ, pay2_apply, acc1_apply c n (Nat.lt_of_succ_lt hn) j,
      block_eq_range (V c main_v16) (V c main_v2) _ _ (n + 1) h4 _
        (fun k k' hk => iblk1_0_apply V c ⟨n + 1, hn⟩ k k' hk) (fun k k' hk => iblk1_1_apply V c ⟨n + 1, hn⟩ k _ k' hk),
      show (n + 1 + 1) * 512 = (n + 1) * 512 + 512 by omega, Finset.sum_range_add]

/-! ## The array after the region -/

/-- What the last point writes back is the whole of weights times encoder rows. -/
theorem flushed1_eq (c : Dev nD) (t : Fin cfg1.N) (hf : (cfg1.win 2).flush t = true) :
    (dat1 V c).flushed 2 t = ((cfg1.win 2).blk t).view.read (Elt Ideal) (Cert.Spec.vecMat (k := 2048) (n := 1024) (V c main_v16) (V c main_v2)) := by
  have ht : t.val = 3 := by
    have h3 := (flush1_2 t).mp hf
    have hN : t.val < 4 := lt_of_lt_of_eq t.isLt (show cfg1.N = 4 from N_1)
    omega
  obtain ⟨e0, e1, e2, e3, e4, e5⟩ := idx_facts1 t
  show (cfg1.win 2).cut (grid1.coords t) ((dat1 V c).after 2 t) = _
  rw [after1_2]
  funext y
  show acc1 V c t.val t.isLt y = Cert.Spec.vecMat (k := 2048) (n := 1024) (V c main_v16) (V c main_v2) (((cfg1.win 2).blk t).view.emb y)
  rw [acc1_apply, vecMat_eq_range, show (t.val + 1) * 512 = 2048 by omega]
  refine congrArg (fun jj => ∑ q ∈ Finset.range 2048, term1 (V c main_v16) (V c main_v2) jj q) (Fin.ext ?_)
  show (y 1).val = win1_2.index t (1 : Fin 2) * 1024 + 1 * (y 1).val
  omega

/-- An index of the output row is in point `t`'s block iff each coordinate is in the block's range on its axis. -/
theorem mem_blk1 (t : Fin cfg1.N) (i : S1x1024.Idx) :
    i ∈ ((cfg1.win 2).blk t).view.set ↔ ∀ a : Fin 2, win1_2.index t a * S1x1024.size a ≤ (i a).val ∧ (i a).val < win1_2.index t a * S1x1024.size a + S1x1024.size a := by
  show i ∈ ((View.whole main_v17).slice (win1_2.rect t)).set ↔ _
  rw [View.set_slice_whole, Rect.mem_set_unit]
  exact Iff.rfl

/-- The last point's block is the whole row. -/
theorem cover1 (i : S1x1024.Idx) : ∃ t : Fin cfg1.N, (cfg1.win 2).flush t = true ∧ i ∈ ((cfg1.win 2).blk t).view.set := by
  have hi0 : (i 0).val < 1 := idx2_lt0 i
  have hi1 : (i 1).val < 1024 := idx2_lt1 i
  obtain ⟨e0, e1, e2, e3, e4, e5⟩ := idx_facts1 t1_3
  refine ⟨t1_3, (flush1_2 t1_3).mpr (by decide), ?_⟩
  rw [mem_blk1]
  intro a
  match a with
  | ⟨0, _⟩ => show win1_2.index t1_3 (0 : Fin 2) * 1 ≤ (i 0).val ∧ (i 0).val < win1_2.index t1_3 (0 : Fin 2) * 1 + 1; omega
  | ⟨1, _⟩ => show win1_2.index t1_3 (1 : Fin 2) * 1024 ≤ (i 1).val ∧ (i 1).val < win1_2.index t1_3 (1 : Fin 2) * 1024 + 1024; omega

/-- The output row after the region is the attention weights times the encoder rows, of the arrays as the region finds
    them. -/
theorem val1 (c : Dev nD) : (dat1 V c).arrAt 2 cfg1.N = Cert.Spec.vecMat (k := 2048) (n := 1024) (V c main_v16) (V c main_v2) :=
  (dat1 V c).arrAt_eq_of_cover 2 _ (fun t hf => flushed1_eq V c t hf) cover1

end Cert.KernelIdeal.Hand

end
-- ==== Proof.KI.Val2.lean ====
/-
  Region 2's output array, read at the extended reals.  The one grid point loads every operand whole: the
  concatenated row, the previous hidden row, the combine matrix and its bias row, the two gate matrices and their
  bias rows.  The format changes are the identity here, a product into the zero row is the sum over the contraction
  index, and the word 1.0 is the number one, so the stored row at column j is one step of the recurrent cell on
  relu(row * combineᵀ + bias): with gx = x * W_ihᵀ + b_ih and gh = h * W_hhᵀ + b_hh in thirds r, z, n,
  (1 - z) * tanh(gx_n + r * gh_n) + z * h with r and z the logistic of the sums of the first two thirds.  The point's
  block is the whole output row, so after the region the row holds that.
-/
import proofs.«423497_j70342974374383_1_alg».proof.Proof.KI.Reg2
import proofs.«423497_j70342974374383_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## The body's products, transposes and slices at an index -/

/-- The first product's dimension numbers (the row of length 2048 against the transposed combine matrix): the left
    operand's row is the result's, its column the contraction index; the right operand's row is the contraction
    index, its column the result's. -/
theorem lhs2a_0 (i : S1x1024.Idx) (q : dot_S1x2048_S2048x1024_S1x1024_1_0_0_1_n_n.contr.Idx) :
    (dot_S1x2048_S2048x1024_S1x1024_1_0_0_1_n_n.lhsIdx i q 0).val = (i 0).val := by
  unfold DotDims.lhsIdx
  rw [dif_neg (show ¬(0 : Fin S1x2048.rank) ∈ dot_S1x2048_S2048x1024_S1x1024_1_0_0_1_n_n.lhsBatch by decide), dif_pos (show (0 : Fin S1x2048.rank) ∈ dot_S1x2048_S2048x1024_S1x1024_1_0_0_1_n_n.lhsNonContracting by decide)]
  rfl
theorem lhs2a_1 (i : S1x1024.Idx) (q : dot_S1x2048_S2048x1024_S1x1024_1_0_0_1_n_n.contr.Idx) :
    (dot_S1x2048_S2048x1024_S1x1024_1_0_0_1_n_n.lhsIdx i q 1).val = (q ⟨0, by decide⟩).val :=
  dot_S1x2048_S2048x1024_S1x1024_1_0_0_1_n_n.lhsIdx_val_of_single rfl i q
theorem rhs2a_0 (i : S1x1024.Idx) (q : dot_S1x2048_S2048x1024_S1x1024_1_0_0_1_n_n.contr.Idx) :
    (dot_S1x2048_S2048x1024_S1x1024_1_0_0_1_n_n.rhsIdx i q 0).val = (q ⟨0, by decide⟩).val :=
  dot_S1x2048_S2048x1024_S1x1024_1_0_0_1_n_n.rhsIdx_val_of_single rfl i q
theorem rhs2a_1 (i : S1x1024.Idx) (q : dot_S1x2048_S2048x1024_S1x1024_1_0_0_1_n_n.contr.Idx) :
    (dot_S1x2048_S2048x1024_S1x1024_1_0_0_1_n_n.rhsIdx i q 1).val = (i 1).val := by
  unfold DotDims.rhsIdx
  rw [dif_neg (show ¬(1 : Fin S2048x1024.rank) ∈ dot_S1x2048_S2048x1024_S1x1024_1_0_0_1_n_n.rhsBatch by decide), dif_pos (show (1 : Fin S2048x1024.rank) ∈ dot_S1x2048_S2048x1024_S1x1024_1_0_0_1_n_n.rhsNonContracting by decide)]
  rfl

/-- The same for the two gate products (a row of length 1024 against a transposed gate matrix). -/
theorem lhs2b_0 (i : S1x3072.Idx) (q : dot_S1x1024_S1024x3072_S1x3072_1_0_0_1_n_n.contr.Idx) :
    (dot_S1x1024_S1024x3072_S1x3072_1_0_0_1_n_n.lhsIdx i q 0).val = (i 0).val := by
  unfold DotDims.lhsIdx
  rw [dif_neg (show ¬(0 : Fin S1x1024.rank) ∈ dot_S1x1024_S1024x3072_S1x3072_1_0_0_1_n_n.lhsBatch by decide), dif_pos (show (0 : Fin S1x1024.rank) ∈ dot_S1x1024_S1024x3072_S1x3072_1_0_0_1_n_n.lhsNonContracting by decide)]
  rfl
theorem lhs2b_1 (i : S1x3072.Idx) (q : dot_S1x1024_S1024x3072_S1x3072_1_0_0_1_n_n.contr.Idx) :
    (dot_S1x1024_S1024x3072_S1x3072_1_0_0_1_n_n.lhsIdx i q 1).val = (q ⟨0, by decide⟩).val :=
  dot_S1x1024_S1024x3072_S1x3072_1_0_0_1_n_n.lhsIdx_val_of_single rfl i q
theorem rhs2b_0 (i : S1x3072.Idx) (q : dot_S1x1024_S1024x3072_S1x3072_1_0_0_1_n_n.contr.Idx) :
    (dot_S1x1024_S1024x3072_S1x3072_1_0_0_1_n_n.rhsIdx i q 0).val = (q ⟨0, by decide⟩).val :=
  dot_S1x1024_S1024x3072_S1x3072_1_0_0_1_n_n.rhsIdx_val_of_single rfl i q
theorem rhs2b_1 (i : S1x3072.Idx) (q : dot_S1x1024_S1024x3072_S1x3072_1_0_0_1_n_n.contr.Idx) :
    (dot_S1x1024_S1024x3072_S1x3072_1_0_0_1_n_n.rhsIdx i q 1).val = (i 1).val := by
  unfold DotDims.rhsIdx
  rw [dif_neg (show ¬(1 : Fin S1024x3072.rank) ∈ dot_S1x1024_S1024x3072_S1x3072_1_0_0_1_n_n.rhsBatch by decide), dif_pos (show (1 : Fin S1024x3072.rank) ∈ dot_S1x1024_S1024x3072_S1x3072_1_0_0_1_n_n.rhsNonContracting by decide)]
  rfl

/-- A product into the zero row, at column `j`: the sum over the contraction index `k` of the left operand at
    `(0, k)` times the right at `(k, j)`. -/
theorem matmul2a_apply (l : FVec Ideal S1x2048 .bf16) (r : FVec Ideal S2048x1024 .bf16) (j : S1x1024.Idx) :
    matmul dot_S1x2048_S2048x1024_S1x1024_1_0_0_1_n_n none l r (constant (F := Ideal) S1x1024 .f32 0x00000000#32) j
      = ∑ k : Fin 2048, l (ix2 (0 : Fin 1) k) * r (ix2 k (⟨(j 1).val, idx2_lt1 j⟩ : Fin 1024)) := by
  show FloatOps.matmul dot_S1x2048_S2048x1024_S1x1024_1_0_0_1_n_n none l r (constant (F := Ideal) S1x1024 .f32 0x00000000#32) j = _
  rw [Ideal.matmul_constant_zero_apply, ← Equiv.sum_comp (contrEquiv1 dot_S1x2048_S2048x1024_S1x1024_1_0_0_1_n_n 2048 rfl rfl).symm]
  refine Finset.sum_congr rfl fun k _ => ?_
  have hk := contrEquiv1_symm_val dot_S1x2048_S2048x1024_S1x1024_1_0_0_1_n_n 2048 rfl rfl k
  have h0 : (j 0).val = 0 := by have := idx2_lt0 j; omega
  have el : dot_S1x2048_S2048x1024_S1x1024_1_0_0_1_n_n.lhsIdx j ((contrEquiv1 dot_S1x2048_S2048x1024_S1x1024_1_0_0_1_n_n 2048 rfl rfl).symm k) = ix2 (0 : Fin 1) k := funext fun a => Fin.ext (by
    match a with
    | ⟨0, _⟩ => exact (lhs2a_0 _ _).trans h0
    | ⟨1, _⟩ => exact (lhs2a_1 _ _).trans hk)
  have er : dot_S1x2048_S2048x1024_S1x1024_1_0_0_1_n_n.rhsIdx j ((contrEquiv1 dot_S1x2048_S2048x1024_S1x1024_1_0_0_1_n_n 2048 rfl rfl).symm k) = ix2 k (⟨(j 1).val, idx2_lt1 j⟩ : Fin 1024) := funext fun a => Fin.ext (by
    match a with
    | ⟨0, _⟩ => exact (rhs2a_0 _ _).trans hk
    | ⟨1, _⟩ => exact rhs2a_1 _ _)
  rw [el, er]
theorem matmul2b_apply (l : FVec Ideal S1x1024 .bf16) (r : FVec Ideal S1024x3072 .bf16) (j : S1x3072.Idx) :
    matmul dot_S1x1024_S1024x3072_S1x3072_1_0_0_1_n_n none l r (constant (F := Ideal) S1x3072 .f32 0x00000000#32) j
      = ∑ k : Fin 1024, l (ix2 (0 : Fin 1) k) * r (ix2 k (⟨(j 1).val, idx2_lt1 j⟩ : Fin 3072)) := by
  show FloatOps.matmul dot_S1x1024_S1024x3072_S1x3072_1_0_0_1_n_n none l r (constant (F := Ideal) S1x3072 .f32 0x00000000#32) j = _
  rw [Ideal.matmul_constant_zero_apply, ← Equiv.sum_comp (contrEquiv1 dot_S1x1024_S1024x3072_S1x3072_1_0_0_1_n_n 1024 rfl rfl).symm]
  refine Finset.sum_congr rfl fun k _ => ?_
  have hk := contrEquiv1_symm_val dot_S1x1024_S1024x3072_S1x3072_1_0_0_1_n_n 1024 rfl rfl k
  have h0 : (j 0).val = 0 := by have := idx2_lt0 j; omega
  have el : dot_S1x1024_S1024x3072_S1x3072_1_0_0_1_n_n.lhsIdx j ((contrEquiv1 dot_S1x1024_S1024x3072_S1x3072_1_0_0_1_n_n 1024 rfl rfl).symm k) = ix2 (0 : Fin 1) k := funext fun a => Fin.ext (by
    match a with
    | ⟨0, _⟩ => exact (lhs2b_0 _ _).trans h0
    | ⟨1, _⟩ => exact (lhs2b_1 _ _).trans hk)
  have er : dot_S1x1024_S1024x3072_S1x3072_1_0_0_1_n_n.rhsIdx j ((contrEquiv1 dot_S1x1024_S1024x3072_S1x3072_1_0_0_1_n_n 1024 rfl rfl).symm k) = ix2 k (⟨(j 1).val, idx2_lt1 j⟩ : Fin 3072) := funext fun a => Fin.ext (by
    match a with
    | ⟨0, _⟩ => exact (rhs2b_0 _ _).trans hk
    | ⟨1, _⟩ => exact rhs2b_1 _ _)
  rw [el, er]

/-- A transposed matrix at `(k, r)` is the matrix at `(r, k)`. -/
theorem transpose2a_apply (x : FVec Ideal S1024x2048 .bf16) (k : Fin 2048) (r : Fin 1024) :
    transpose S2048x1024 [1, 0] x transposes_S1024x2048_p1_0_S2048x1024 (ix2 k r) = x (ix2 r k) :=
  transpose_apply [1, 0] x transposes_S1024x2048_p1_0_S2048x1024 (ix2 k r) (ix2 r k) (fun b => match b with
    | ⟨0, _⟩ => rfl
    | ⟨1, _⟩ => rfl)
theorem transpose2b_apply (x : FVec Ideal S3072x1024 .bf16) (k : Fin 1024) (r : Fin 3072) :
    transpose S1024x3072 [1, 0] x transposes_S3072x1024_p1_0_S1024x3072 (ix2 k r) = x (ix2 r k) :=
  transpose_apply [1, 0] x transposes_S3072x1024_p1_0_S1024x3072 (ix2 k r) (ix2 r k) (fun b => match b with
    | ⟨0, _⟩ => rfl
    | ⟨1, _⟩ => rfl)

/-- The word 1.0 is the number one, -/
theorem one32_eq : Ideal.ofBits .f32 0x3F800000#32 = 1 := by
  simp [Ideal.ofBits, Ideal.ieee, -EReal.coe_mul]; norm_num

/-- so the logistic operation is 1 / (1 + e⁻ˣ) spelt with that word. -/
theorem logistic_eq_sigm (x : EReal) : Ideal.logistic x = Cert.Spec.sigm x := by
  show Ideal.div 1 (1 + Ideal.exp (-x)) = Ideal.div (Ideal.ofBits .f32 0x3F800000#32) (Ideal.ofBits .f32 0x3F800000#32 + Ideal.exp (-x))
  rw [one32_eq]

/-- The elementwise logistic and hyperbolic tangent at a column. -/
theorem logistic2_apply (a : FVec Ideal S1x1024 .f32) (j : S1x1024.Idx) : logistic a j = Cert.Spec.sigm (a j) :=
  logistic_eq_sigm (a j)
theorem tanh2_apply (a : FVec Ideal S1x1024 .f32) (j : S1x1024.Idx) : tanh a j = Ideal.tanh (a j) := rfl

/-- A third of a row of length 3072, starting at column `off`, read at column `j`: the row at `j + off`. -/
theorem slice2_apply (off : Nat) (hoff : off + 1024 ≤ 3072) (g : FVec Ideal S1x3072 .f32) (h : S1x3072.Slices ![0, off] S1x1024) (j : S1x1024.Idx) :
    extractStridedSlice S1x1024 ![0, off] g h j = Cert.Spec.gate off hoff g j := by
  have h0 : (j 0).val = 0 := by have := idx2_lt0 j; omega
  unfold Cert.Spec.gate
  refine extractStridedSlice_apply ![0, off] g h j _ (fun a => ?_)
  match a with
  | ⟨0, _⟩ => show (0 : Nat) = 0 + (j 0).val; omega
  | ⟨1, _⟩ => show (j 1).val + off = off + (j 1).val; omega

/-! ## The body's rows at a column -/

/-- The hidden-side gate pre-activations: the previous hidden row times the transposed hidden gate matrix, plus
    its bias row. -/
theorem pay4_apply (v12 : Vec Ideal S1x1024 .f32) (v18 : Vec Ideal S3072x1024 .f32) (v27 : Vec Ideal S1x3072 .f32) (j : S1x3072.Idx) :
    k2_pay4 v12 v18 v27 j = Cert.Spec.affineT (n := 3072) (k := 1024) v12 v18 v27 j := by
  unfold k2_pay4 k2_pay2 Cert.Spec.affineT
  dsimp only
  simp only [shapeCast_self]
  rw [addf_apply, matmul2b_apply]
  refine congrArg (· + v27 j) (Finset.sum_congr rfl fun k _ => ?_)
  rw [transpose2b_apply]
  rfl

/-- The input-side gate pre-activations: relu of the combined row times the transposed input gate matrix, plus its
    bias row; the combined row is the concatenated row times the transposed combine matrix, plus its bias row. -/
theorem gru_pay3_apply (v0 : Vec Ideal S1x2048 .f32) (v3 : Vec Ideal S1024x2048 .f32) (v7 : Vec Ideal S1x1024 .f32)
    (v16 : Vec Ideal S3072x1024 .f32) (v22 : Vec Ideal S1x3072 .f32) (j : S1x3072.Idx) :
    k2_pay3 v0 v3 v7 v16 v22 j = Cert.Spec.affineT (n := 3072) (k := 1024) (Cert.Spec.combined v0 v3 v7) v16 v22 j := by
  unfold k2_pay3 Cert.Spec.affineT
  dsimp only
  simp only [shapeCast_self]
  rw [addf_apply, matmul2b_apply]
  refine congrArg (· + v22 j) (Finset.sum_congr rfl fun k _ => ?_)
  rw [transpose2b_apply, truncf_apply, maximumf_apply, addf_apply, matmul2a_apply, broadcast_apply]
  unfold Cert.Spec.combined Cert.Spec.affineT
  refine congrArg₂ HMul.hMul (congrArg₂ max (congrArg₂ HAdd.hAdd (Finset.sum_congr rfl fun q _ => ?_) rfl) rfl) rfl
  rw [transpose2a_apply]
  rfl

/-- The stored row at column `j`: one step of the recurrent cell on relu of the combined row. -/
theorem gru_pay1_apply (v0 : Vec Ideal S1x2048 .f32) (v12 : Vec Ideal S1x1024 .f32) (v3 : Vec Ideal S1024x2048 .f32) (v7 : Vec Ideal S1x1024 .f32)
    (v16 : Vec Ideal S3072x1024 .f32) (v18 : Vec Ideal S3072x1024 .f32) (v22 : Vec Ideal S1x3072 .f32) (v27 : Vec Ideal S1x3072 .f32) (j : S1x1024.Idx) :
    k2_pay1 (k2_pay2 v12) (k2_pay4 v12 v18 v27) (k2_pay5 v0 v3 v7 v12 v16 v18 v22 v27) (k2_pay6 v0 v3 v7 v12 v16 v18 v22 v27)
        (k2_pay7 v0 v3 v7 v16 v22) j
      = Cert.Spec.hiddenNew v0 v12 v3 v7 v16 v18 v22 v27 j := by
  have e3 : k2_pay3 v0 v3 v7 v16 v22 = Cert.Spec.affineT (n := 3072) (k := 1024) (Cert.Spec.combined v0 v3 v7) v16 v22 :=
    funext (gru_pay3_apply v0 v3 v7 v16 v22)
  have e4 : k2_pay4 v12 v18 v27 = Cert.Spec.affineT (n := 3072) (k := 1024) v12 v18 v27 := funext (pay4_apply v12 v18 v27)
  unfold k2_pay1 k2_pay5 k2_pay6 k2_pay7 k2_pay2
  dsimp only
  rw [e3, e4]
  unfold Cert.Spec.hiddenNew Cert.Spec.gruStep
  dsimp only
  simp only [shapeCast_self]
  rw [addf_apply, mulf_apply, mulf_apply, subf_apply, broadcast_apply, tanh2_apply, addf_apply, mulf_apply, logistic2_apply, logistic2_apply, addf_apply, addf_apply]
  simp only [slice2_apply 0 (by omega), slice2_apply 1024 (by omega), slice2_apply 2048 (by omega)]
  rfl

/-! ## From the block to the row -/

variable (V : (c : Dev nD) → (b : Ref sig .tc) → Buf (Elt Ideal) ((c : Thread nD τ).loc b))

theorem zero_off2 : (![0, 0] : Fin 2 → Nat) = fun _ => 0 := funext fun a => by fin_cases a <;> rfl

/-- Every window's block index at the one point is (0, 0): each block is its whole array. -/
theorem idx2_0 : ∀ t : Fin cfg2.N, win2_0.index t (0 : Fin 2) = 0 ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)

/-- So an input window's block, read off its array, is the array. -/
theorem iblk2_0 (c : Dev nD) (t : Fin cfg2.N) : iblk2 V c 0 t = V c main_v18 := by
  obtain ⟨e0, e1⟩ := idx2_0 t
  funext y
  show V c main_v18 (((cfg2.win 0).blk t).view.emb y) = V c main_v18 y
  refine congrArg _ (funext fun a => Fin.ext ?_)
  match a with
  | ⟨0, _⟩ => show win2_0.index t (0 : Fin 2) * 1 + 1 * (y 0).val = (y 0).val; omega
  | ⟨1, _⟩ => show win2_0.index t (1 : Fin 2) * 2048 + 1 * (y 1).val = (y 1).val; omega
theorem iblk2_1 (c : Dev nD) (t : Fin cfg2.N) : iblk2 V c 1 t = V c main_v1 := by
  obtain ⟨e0, e1⟩ := idx2_1 t
  funext y
  show V c main_v1 (((cfg2.win 1).blk t).view.emb y) = V c main_v1 y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 1024 + 1 * (y 1).val = (y 1).val; omega
theorem iblk2_2 (c : Dev nD) (t : Fin cfg2.N) : iblk2 V c 2 t = V c main_arg6 := by
  obtain ⟨e0, e1⟩ := idx2_2 t
  funext y
  show V c main_arg6 (((cfg2.win 2).blk t).view.emb y) = V c main_arg6 y
  refine congrArg _ (funext fun a => Fin.ext ?_)
  match a with
  | ⟨0, _⟩ => show win2_2.index t (0 : Fin 2) * 1024 + 1 * (y 0).val = (y 0).val; omega
  | ⟨1, _⟩ => show win2_2.index t (1 : Fin 2) * 2048 + 1 * (y 1).val = (y 1).val; omega
theorem iblk2_3 (c : Dev nD) (t : Fin cfg2.N) : iblk2 V c 3 t = V c main_v19 := by
  obtain ⟨e0, e1⟩ := idx2_3 t
  funext y
  show V c main_v19 (((cfg2.win 3).blk t).view.emb y) = V c main_v19 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 1024 + 1 * (y 1).val = (y 1).val; omega
theorem iblk2_4 (c : Dev nD) (t : Fin cfg2.N) : iblk2 V c 4 t = V c main_arg8 := by
  obtain ⟨e0, e1⟩ := idx2_4 t
  funext y
  show V c main_arg8 (((cfg2.win 4).blk t).view.emb y) = V c main_arg8 y
  refine congrArg _ (funext fun a => Fin.ext ?_)
  match a with
  | ⟨0, _⟩ => show win2_4.index t (0 : Fin 2) * 3072 + 1 * (y 0).val = (y 0).val; omega
  | ⟨1, _⟩ => show win2_4.index t (1 : Fin 2) * 1024 + 1 * (y 1).val = (y 1).val; omega
theorem iblk2_5 (c : Dev nD) (t : Fin cfg2.N) : iblk2 V c 5 t = V c main_arg9 := by
  obtain ⟨e0, e1⟩ := idx2_5 t
  funext y
  show V c main_arg9 (((cfg2.win 5).blk t).view.emb y) = V c main_arg9 y
  refine congrArg _ (funext fun a => Fin.ext ?_)
  match a with
  | ⟨0, _⟩ => show win2_5.index t (0 : Fin 2) * 3072 + 1 * (y 0).val = (y 0).val; omega
  | ⟨1, _⟩ => show win2_5.index t (1 : Fin 2) * 1024 + 1 * (y 1).val = (y 1).val; omega
theorem iblk2_6 (c : Dev nD) (t : Fin cfg2.N) : iblk2 V c 6 t = V c main_v20 := by
  obtain ⟨e0, e1⟩ := idx2_6 t
  funext y
  show V c main_v20 (((cfg2.win 6).blk t).view.emb y) = V c main_v20 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 3072 + 1 * (y 1).val = (y 1).val; omega
theorem iblk2_7 (c : Dev nD) (t : Fin cfg2.N) : iblk2 V c 7 t = V c main_v21 := by
  obtain ⟨e0, e1⟩ := idx2_7 t
  funext y
  show V c main_v21 (((cfg2.win 7).blk t).view.emb y) = V c main_v21 y
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 3072 + 1 * (y 1).val = (y 1).val; omega

/-- What the point writes back is its block, the whole row, of the recurrent step of the arrays as the region
    finds them. -/
theorem flushed2_eq (c : Dev nD) (t : Fin cfg2.N) :
    (dat2 V c).flushed 8 t = ((cfg2.win 8).blk t).view.read (Elt Ideal)
      (Cert.Spec.hiddenNew (V c main_v18) (V c main_v1) (V c main_arg6) (V c main_v19) (V c main_arg8) (V c main_arg9) (V c main_v20) (V c main_v21)) := by
  show (cfg2.win 8).cut (grid2.coords t) ((dat2 V c).after 8 t) = _
  rw [after2_8]
  unfold out2_8
  rw [View.canon_unit_zero zero_off2]
  simp only [View.ld_unit_zero (S := S1x2048) zero_off2, View.ld_unit_zero (S := S1x1024) zero_off2, View.ld_unit_zero (S := S1024x2048) zero_off2,
    View.ld_unit_zero (S := S3072x1024) zero_off2, View.ld_unit_zero (S := S1x3072) zero_off2]
  rw [iblk2_0 V c t, iblk2_1 V c t, iblk2_2 V c t, iblk2_3 V c t, iblk2_4 V c t, iblk2_5 V c t, iblk2_6 V c t, iblk2_7 V c t]
  obtain ⟨e0, e1⟩ := idx2_8 t
  funext y
  show k2_pay1 (k2_pay2 (V c main_v1)) (k2_pay4 (V c main_v1) (V c main_arg9) (V c main_v21))
      (k2_pay5 (V c main_v18) (V c main_arg6) (V c main_v19) (V c main_v1) (V c main_arg8) (V c main_arg9) (V c main_v20) (V c main_v21))
      (k2_pay6 (V c main_v18) (V c main_arg6) (V c main_v19) (V c main_v1) (V c main_arg8) (V c main_arg9) (V c main_v20) (V c main_v21))
      (k2_pay7 (V c main_v18) (V c main_arg6) (V c main_v19) (V c main_arg8) (V c main_v20)) y
    = Cert.Spec.hiddenNew (V c main_v18) (V c main_v1) (V c main_arg6) (V c main_v19) (V c main_arg8) (V c main_arg9) (V c main_v20) (V c main_v21)
        (((cfg2.win 8).blk t).view.emb y)
  rw [gru_pay1_apply]
  refine congrArg _ (funext fun a => Fin.ext ?_)
  match a with
  | ⟨0, _⟩ => show (y 0).val = win2_8.index t (0 : Fin 2) * 1 + 1 * (y 0).val; omega
  | ⟨1, _⟩ => show (y 1).val = win2_8.index t (1 : Fin 2) * 1024 + 1 * (y 1).val; omega

/-- An index of the output row is in the point's block iff each coordinate is in the block's range on its axis. -/
theorem mem_blk2 (t : Fin cfg2.N) (i : S1x1024.Idx) :
    i ∈ ((cfg2.win 8).blk t).view.set ↔ ∀ a : Fin 2, win2_8.index t a * S1x1024.size a ≤ (i a).val ∧ (i a).val < win2_8.index t a * S1x1024.size a + S1x1024.size a := by
  show i ∈ ((View.whole main_v22).slice (win2_8.rect t)).set ↔ _
  rw [View.set_slice_whole, Rect.mem_set_unit]
  exact Iff.rfl

/-- The one block is the whole row. -/
theorem cover2 (i : S1x1024.Idx) : ∃ t : Fin cfg2.N, (cfg2.win 8).flush t = true ∧ i ∈ ((cfg2.win 8).blk t).view.set := by
  have hi0 : (i 0).val < 1 := idx2_lt0 i
  have hi1 : (i 1).val < 1024 := idx2_lt1 i
  obtain ⟨e0, e1⟩ := idx2_8 t2_0
  refine ⟨t2_0, flush2_8 t2_0, ?_⟩
  rw [mem_blk2]
  intro a
  match a with
  | ⟨0, _⟩ => show win2_8.index t2_0 (0 : Fin 2) * 1 ≤ (i 0).val ∧ (i 0).val < win2_8.index t2_0 (0 : Fin 2) * 1 + 1; omega
  | ⟨1, _⟩ => show win2_8.index t2_0 (1 : Fin 2) * 1024 ≤ (i 1).val ∧ (i 1).val < win2_8.index t2_0 (1 : Fin 2) * 1024 + 1024; omega

/-- The output row after the region is the recurrent step on relu of the combined row, of the arrays as the region
    finds them. -/
theorem val2 (c : Dev nD) : (dat2 V c).arrAt 8 cfg2.N
    = Cert.Spec.hiddenNew (V c main_v18) (V c main_v1) (V c main_arg6) (V c main_v19) (V c main_arg8) (V c main_arg9) (V c main_v20) (V c main_v21) :=
  (dat2 V c).arrAt_eq_of_cover 8 _ (fun t _ => flushed2_eq V c t) cover2

end Cert.KernelIdeal.Hand

end
-- ==== Proof.KI.Val3.lean ====
/-
  Region 3's output array, read at the extended reals.  Each of the 25 grid points stores, into its 1 x 2048 block of
  the output row, the hidden row times the transpose of its 2048 x 1024 block of the weight matrix, plus its block of
  the bias row; the format changes in between are the identity here.  The last block overhangs the 50257 columns: its
  transfers are cut at the arrays' ends, so the staging buffers of the matrix and the bias hold the arrays' blocks only
  on the part inside the arrays, and only the columns inside the output row are written back.  A column inside the row
  reads only a matrix row and a bias entry inside their arrays, so what lies past the ends never shows: after the
  region the row holds hidden * weightsᵀ + bias, at column j the sum over k of hidden[k] * weight[j, k], plus bias[j].
-/
import proofs.«423497_j70342974374383_1_alg».proof.Proof.KI.Reg3
import proofs.«423497_j70342974374383_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## The body's product at an index -/

/-- The product's dimension numbers: the left operand's row is the result's, its column the contraction index; -/
theorem lhs3_0 (i : S1x2048.Idx) (q : dot_S1x1024_S1024x2048_S1x2048_1_0_0_1_n_n.contr.Idx) :
    (dot_S1x1024_S1024x2048_S1x2048_1_0_0_1_n_n.lhsIdx i q 0).val = (i 0).val := by
  unfold DotDims.lhsIdx
  rw [dif_neg (show ¬(0 : Fin S1x1024.rank) ∈ dot_S1x1024_S1024x2048_S1x2048_1_0_0_1_n_n.lhsBatch by decide), dif_pos (show (0 : Fin S1x1024.rank) ∈ dot_S1x1024_S1024x2048_S1x2048_1_0_0_1_n_n.lhsNonContracting by decide)]
  rfl
theorem lhs3_1 (i : S1x2048.Idx) (q : dot_S1x1024_S1024x2048_S1x2048_1_0_0_1_n_n.contr.Idx) :
    (dot_S1x1024_S1024x2048_S1x2048_1_0_0_1_n_n.lhsIdx i q 1).val = (q ⟨0, by decide⟩).val :=
  dot_S1x1024_S1024x2048_S1x2048_1_0_0_1_n_n.lhsIdx_val_of_single rfl i q
/-- the right operand's row is the contraction index, its column the result's. -/
theorem rhs3_0 (i : S1x2048.Idx) (q : dot_S1x1024_S1024x2048_S1x2048_1_0_0_1_n_n.contr.Idx) :
    (dot_S1x1024_S1024x2048_S1x2048_1_0_0_1_n_n.rhsIdx i q 0).val = (q ⟨0, by decide⟩).val :=
  dot_S1x1024_S1024x2048_S1x2048_1_0_0_1_n_n.rhsIdx_val_of_single rfl i q
theorem rhs3_1 (i : S1x2048.Idx) (q : dot_S1x1024_S1024x2048_S1x2048_1_0_0_1_n_n.contr.Idx) :
    (dot_S1x1024_S1024x2048_S1x2048_1_0_0_1_n_n.rhsIdx i q 1).val = (i 1).val := by
  unfold DotDims.rhsIdx
  rw [dif_neg (show ¬(1 : Fin S1024x2048.rank) ∈ dot_S1x1024_S1024x2048_S1x2048_1_0_0_1_n_n.rhsBatch by decide), dif_pos (show (1 : Fin S1024x2048.rank) ∈ dot_S1x1024_S1024x2048_S1x2048_1_0_0_1_n_n.rhsNonContracting by decide)]
  rfl

/-- The product into the zero row, at column `j`: the sum over the contraction index `k` of the left operand at
    `(0, k)` times the right at `(k, j)`. -/
theorem matmul3_apply (l : FVec Ideal S1x1024 .bf16) (r : FVec Ideal S1024x2048 .bf16) (j : S1x2048.Idx) :
    matmul dot_S1x1024_S1024x2048_S1x2048_1_0_0_1_n_n none l r (constant (F := Ideal) S1x2048 .f32 0x00000000#32) j
      = ∑ k : Fin 1024, l (ix2 (0 : Fin 1) k) * r (ix2 k (⟨(j 1).val, idx2_lt1 j⟩ : Fin 2048)) := by
  show FloatOps.matmul dot_S1x1024_S1024x2048_S1x2048_1_0_0_1_n_n none l r (constant (F := Ideal) S1x2048 .f32 0x00000000#32) j = _
  rw [Ideal.matmul_constant_zero_apply, ← Equiv.sum_comp (contrEquiv1 dot_S1x1024_S1024x2048_S1x2048_1_0_0_1_n_n 1024 rfl rfl).symm]
  refine Finset.sum_congr rfl fun k _ => ?_
  have hk := contrEquiv1_symm_val dot_S1x1024_S1024x2048_S1x2048_1_0_0_1_n_n 1024 rfl rfl k
  have h0 : (j 0).val = 0 := by have := idx2_lt0 j; omega
  have el : dot_S1x1024_S1024x2048_S1x2048_1_0_0_1_n_n.lhsIdx j ((contrEquiv1 dot_S1x1024_S1024x2048_S1x2048_1_0_0_1_n_n 1024 rfl rfl).symm k) = ix2 (0 : Fin 1) k := funext fun a => Fin.ext (by
    match a with
    | ⟨0, _⟩ => exact (lhs3_0 _ _).trans h0
    | ⟨1, _⟩ => exact (lhs3_1 _ _).trans hk)
  have er : dot_S1x1024_S1024x2048_S1x2048_1_0_0_1_n_n.rhsIdx j ((contrEquiv1 dot_S1x1024_S1024x2048_S1x2048_1_0_0_1_n_n 1024 rfl rfl).symm k) = ix2 k (⟨(j 1).val, idx2_lt1 j⟩ : Fin 2048) := funext fun a => Fin.ext (by
    match a with
    | ⟨0, _⟩ => exact (rhs3_0 _ _).trans hk
    | ⟨1, _⟩ => exact rhs3_1 _ _)
  rw [el, er]

/-- The transposed weight block at `(k, r)` is the block at `(r, k)`. -/
theorem transpose3_apply (x : FVec Ideal S2048x1024 .bf16) (k : Fin 1024) (r : Fin 2048) :
    transpose S1024x2048 [1, 0] x transposes_S2048x1024_p1_0_S1024x2048 (ix2 k r) = x (ix2 r k) :=
  transpose_apply [1, 0] x transposes_S2048x1024_p1_0_S1024x2048 (ix2 k r) (ix2 r k) (fun b => match b with
    | ⟨0, _⟩ => rfl
    | ⟨1, _⟩ => rfl)

/-- The body's stored row at column `j`: the inner product of the hidden row with row `j` of the weight block, plus
    the bias block there. -/
theorem pay3_apply (x0 : Vec Ideal S1x1024 .f32) (x1 : Vec Ideal S2048x1024 .f32) (x2 : Vec Ideal S1x2048 .f32) (j : S1x2048.Idx) :
    k3_pay1 x0 x1 x2 j = (∑ k : Fin 1024, x0 (ix2 (0 : Fin 1) k) * x1 (ix2 (⟨(j 1).val, idx2_lt1 j⟩ : Fin 2048) k)) + x2 j := by
  unfold k3_pay1
  dsimp only
  rw [addf_apply, matmul3_apply, shapeCast_self, shapeCast_self]
  refine congrArg (· + x2 j) (Finset.sum_congr rfl fun k _ => ?_)
  rw [transpose3_apply]
  rfl

/-- The same against whole arrays: if the hidden buffer is the hidden row and, for `i` a column of the output row,
    the weight buffer's row `y` is the weights' row `i` and the bias buffer at `y` the bias at `i`, then the stored row
    at `y` is hidden * weightsᵀ + bias at `i`. -/
theorem pay3_eq_affineT (q : (Cert.Spec.Row 1024).Idx → EReal) (W : (Cert.Spec.Mat 50257 1024).Idx → EReal) (b : (Cert.Spec.Row 50257).Idx → EReal)
    (x0 : Vec Ideal S1x1024 .f32) (x1 : Vec Ideal S2048x1024 .f32) (x2 : Vec Ideal S1x2048 .f32) (y : S1x2048.Idx) (i : (Cert.Spec.Row 50257).Idx)
    (h0 : ∀ k : Fin 1024, x0 (ix2 (0 : Fin 1) k) = q (ix2 (0 : Fin 1) k))
    (h1 : ∀ k : Fin 1024, x1 (ix2 (⟨(y 1).val, idx2_lt1 y⟩ : Fin 2048) k) = W (ix2 (Cert.Spec.col i) k))
    (h2 : x2 y = b i) :
    k3_pay1 x0 x1 x2 y = Cert.Spec.affineT q W b i := by
  rw [pay3_apply]
  unfold Cert.Spec.affineT
  rw [h2]
  refine congrArg (· + b i) (Finset.sum_congr rfl fun k _ => ?_)
  rw [h0 k, h1 k]

/-! ## From the blocks to the row -/

variable (V : (c : Dev nD) → (b : Ref sig .tc) → Buf (Elt Ideal) ((c : Thread nD τ).loc b))

theorem zero_off3 : (![0, 0] : Fin 2 → Nat) = fun _ => 0 := funext fun a => by fin_cases a <;> rfl

/-- The block index maps over the 25 points: the hidden row's block never moves; the weight block's row index, the
    bias block's column index and the output block's column index are one number, at most 24; every other index is 0. -/
theorem idx_facts3 : ∀ t : Fin cfg3.N,
    win3_0.index t (0 : Fin 2) = 0 ∧ win3_0.index t (1 : Fin 2) = 0
    ∧ win3_1.index t (0 : Fin 2) = win3_3.index t (1 : Fin 2) ∧ win3_1.index t (1 : Fin 2) = 0
    ∧ win3_2.index t (0 : Fin 2) = 0 ∧ win3_2.index t (1 : Fin 2) = win3_3.index t (1 : Fin 2)
    ∧ win3_3.index t (0 : Fin 2) = 0 ∧ win3_3.index t (1 : Fin 2) ≤ 24 :=
  (by decide +kernel : ∀ t : Fin grid3.N, _)

/-- The cuts over the 25 points: the weight block keeps as many rows as the output block keeps columns, and all its
    columns; the bias block is cut as the output block is; and the output block's columns inside the row end at the
    block's end or at column 50257, whichever comes first. -/
theorem cut_facts3 : ∀ t : Fin cfg3.N,
    win3_1.xsize (grid3.coords t) (0 : Fin 2) = win3_3.xsize (grid3.coords t) (1 : Fin 2)
    ∧ win3_1.xsize (grid3.coords t) (1 : Fin 2) = 1024
    ∧ win3_2.xsize (grid3.coords t) (0 : Fin 2) = 1
    ∧ win3_2.xsize (grid3.coords t) (1 : Fin 2) = win3_3.xsize (grid3.coords t) (1 : Fin 2)
    ∧ win3_3.xsize (grid3.coords t) (0 : Fin 2) = 1
    ∧ win3_3.index t (1 : Fin 2) * 2048 + win3_3.xsize (grid3.coords t) (1 : Fin 2) = min ((win3_3.index t (1 : Fin 2) + 1) * 2048) 50257 :=
  (by decide +kernel : ∀ t : Fin grid3.N, _)

/-- Each of the 25 column blocks of the output row is some point's. -/
theorem idx_onto3 : ∀ p : Fin 25, ∃ t : Fin cfg3.N, win3_3.index t = ![0, p.val] :=
  (by decide +kernel : ∀ p : Fin 25, ∃ t : Fin grid3.N, win3_3.index t = ![0, p.val])

/-- A staging buffer filled on the part a cut transfer moves, read at an index of that part, is what it was filled
    with there. -/
theorem fill_of_moved {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

/-- What point `t` writes back is block `t`, cut at the row's end, of hidden * weightsᵀ + bias of the arrays as the
    region finds them: a column the write-back moves is inside the row, so its matrix row and bias entry are inside
    their arrays, where the staging buffers hold the arrays' blocks. -/
theorem flushed3_eq (c : Dev nD) (t : Fin cfg3.N) :
    (dat3 V c).flushed 3 t = ((cfg3.win 3).blk t).view.read (Elt Ideal) (Cert.Spec.affineT (n := 50257) (k := 1024) (V c main_v22) (V c main_arg12) (V c main_v23)) := by
  show (cfg3.win 3).cut (grid3.coords t) ((dat3 V c).after 3 t) = _
  rw [after3_3]
  unfold out3_3
  rw [View.canon_unit_zero zero_off3]
  simp only [View.ld_unit_zero (S := S1x1024) zero_off3, View.ld_unit_zero (S := S2048x1024) zero_off3, View.ld_unit_zero (S := S1x2048) zero_off3]
  obtain ⟨e0, e1, e2, e3, e4, e5, e6, e7⟩ := idx_facts3 t
  obtain ⟨c0, c1, c2, c3, c4, c5⟩ := cut_facts3 t
  funext y
  have hy0 : (y 0).val < win3_3.xsize (grid3.coords t) (0 : Fin 2) := (y 0).isLt
  have hy1 : (y 1).val < win3_3.xsize (grid3.coords t) (1 : Fin 2) := (y 1).isLt
  have hy1' : (y 1).val < 2048 := by omega
  show k3_pay1 (iblk3 V c 0 t) (fblk3 V c 1 t) (fblk3 V c 2 t) (win3_3.xinj (grid3.coords t) y)
    = Cert.Spec.affineT (n := 50257) (k := 1024) (V c main_v22) (V c main_arg12) (V c main_v23) (((cfg3.win 3).blk t).view.emb y)
  refine pay3_eq_affineT _ _ _ _ _ _ (win3_3.xinj (grid3.coords t) y) _ ?_ ?_ ?_
  · intro k
    show V c main_v22 (((cfg3.win 0).blk t).view.emb (ix2 (0 : Fin 1) k)) = V c main_v22 (ix2 (0 : Fin 1) k)
    refine congrArg _ (funext fun a => Fin.ext ?_)
    match a with
    | ⟨0, _⟩ => show win3_0.index t (0 : Fin 2) * 1 + 1 * 0 = 0; omega
    | ⟨1, _⟩ => show win3_0.index t (1 : Fin 2) * 1024 + 1 * k.val = k.val; omega
  · intro k
    show fblk3 V c 1 t (ix2 (⟨(y 1).val, hy1'⟩ : Fin 2048) k) = _
    have hm : ∀ a : Fin 2, ((ix2 (⟨(y 1).val, hy1'⟩ : Fin 2048) k : S2048x1024.Idx) a).val < win3_1.xsize (grid3.coords t) a := fun a =>
      match a with
      | ⟨0, _⟩ => (show (y 1).val < win3_1.xsize (grid3.coords t) (0 : Fin 2) by omega)
      | ⟨1, _⟩ => (show k.val < win3_1.xsize (grid3.coords t) (1 : Fin 2) by have := k.isLt; omega)
    unfold fblk3
    refine (fill_of_moved win3_1 (grid3.coords t) _ _ _ hm).trans ?_
    show V c main_arg12 (((cfg3.win 1).blk t).view.emb _) = V c main_arg12 _
    refine congrArg _ (funext fun a => Fin.ext ?_)
    match a with
    | ⟨0, _⟩ => show win3_1.index t (0 : Fin 2) * 2048 + 1 * (y 1).val = win3_3.index t (1 : Fin 2) * 2048 + 1 * (y 1).val; omega
    | ⟨1, _⟩ => show win3_1.index t (1 : Fin 2) * 1024 + 1 * k.val = k.val; omega
  · have hm : ∀ a : Fin 2, ((win3_3.xinj (grid3.coords t) y) a).val < win3_2.xsize (grid3.coords t) a := fun a =>
      match a with
      | ⟨0, _⟩ => (show (y 0).val < win3_2.xsize (grid3.coords t) (0 : Fin 2) by omega)
      | ⟨1, _⟩ => (show (y 1).val < win3_2.xsize (grid3.coords t) (1 : Fin 2) by omega)
    unfold fblk3
    refine (fill_of_moved win3_2 (grid3.coords t) _ _ _ hm).trans ?_
    show V c main_v23 (((cfg3.win 2).blk t).view.emb _) = V c main_v23 (((cfg3.win 3).blk t).view.emb y)
    refine congrArg _ (funext fun a => Fin.ext ?_)
    match a with
    | ⟨0, _⟩ => show win3_2.index t (0 : Fin 2) * 1 + 1 * (y 0).val = win3_3.index t (0 : Fin 2) * 1 + 1 * (y 0).val; omega
    | ⟨1, _⟩ => show win3_2.index t (1 : Fin 2) * 2048 + 1 * (y 1).val = win3_3.index t (1 : Fin 2) * 2048 + 1 * (y 1).val; omega

/-- An index of the output row is in point `t`'s block iff each coordinate is in the block's range, cut at the row's
    end, on its axis. -/
theorem mem_blk3 (t : Fin cfg3.N) (i : S1x50257.Idx) :
    i ∈ ((cfg3.win 3).blk t).view.set ↔ ∀ a : Fin 2, win3_3.index t a * S1x2048.size a ≤ (i a).val ∧ (i a).val < win3_3.index t a * S1x2048.size a + win3_3.xsize (grid3.coords t) a := by
  show i ∈ ((View.whole main_v24).slice (win3_3.rect t)).set ↔ _
  rw [View.set_slice_whole, Rect.mem_set_unit]
  exact Iff.rfl

/-- The 25 blocks, the last cut at column 50257, tile the row: column `j` is in the block of the point whose block
    index is `j / 2048`. -/
theorem cover3 (i : S1x50257.Idx) : ∃ t : Fin cfg3.N, (cfg3.win 3).flush t = true ∧ i ∈ ((cfg3.win 3).blk t).view.set := by
  have hi0 : (i 0).val < 1 := idx2_lt0 i
  have hi1 : (i 1).val < 50257 := idx2_lt1 i
  obtain ⟨t, ht⟩ := idx_onto3 ⟨(i 1).val / 2048, by omega⟩
  have q0 : win3_3.index t (0 : Fin 2) = 0 := congrFun ht 0
  have q1 : win3_3.index t (1 : Fin 2) = (i 1).val / 2048 := congrFun ht 1
  obtain ⟨c0, c1, c2, c3, c4, c5⟩ := cut_facts3 t
  refine ⟨t, flush3_3 t, ?_⟩
  rw [mem_blk3]
  intro a
  match a with
  | ⟨0, _⟩ => show win3_3.index t (0 : Fin 2) * 1 ≤ (i 0).val ∧ (i 0).val < win3_3.index t (0 : Fin 2) * 1 + win3_3.xsize (grid3.coords t) (0 : Fin 2); omega
  | ⟨1, _⟩ => show win3_3.index t (1 : Fin 2) * 2048 ≤ (i 1).val ∧ (i 1).val < win3_3.index t (1 : Fin 2) * 2048 + win3_3.xsize (grid3.coords t) (1 : Fin 2); omega

/-- The output row after the region is hidden * weightsᵀ + bias of the hidden row, the weight matrix and the bias row
    as the region finds them. -/
theorem val3 (c : Dev nD) : (dat3 V c).arrAt 3 cfg3.N = Cert.Spec.affineT (n := 50257) (k := 1024) (V c main_v22) (V c main_arg12) (V c main_v23) :=
  (dat3 V c).arrAt_eq_of_cover 3 _ (fun t _ => flushed3_eq V c t) cover3

end Cert.KernelIdeal.Hand

end
-- ==== Proof.RefSpec.lean ====
/-
  The reference's stages are the specification.  Four equations between stages of the reference program, read on
  the extended reals: the attention logits are x·Wᵀ + b of the query row; the applied attention is the attention
  weights times the encoder rows; the new hidden state is one GRU step on relu of the combined row; the output
  logits are x·Wᵀ + b of the new hidden state.  Each is read index by index: a contraction is the sum over the
  contracted axis, a transposed weight read at (k, j) is the weight at (j, k), a bias broadcast along the row is the
  bias at the column, a slice of the row of length 3072 at offset 0, 1024 or 2048 is a gate's third, and the float
  words 1.0 and 0.0 stay the words they are.
-/
import proofs.«423497_j70342974374383_1_alg».proof.Proof.RefRead
import proofs.«423497_j70342974374383_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefSpec

open Cert.ReferenceIdeal Cert.ReferenceIdeal.Gen Cert.ReferenceIdeal.Read Idealize.ShloMosaic
open Idealize.ShloMosaic.ValueIdx

variable (x0 : (⟨S1, .i32⟩ : BufTy).Contents (Elt Ideal)) (x1 : (⟨S1x1x1024, .f32⟩ : BufTy).Contents (Elt Ideal))
  (x2 : (⟨S1x2048x1024, .f32⟩ : BufTy).Contents (Elt Ideal)) (x3 : (⟨S50257x1024, .f32⟩ : BufTy).Contents (Elt Ideal))
  (x4 : (⟨S2048x2048, .f32⟩ : BufTy).Contents (Elt Ideal)) (x5 : (⟨S2048, .f32⟩ : BufTy).Contents (Elt Ideal))
  (x6 : (⟨S1024x2048, .f32⟩ : BufTy).Contents (Elt Ideal)) (x7 : (⟨S1024, .f32⟩ : BufTy).Contents (Elt Ideal))
  (x8 x9 : (⟨S3072x1024, .f32⟩ : BufTy).Contents (Elt Ideal)) (x10 x11 : (⟨S3072, .f32⟩ : BufTy).Contents (Elt Ideal))
  (x12 : (⟨S50257x1024, .f32⟩ : BufTy).Contents (Elt Ideal)) (x13 : (⟨S50257, .f32⟩ : BufTy).Contents (Elt Ideal))

/-! ### Index equations: the contraction's operand indices and the layout operations' source indices, as rows and matrices. -/

theorem lidx10_eq (i : S1x2048.Idx) (k : Fin 2048) : lidx_main_v10 i k = ix2 0 k :=
  funext fun a => Fin.ext (by match a with | ⟨0, _⟩ => exact Nat.lt_one_iff.mp (idx2_lt0 i) | ⟨1, _⟩ => rfl)
theorem ridx10_eq (i : S1x2048.Idx) (k : Fin 2048) : idx_main_v9 (ridx_main_v10 i k) = ix2 (Cert.Spec.col i) k :=
  funext fun a => Fin.ext (by match a with | ⟨0, _⟩ => rfl | ⟨1, _⟩ => rfl)
theorem lidx25_eq (i : S1x1024.Idx) (k : Fin 2048) : lidx_main_v25 i k = ix2 0 k :=
  funext fun a => Fin.ext (by match a with | ⟨0, _⟩ => exact Nat.lt_one_iff.mp (idx2_lt0 i) | ⟨1, _⟩ => rfl)
theorem ridx25_eq (i : S1x1024.Idx) (k : Fin 2048) : ridx_main_v25 i k = ix2 k (Cert.Spec.col i) :=
  funext fun a => Fin.ext (by match a with | ⟨0, _⟩ => rfl | ⟨1, _⟩ => rfl)
theorem lidx69_eq (i : S1x50257.Idx) (k : Fin 1024) : lidx_main_v69 i k = ix2 0 k :=
  funext fun a => Fin.ext (by match a with | ⟨0, _⟩ => exact Nat.lt_one_iff.mp (idx2_lt0 i) | ⟨1, _⟩ => rfl)
theorem ridx69_eq (i : S1x50257.Idx) (k : Fin 1024) : idx_main_v68 (ridx_main_v69 i k) = ix2 (Cert.Spec.col i) k :=
  funext fun a => Fin.ext (by match a with | ⟨0, _⟩ => rfl | ⟨1, _⟩ => rfl)

/-- The attention logits: stage 12 is (stage 8)·attn_Wᵀ + attn_b. -/
theorem attn_logits :
    val_main_v12 (F := Ideal) x0 x1 x3 x4 x5
      = Cert.Spec.affineT (n := 2048) (k := 2048) (val_main_v8 (F := Ideal) x0 x1 x3) x4 (val_main_v11 (F := Ideal) x5) := by
  funext i
  rw [val_main_v12_apply, val_main_v10_apply]
  simp only [val_main_v9_apply, lidx10_eq, ridx10_eq, Ideal.addf_def, Cert.Spec.affineT]

/-- The applied attention: stage 25 is (stage 23)·(the encoder rows). -/
theorem attn_applied :
    val_main_v25 (F := Ideal) x0 x1 x2 x3 x4 x5
      = Cert.Spec.vecMat (k := 2048) (n := 1024) (val_main_v23 (F := Ideal) x0 x1 x3 x4 x5) (val_main_v24 (F := Ideal) x2) := by
  funext i
  rw [val_main_v25_apply]
  simp only [lidx25_eq, ridx25_eq, Cert.Spec.vecMat]

/-! ### The GRU step, stage by stage. -/

theorem lidx28_eq (i : S1x1024.Idx) (k : Fin 2048) : lidx_main_v28 i k = ix2 0 k :=
  funext fun a => Fin.ext (by match a with | ⟨0, _⟩ => exact Nat.lt_one_iff.mp (idx2_lt0 i) | ⟨1, _⟩ => rfl)
theorem ridx28_eq (i : S1x1024.Idx) (k : Fin 2048) : idx_main_v27 (ridx_main_v28 i k) = ix2 (Cert.Spec.col i) k :=
  funext fun a => Fin.ext (by match a with | ⟨0, _⟩ => rfl | ⟨1, _⟩ => rfl)
theorem lidx33_eq (i : S1x3072.Idx) (k : Fin 1024) : lidx_main_v33 i k = ix2 0 k :=
  funext fun a => Fin.ext (by match a with | ⟨0, _⟩ => exact Nat.lt_one_iff.mp (idx2_lt0 i) | ⟨1, _⟩ => rfl)
theorem ridx33_eq (i : S1x3072.Idx) (k : Fin 1024) : idx_main_v32 (ridx_main_v33 i k) = ix2 (Cert.Spec.col i) k :=
  funext fun a => Fin.ext (by match a with | ⟨0, _⟩ => rfl | ⟨1, _⟩ => rfl)
theorem lidx37_eq (i : S1x3072.Idx) (k : Fin 1024) : lidx_main_v37 i k = ix2 0 k :=
  funext fun a => Fin.ext (by match a with | ⟨0, _⟩ => exact Nat.lt_one_iff.mp (idx2_lt0 i) | ⟨1, _⟩ => rfl)
theorem ridx37_eq (i : S1x3072.Idx) (k : Fin 1024) : idx_main_v36 (ridx_main_v37 i k) = ix2 (Cert.Spec.col i) k :=
  funext fun a => Fin.ext (by match a with | ⟨0, _⟩ => rfl | ⟨1, _⟩ => rfl)

/-- relu of the combined row: stage 31 is max ((stage 26)·comb_Wᵀ + comb_b, 0). -/
theorem combined_row :
    val_main_v31 (F := Ideal) x0 x1 x2 x3 x4 x5 x6 x7
      = Cert.Spec.combined (val_main_v26 (F := Ideal) x0 x1 x2 x3 x4 x5) x6 (val_main_v29 (F := Ideal) x7) := by
  funext i
  rw [val_main_v31_apply, val_main_v30_apply, val_main_v28_apply, val_main_call0_v0_apply, val_main_call0_cst_apply]
  simp only [val_main_v27_apply, lidx28_eq, ridx28_eq, Ideal.addf_def, Ideal.maximumf_def, Ideal.ofBits_def,
    Cert.Spec.combined, Cert.Spec.affineT]

/-- The input half of the gates: stage 35 is (stage 31)·W_ihᵀ + b_ih. -/
theorem gx_row :
    val_main_v35 (F := Ideal) x0 x1 x2 x3 x4 x5 x6 x7 x8 x10
      = Cert.Spec.affineT (n := 3072) (k := 1024) (val_main_v31 (F := Ideal) x0 x1 x2 x3 x4 x5 x6 x7) x8
          (val_main_v34 (F := Ideal) x10) := by
  funext i
  rw [val_main_v35_apply, val_main_v33_apply]
  simp only [val_main_v32_apply, lidx33_eq, ridx33_eq, Ideal.addf_def, Cert.Spec.affineT]

/-- The hidden half of the gates: stage 39 is h·W_hhᵀ + b_hh. -/
theorem gh_row :
    val_main_v39 (F := Ideal) x1 x9 x11
      = Cert.Spec.affineT (n := 3072) (k := 1024) (val_main_v7 (F := Ideal) x1) x9 (val_main_v38 (F := Ideal) x11) := by
  funext i
  rw [val_main_v39_apply, val_main_v37_apply]
  simp only [val_main_v36_apply, lidx37_eq, ridx37_eq, Ideal.addf_def, Cert.Spec.affineT]

/-! The six slices of the two rows of length 3072: a slice at offset `off` reads column `j + off`. -/

theorem idx40_eq (i : S1x1024.Idx) :
    idx_main_v40 i = ix2 (n0 := 1) (n1 := 3072) 0 ⟨(Cert.Spec.col i).val + 0, by have := (Cert.Spec.col i).isLt; omega⟩ :=
  funext fun a => Fin.ext (by match a with | ⟨0, _⟩ => exact Nat.lt_one_iff.mp (idx2_lt0 i) | ⟨1, _⟩ => exact rfl)
theorem idx41_eq (i : S1x1024.Idx) :
    idx_main_v41 i = ix2 (n0 := 1) (n1 := 3072) 0 ⟨(Cert.Spec.col i).val + 0, by have := (Cert.Spec.col i).isLt; omega⟩ :=
  funext fun a => Fin.ext (by match a with | ⟨0, _⟩ => exact Nat.lt_one_iff.mp (idx2_lt0 i) | ⟨1, _⟩ => exact rfl)
theorem idx49_eq (i : S1x1024.Idx) :
    idx_main_v49 i = ix2 (n0 := 1) (n1 := 3072) 0 ⟨(Cert.Spec.col i).val + 1024, by have := (Cert.Spec.col i).isLt; omega⟩ :=
  funext fun a => Fin.ext (by match a with | ⟨0, _⟩ => exact Nat.lt_one_iff.mp (idx2_lt0 i) | ⟨1, _⟩ => exact Nat.add_comm _ _)
theorem idx50_eq (i : S1x1024.Idx) :
    idx_main_v50 i = ix2 (n0 := 1) (n1 := 3072) 0 ⟨(Cert.Spec.col i).val + 1024, by have := (Cert.Spec.col i).isLt; omega⟩ :=
  funext fun a => Fin.ext (by match a with | ⟨0, _⟩ => exact Nat.lt_one_iff.mp (idx2_lt0 i) | ⟨1, _⟩ => exact Nat.add_comm _ _)
theorem idx58_eq (i : S1x1024.Idx) :
    idx_main_v58 i = ix2 (n0 := 1) (n1 := 3072) 0 ⟨(Cert.Spec.col i).val + 2048, by have := (Cert.Spec.col i).isLt; omega⟩ :=
  funext fun a => Fin.ext (by match a with | ⟨0, _⟩ => exact Nat.lt_one_iff.mp (idx2_lt0 i) | ⟨1, _⟩ => exact Nat.add_comm _ _)
theorem idx59_eq (i : S1x1024.Idx) :
    idx_main_v59 i = ix2 (n0 := 1) (n1 := 3072) 0 ⟨(Cert.Spec.col i).val + 2048, by have := (Cert.Spec.col i).isLt; omega⟩ :=
  funext fun a => Fin.ext (by match a with | ⟨0, _⟩ => exact Nat.lt_one_iff.mp (idx2_lt0 i) | ⟨1, _⟩ => exact Nat.add_comm _ _)

/-- The reset gate: stage 48 is the logistic function of the first thirds' sum. -/
theorem r_gate (i : S1x1024.Idx) :
    val_main_v48 (F := Ideal) x0 x1 x2 x3 x4 x5 x6 x7 x8 x9 x10 x11 i
      = Cert.Spec.sigm (Cert.Spec.gate 0 (by omega) (val_main_v35 (F := Ideal) x0 x1 x2 x3 x4 x5 x6 x7 x8 x10) i
          + Cert.Spec.gate 0 (by omega) (val_main_v39 (F := Ideal) x1 x9 x11) i) := by
  rw [val_main_v48_apply, val_main_v47_apply, val_main_cst_4_apply, val_main_v46_apply, val_main_v45_apply,
    val_main_cst_3_apply, val_main_v44_apply, val_main_v43_apply, val_main_v42_apply, val_main_v40_apply,
    val_main_v41_apply, idx40_eq, idx41_eq]
  simp only [Ideal.hostDivf_def, Ideal.addf_def, Ideal.hostUnary_exp_def, Ideal.hostNegf_def, Ideal.negf_def,
    Ideal.ofBits_def, Cert.Spec.sigm, Cert.Spec.gate]

/-- The update gate: stage 57 is the logistic function of the second thirds' sum. -/
theorem z_gate (i : S1x1024.Idx) :
    val_main_v57 (F := Ideal) x0 x1 x2 x3 x4 x5 x6 x7 x8 x9 x10 x11 i
      = Cert.Spec.sigm (Cert.Spec.gate 1024 (by omega) (val_main_v35 (F := Ideal) x0 x1 x2 x3 x4 x5 x6 x7 x8 x10) i
          + Cert.Spec.gate 1024 (by omega) (val_main_v39 (F := Ideal) x1 x9 x11) i) := by
  rw [val_main_v57_apply, val_main_v56_apply, val_main_cst_6_apply, val_main_v55_apply, val_main_v54_apply,
    val_main_cst_5_apply, val_main_v53_apply, val_main_v52_apply, val_main_v51_apply, val_main_v49_apply,
    val_main_v50_apply, idx49_eq, idx50_eq]
  simp only [Ideal.hostDivf_def, Ideal.addf_def, Ideal.hostUnary_exp_def, Ideal.hostNegf_def, Ideal.negf_def,
    Ideal.ofBits_def, Cert.Spec.sigm, Cert.Spec.gate]

/-- The candidate state: stage 62 is tanh of the input's last third plus the reset gate times the hidden's last third. -/
theorem n_gate (i : S1x1024.Idx) :
    val_main_v62 (F := Ideal) x0 x1 x2 x3 x4 x5 x6 x7 x8 x9 x10 x11 i
      = Ideal.tanh (Cert.Spec.gate 2048 (by omega) (val_main_v35 (F := Ideal) x0 x1 x2 x3 x4 x5 x6 x7 x8 x10) i
          + val_main_v48 (F := Ideal) x0 x1 x2 x3 x4 x5 x6 x7 x8 x9 x10 x11 i * Cert.Spec.gate 2048 (by omega) (val_main_v39 (F := Ideal) x1 x9 x11) i) := by
  rw [val_main_v62_apply, val_main_v61_apply, val_main_v60_apply, val_main_v58_apply, val_main_v59_apply,
    idx58_eq, idx59_eq]
  simp only [Ideal.hostUnary_tanh_def, Ideal.addf_def, Ideal.mulf_def, Cert.Spec.gate]

/-- The new hidden state: stage 67 is the GRU step on relu of the combined row. -/
theorem hidden_new :
    val_main_v67 (F := Ideal) x0 x1 x2 x3 x4 x5 x6 x7 x8 x9 x10 x11
      = Cert.Spec.hiddenNew (val_main_v26 (F := Ideal) x0 x1 x2 x3 x4 x5) (val_main_v7 (F := Ideal) x1) x6
          (val_main_v29 (F := Ideal) x7) x8 x9 (val_main_v34 (F := Ideal) x10) (val_main_v38 (F := Ideal) x11) := by
  funext i
  rw [val_main_v67_apply, val_main_v65_apply, val_main_v66_apply, val_main_v64_apply, val_main_v63_apply,
    val_main_cst_7_apply, n_gate, z_gate, r_gate]
  unfold Cert.Spec.hiddenNew
  rw [← combined_row]
  unfold Cert.Spec.gruStep
  simp only [← gx_row, ← gh_row, Ideal.addf_def, Ideal.subf_def, Ideal.mulf_def, Ideal.ofBits_def]

/-- The output logits: stage 71 is (stage 67)·out_Wᵀ + out_b. -/
theorem out_logits :
    val_main_v71 (F := Ideal) x0 x1 x2 x3 x4 x5 x6 x7 x8 x9 x10 x11 x12 x13
      = Cert.Spec.affineT (n := 50257) (k := 1024) (val_main_v67 (F := Ideal) x0 x1 x2 x3 x4 x5 x6 x7 x8 x9 x10 x11) x12
          (val_main_v70 (F := Ideal) x13) := by
  funext i
  rw [val_main_v71_apply, val_main_v69_apply]
  simp only [val_main_v68_apply, lidx69_eq, ridx69_eq, Ideal.addf_def, Cert.Spec.affineT]

end Cert.ReferenceIdeal.RefSpec

end
-- ==== Proof.RefTwin.lean ====
/-
  The reference's host stages written in the host operations the kernel program applies.  The two programs are
  printed in two namespaces with twin shapes, facts and gather records, so the same stage spelt in either is the same
  term up to unfolding; where the two programs spell a stage differently (the reference broadcasts a bias vector
  along axis 1 where the kernel program reshapes it to one row) the two are equal index by index.  Stated for each
  stage the two programs share outside the kernels: the embedding lookup, the reshapes, the concatenations, the
  softmax over the attention logits, the log-softmax over the output logits, the new hidden state's broadcast.
-/
import proofs.«423497_j70342974374383_1_alg».proof.Proof.RefRead
import proofs.«423497_j70342974374383_1_alg».proof.KernelIdeal
import proofs.«423497_j70342974374383_1_alg».proof.Proof.Gen.KernelIdeal
import proofs.«423497_j70342974374383_1_alg».proof.Proof.Gen.ReferenceIdeal
import Idealize.ShloMosaic.Lib.KernelVsHost

set_option maxRecDepth 16384

noncomputable section

namespace Cert.Twin

open Idealize.ShloMosaic Idealize.ShloMosaic.ValueIdx
open Cert.KernelIdeal Cert.KernelIdeal.Facts₀ Cert.KernelIdeal.Facts
open Cert.ReferenceIdeal.Read (val_main_v6 val_main_v7 val_main_v8 val_main_v11 val_main_v12 val_main_v23 val_main_v24
  val_main_v25 val_main_v26 val_main_v29 val_main_v34 val_main_v38 val_main_v67 val_main_v70 val_main_v71 val_main_v72 val_main_v73)

variable {F : FTy → Type} [FloatOps F]

/-- The kernel program's softmax over the attention logits: the row's maximum (never below the least float),
    the exponentials of the differences, their sum, the quotients. -/
def softmaxK (x : FVec F S1x2048 .f32) : FVec F S1x2048 .f32 :=
  let mx : FVec F S1 .f32 := Host.reduce FloatOps.maximumf x (constant (F := F) S_ .f32 0xFF800000#32) reducesTo_S1x2048_S1_d1 h_S_
  let mx' : FVec F S1 .f32 := maximumf (broadcastInDim S1 ![] bcast_S_S1 (constant (F := F) S_ .f32 0xFF800000#32)) mx
  let e : FVec F S1x2048 .f32 := Host.exp (F := F) (subf x (broadcastInDim S1x2048 ![0, 1] bcast_S1x1_S1x2048_0_1 (broadcastInDim S1x1 ![0] bcast_S1_S1x1_0 mx')))
  let s : FVec F S1 .f32 := Host.reduceAdd (F := F) e (constant (F := F) S_ .f32 0x00000000#32) reducesTo_S1x2048_S1_d1 h_S_
  Host.divf (F := F) e (broadcastInDim S1x2048 ![0, 1] bcast_S1x1_S1x2048_0_1 (broadcastInDim S1x1 ![0] bcast_S1_S1x1_0 s))

/-- The kernel program's log-softmax over the output logits: the differences from the row's maximum, less the
    logarithm of the sum of their exponentials. -/
def logSoftmaxK (x : FVec F S1x50257 .f32) : FVec F S1x50257 .f32 :=
  let mx : FVec F S1 .f32 := Host.reduce FloatOps.maximumf x (constant (F := F) S_ .f32 0xFF800000#32) reducesTo_S1x50257_S1_d1 h_S_
  let mx' : FVec F S1 .f32 := maximumf (broadcastInDim S1 ![] bcast_S_S1 (constant (F := F) S_ .f32 0xFF800000#32)) mx
  let d : FVec F S1x50257 .f32 := subf x (broadcastInDim S1x50257 ![0, 1] bcast_S1x1_S1x50257_0_1 (broadcastInDim S1x1 ![0] bcast_S1_S1x1_0 mx'))
  let s : FVec F S1 .f32 := Host.reduceAdd (F := F) (Host.exp (F := F) d) (constant (F := F) S_ .f32 0x00000000#32) reducesTo_S1x50257_S1_d1 h_S_
  subf d (broadcastInDim S1x50257 ![0, 1] bcast_S1x1_S1x50257_0_1 (Host.log (F := F) (broadcastInDim S1x1 ![0] bcast_S1_S1x1_0 s)))

/-! ## The embedding lookup, the reshapes, the concatenations -/

/-- The looked-up embedding row: the gather at the token index wrapped into range when negative. -/
theorem t_v6 (x0 : (⟨S1, .i32⟩ : BufTy).Contents (Elt F)) (x3 : (⟨S50257x1024, .f32⟩ : BufTy).Contents (Elt F)) :
    val_main_v6 (F := F) x0 x3
      = Host.gather gather_S50257x1024_S1x1_S1x1024_1_0_n_n_0_1_11024 x3 (broadcastInDim S1x1 ![0] bcast_S1_S1x1_0
          (select (cmpi .slt x0 (broadcastInDim S1 ![] bcast_S_S1 (constantI S_ 32 0#32)))
            (addi x0 (broadcastInDim S1 ![] bcast_S_S1 (constantI S_ 32 50257#32))) x0)) := rfl

/-- The hidden state as one row. -/
theorem t_v7 (x1 : (⟨S1x1x1024, .f32⟩ : BufTy).Contents (Elt F)) :
    val_main_v7 (F := F) x1 = shapeCast S1x1024 x1 shapeCasts_S1x1x1024_S1x1024 := rfl

/-- The embedding row and the hidden row side by side. -/
theorem t_v8 (x0 : (⟨S1, .i32⟩ : BufTy).Contents (Elt F)) (x1 : (⟨S1x1x1024, .f32⟩ : BufTy).Contents (Elt F))
    (x3 : (⟨S50257x1024, .f32⟩ : BufTy).Contents (Elt F)) :
    val_main_v8 (F := F) x0 x1 x3
      = concatenate S1x2048 1
          [⟨S1x1024, Host.gather gather_S50257x1024_S1x1_S1x1024_1_0_n_n_0_1_11024 x3 (broadcastInDim S1x1 ![0] bcast_S1_S1x1_0
              (select (cmpi .slt x0 (broadcastInDim S1 ![] bcast_S_S1 (constantI S_ 32 0#32)))
                (addi x0 (broadcastInDim S1 ![] bcast_S_S1 (constantI S_ 32 50257#32))) x0))⟩,
           ⟨S1x1024, shapeCast S1x1024 x1 shapeCasts_S1x1x1024_S1x1024⟩]
          concatenates_S1x1024_S1x1024_S1x2048_d1 := rfl

/-- The encoder outputs as a matrix. -/
theorem t_v24 (x2 : (⟨S1x2048x1024, .f32⟩ : BufTy).Contents (Elt F)) :
    val_main_v24 (F := F) x2 = shapeCast S2048x1024 x2 shapeCasts_S1x2048x1024_S2048x1024 := rfl

/-- The embedding row and the attention's context row side by side. -/
theorem t_v26 (x0 : (⟨S1, .i32⟩ : BufTy).Contents (Elt F)) (x1 : (⟨S1x1x1024, .f32⟩ : BufTy).Contents (Elt F))
    (x2 : (⟨S1x2048x1024, .f32⟩ : BufTy).Contents (Elt F)) (x3 : (⟨S50257x1024, .f32⟩ : BufTy).Contents (Elt F))
    (x4 : (⟨S2048x2048, .f32⟩ : BufTy).Contents (Elt F)) (x5 : (⟨S2048, .f32⟩ : BufTy).Contents (Elt F)) :
    val_main_v26 (F := F) x0 x1 x2 x3 x4 x5
      = concatenate S1x2048 1 [⟨S1x1024, val_main_v6 (F := F) x0 x3⟩, ⟨S1x1024, val_main_v25 (F := F) x0 x1 x2 x3 x4 x5⟩]
          concatenates_S1x1024_S1x1024_S1x2048_d1 := rfl

/-! ## A bias vector as one row: broadcast along axis 1, or reshaped -/

/-- A vector of `n` entries broadcast along axis 1 into one row is the vector reshaped to one row: both read the
    vector at the column. -/
theorem broadcastInDim_row_eq_shapeCast {α : Type} {n : Nat} (x : (⟨1, ![n]⟩ : Shape).Idx → α)
    (hd : (⟨1, ![n]⟩ : Shape).BroadcastsInDim ⟨2, ![1, n]⟩ ![1]) (h1 : (⟨1, ![n]⟩ : Shape).ShapeCasts ⟨2, ![1, n]⟩) :
    broadcastInDim ⟨2, ![1, n]⟩ ![1] hd x = shapeCast ⟨2, ![1, n]⟩ x h1 := by
  funext i
  have hi0 : (i 0).val = 0 := by have h : (i 0).val < 1 := (i 0).isLt; omega
  have e2 := shapeCast_apply x h1 i (ix1 (i 1 : Fin n)) (by
    rw [Shape.rowMajor_val_two, Shape.rowMajor_val_one]; show (i 1).val = (i 0).val * n + (i 1).val; rw [hi0]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e3.trans e2.symm

theorem t_v11 (x5 : (⟨S2048, .f32⟩ : BufTy).Contents (Elt F)) :
    val_main_v11 (F := F) x5 = shapeCast S1x2048 x5 shapeCasts_S2048_S1x2048 := broadcastInDim_row_eq_shapeCast (n := 2048) x5 _ _
theorem t_v29 (x7 : (⟨S1024, .f32⟩ : BufTy).Contents (Elt F)) :
    val_main_v29 (F := F) x7 = shapeCast S1x1024 x7 shapeCasts_S1024_S1x1024 := broadcastInDim_row_eq_shapeCast (n := 1024) x7 _ _
theorem t_v34 (x10 : (⟨S3072, .f32⟩ : BufTy).Contents (Elt F)) :
    val_main_v34 (F := F) x10 = shapeCast S1x3072 x10 shapeCasts_S3072_S1x3072 := broadcastInDim_row_eq_shapeCast (n := 3072) x10 _ _
theorem t_v38 (x11 : (⟨S3072, .f32⟩ : BufTy).Contents (Elt F)) :
    val_main_v38 (F := F) x11 = shapeCast S1x3072 x11 shapeCasts_S3072_S1x3072 := broadcastInDim_row_eq_shapeCast (n := 3072) x11 _ _
theorem t_v70 (x13 : (⟨S50257, .f32⟩ : BufTy).Contents (Elt F)) :
    val_main_v70 (F := F) x13 = shapeCast S1x50257 x13 shapeCasts_S50257_S1x50257 := broadcastInDim_row_eq_shapeCast (n := 50257) x13 _ _

/-! ## The softmax, the log-softmax, the new hidden state -/

theorem t_v23 (x0 : (⟨S1, .i32⟩ : BufTy).Contents (Elt F)) (x1 : (⟨S1x1x1024, .f32⟩ : BufTy).Contents (Elt F))
    (x3 : (⟨S50257x1024, .f32⟩ : BufTy).Contents (Elt F)) (x4 : (⟨S2048x2048, .f32⟩ : BufTy).Contents (Elt F))
    (x5 : (⟨S2048, .f32⟩ : BufTy).Contents (Elt F)) :
    val_main_v23 (F := F) x0 x1 x3 x4 x5 = softmaxK (val_main_v12 (F := F) x0 x1 x3 x4 x5) := rfl

theorem t_v72 (x0 : (⟨S1, .i32⟩ : BufTy).Contents (Elt F)) (x1 : (⟨S1x1x1024, .f32⟩ : BufTy).Contents (Elt F))
    (x2 : (⟨S1x2048x1024, .f32⟩ : BufTy).Contents (Elt F)) (x3 : (⟨S50257x1024, .f32⟩ : BufTy).Contents (Elt F))
    (x4 : (⟨S2048x2048, .f32⟩ : BufTy).Contents (Elt F)) (x5 : (⟨S2048, .f32⟩ : BufTy).Contents (Elt F))
    (x6 : (⟨S1024x2048, .f32⟩ : BufTy).Contents (Elt F)) (x7 : (⟨S1024, .f32⟩ : BufTy).Contents (Elt F))
    (x8 x9 : (⟨S3072x1024, .f32⟩ : BufTy).Contents (Elt F)) (x10 x11 : (⟨S3072, .f32⟩ : BufTy).Contents (Elt F))
    (x12 : (⟨S50257x1024, .f32⟩ : BufTy).Contents (Elt F)) (x13 : (⟨S50257, .f32⟩ : BufTy).Contents (Elt F)) :
    val_main_v72 (F := F) x0 x1 x2 x3 x4 x5 x6 x7 x8 x9 x10 x11 x12 x13
      = logSoftmaxK (val_main_v71 (F := F) x0 x1 x2 x3 x4 x5 x6 x7 x8 x9 x10 x11 x12 x13) := rfl

theorem t_v73 (x0 : (⟨S1, .i32⟩ : BufTy).Contents (Elt F)) (x1 : (⟨S1x1x1024, .f32⟩ : BufTy).Contents (Elt F))
    (x2 : (⟨S1x2048x1024, .f32⟩ : BufTy).Contents (Elt F)) (x3 : (⟨S50257x1024, .f32⟩ : BufTy).Contents (Elt F))
    (x4 : (⟨S2048x2048, .f32⟩ : BufTy).Contents (Elt F)) (x5 : (⟨S2048, .f32⟩ : BufTy).Contents (Elt F))
    (x6 : (⟨S1024x2048, .f32⟩ : BufTy).Contents (Elt F)) (x7 : (⟨S1024, .f32⟩ : BufTy).Contents (Elt F))
    (x8 x9 : (⟨S3072x1024, .f32⟩ : BufTy).Contents (Elt F)) (x10 x11 : (⟨S3072, .f32⟩ : BufTy).Contents (Elt F)) :
    val_main_v73 (F := F) x0 x1 x2 x3 x4 x5 x6 x7 x8 x9 x10 x11
      = broadcastInDim S1x1x1024 ![1, 2] bcast_S1x1024_S1x1x1024_1_2 (val_main_v67 (F := F) x0 x1 x2 x3 x4 x5 x6 x7 x8 x9 x10 x11) := rfl

end Cert.Twin

end
-- ==== Proof.Bridge.lean ====
/-
  The last link: the idealized kernel program's three results are the reference's stages at the same arguments.
  Between the items of @main the buffers hold either what a host stretch writes, which is the same host operation
  the reference applies, or what a kernel region leaves in its output array, which is the specification's function
  of the region's inputs; and the reference's stage is that same function of the same inputs.  So, item by item:
  the query row, the attention logits, the attention weights, the applied attention, the combined row's input, the
  new hidden state, the output logits, and last the three results (the attention weights, the new hidden state with
  its leading unit axes, the log-softmax of the output logits).
-/
import proofs.«423497_j70342974374383_1_alg».proof.Proof.KI.Host
import proofs.«423497_j70342974374383_1_alg».proof.Proof.KI.HostLS
import proofs.«423497_j70342974374383_1_alg».proof.Proof.KI.Take
import proofs.«423497_j70342974374383_1_alg».proof.Proof.KI.Fold
import proofs.«423497_j70342974374383_1_alg».proof.Proof.KI.Val0
import proofs.«423497_j70342974374383_1_alg».proof.Proof.KI.Val1
import proofs.«423497_j70342974374383_1_alg».proof.Proof.KI.Val2
import proofs.«423497_j70342974374383_1_alg».proof.Proof.KI.Val3
import proofs.«423497_j70342974374383_1_alg».proof.Proof.RefSpec
import proofs.«423497_j70342974374383_1_alg».proof.Proof.RefTwin

set_option maxRecDepth 16384

noncomputable section

namespace Cert.Bridge

open Cert.KernelIdeal Cert.KernelIdeal.Gen Cert.KernelIdeal.Hand Idealize.ShloMosaic Idealize.ShloMosaic.TcCoe Idealize.SL.Sem
open Cert.ReferenceIdeal.Read (val_main_v8 val_main_v12 val_main_v23 val_main_v25 val_main_v26 val_main_v67 val_main_v71
  val_main_v72 val_main_v73)

section chain

variable (m : (ℓ : Loc nD τ sig) → Buf (Elt Ideal) ℓ) (outs : Outs (F := Ideal)) (c : Dev nD)

/-! The fourteen arguments of @main on core `c`, as the launch memory holds them. -/
set_option quotPrecheck false
local notation "a₀" => m ((c : Thread nD τ).loc main_arg0)
local notation "a₁" => m ((c : Thread nD τ).loc main_arg1)
local notation "a₂" => m ((c : Thread nD τ).loc main_arg2)
local notation "a₃" => m ((c : Thread nD τ).loc main_arg3)
local notation "a₄" => m ((c : Thread nD τ).loc main_arg4)
local notation "a₅" => m ((c : Thread nD τ).loc main_arg5)
local notation "a₆" => m ((c : Thread nD τ).loc main_arg6)
local notation "a₇" => m ((c : Thread nD τ).loc main_arg7)
local notation "a₈" => m ((c : Thread nD τ).loc main_arg8)
local notation "a₉" => m ((c : Thread nD τ).loc main_arg9)
local notation "a₁₀" => m ((c : Thread nD τ).loc main_arg10)
local notation "a₁₁" => m ((c : Thread nD τ).loc main_arg11)
local notation "a₁₂" => m ((c : Thread nD τ).loc main_arg12)
local notation "a₁₃" => m ((c : Thread nD τ).loc main_arg13)

/-- The query row before region 0 is the reference's: the embedding row and the hidden row side by side. -/
theorem query_row (hpre : Cert.Pre_KernelIdeal m) :
    V2 m c main_v3 = val_main_v8 (F := Ideal) a₀ a₁ a₃ := by
  rw [h_v3 m c, embedded_eq m hpre c]
  exact (Cert.Twin.t_v8 _ _ _).symm

/-- Region 0 leaves the reference's attention logits. -/
theorem logits_row (hpre : Cert.Pre_KernelIdeal m) (hO : OutsOk m outs) :
    V3 m outs c main_v5 = val_main_v12 (F := Ideal) a₀ a₁ a₃ a₄ a₅ := by
  have e : V3 m outs c main_v5 = outs 3 main_v5 c := by simp only [V3, Function.update_self]
  rw [e, hO.h3 c, val0 (E2 m) c]
  show Cert.Spec.affineT (n := 2048) (k := 2048) (V2 m c main_v3) (V2 m c main_arg4) (V2 m c main_v4) = _
  rw [query_row m c hpre, V2_main_arg4 m c, h_v4 m c, ← Cert.Twin.t_v11]
  exact (Cert.ReferenceIdeal.RefSpec.attn_logits _ _ _ _ _).symm

/-- The host's softmax of them is the reference's attention weights. -/
theorem weights_row (hpre : Cert.Pre_KernelIdeal m) (hO : OutsOk m outs) :
    V4 m outs c main_v16 = val_main_v23 (F := Ideal) a₀ a₁ a₃ a₄ a₅ := by
  rw [h_v16 m outs c, logits_row m outs c hpre hO]
  exact (Cert.Twin.t_v23 _ _ _ _ _).symm

/-- Region 1 leaves the reference's applied attention. -/
theorem applied_row (hpre : Cert.Pre_KernelIdeal m) (hO : OutsOk m outs) :
    V5 m outs c main_v17 = val_main_v25 (F := Ideal) a₀ a₁ a₂ a₃ a₄ a₅ := by
  have e : V5 m outs c main_v17 = outs 5 main_v17 c := by simp only [V5, Function.update_self]
  rw [e, hO.h5 c, val1 (E4 m outs) c]
  show Cert.Spec.vecMat (k := 2048) (n := 1024) (V4 m outs c main_v16) (V4 m outs c main_v2) = _
  rw [weights_row m outs c hpre hO, V4_main_v2 m outs c, h_v2 m c, ← Cert.Twin.t_v24]
  exact (Cert.ReferenceIdeal.RefSpec.attn_applied _ _ _ _ _ _).symm

/-- The embedding row and the applied attention side by side: the reference's input of the combined row. -/
theorem cat2_row (hpre : Cert.Pre_KernelIdeal m) (hO : OutsOk m outs) :
    V6 m outs c main_v18 = val_main_v26 (F := Ideal) a₀ a₁ a₂ a₃ a₄ a₅ := by
  rw [h_v18 m outs c, V5_main_v0 m outs c, embedded_eq m hpre c, ← Cert.Twin.t_v6, applied_row m outs c hpre hO]
  exact (Cert.Twin.t_v26 _ _ _ _ _ _).symm

/-- Region 2 leaves the reference's new hidden state. -/
theorem hidden_row (hpre : Cert.Pre_KernelIdeal m) (hO : OutsOk m outs) :
    V7 m outs c main_v22 = val_main_v67 (F := Ideal) a₀ a₁ a₂ a₃ a₄ a₅ a₆ a₇ a₈ a₉ a₁₀ a₁₁ := by
  have e : V7 m outs c main_v22 = outs 7 main_v22 c := by simp only [V7, Function.update_self]
  rw [e, hO.h7 c, val2 (E6 m outs) c]
  show Cert.Spec.hiddenNew (V6 m outs c main_v18) (V6 m outs c main_v1) (V6 m outs c main_arg6) (V6 m outs c main_v19)
    (V6 m outs c main_arg8) (V6 m outs c main_arg9) (V6 m outs c main_v20) (V6 m outs c main_v21) = _
  rw [cat2_row m outs c hpre hO, V6_main_v1 m outs c, h_v1 m c, ← Cert.Twin.t_v7, V6_main_arg6 m outs c, V6_main_arg8 m outs c,
    V6_main_arg9 m outs c, h_v19 m outs c, ← Cert.Twin.t_v29, h_v20 m outs c, ← Cert.Twin.t_v34, h_v21 m outs c, ← Cert.Twin.t_v38]
  exact (Cert.ReferenceIdeal.RefSpec.hidden_new _ _ _ _ _ _ _ _ _ _ _ _).symm

/-- Region 3 leaves the reference's output logits. -/
theorem out_row (hpre : Cert.Pre_KernelIdeal m) (hO : OutsOk m outs) :
    V9 m outs c main_v24 = val_main_v71 (F := Ideal) a₀ a₁ a₂ a₃ a₄ a₅ a₆ a₇ a₈ a₉ a₁₀ a₁₁ a₁₂ a₁₃ := by
  have e : V9 m outs c main_v24 = outs 9 main_v24 c := by simp only [V9, Function.update_self]
  rw [e, hO.h9 c, val3 (E8 m outs) c]
  show Cert.Spec.affineT (n := 50257) (k := 1024) (V8 m outs c main_v22) (V8 m outs c main_arg12) (V8 m outs c main_v23) = _
  rw [V8_main_v22 m outs c, hidden_row m outs c hpre hO, V8_main_arg12 m outs c, h_v23 m outs c, ← Cert.Twin.t_v70]
  exact (Cert.ReferenceIdeal.RefSpec.out_logits _ _ _ _ _ _ _ _ _ _ _ _ _ _).symm

/-- The three results at the last boundary: the attention weights, the new hidden state with its leading unit axes,
    the log-softmax of the output logits. -/
theorem results_at (hpre : Cert.Pre_KernelIdeal m) (hO : OutsOk m outs) :
    V11 m outs c main_v16 = val_main_v23 (F := Ideal) a₀ a₁ a₃ a₄ a₅
      ∧ V11 m outs c main_v26 = val_main_v73 (F := Ideal) a₀ a₁ a₂ a₃ a₄ a₅ a₆ a₇ a₈ a₉ a₁₀ a₁₁
      ∧ V11 m outs c main_v25 = val_main_v72 (F := Ideal) a₀ a₁ a₂ a₃ a₄ a₅ a₆ a₇ a₈ a₉ a₁₀ a₁₁ a₁₂ a₁₃ := by
  refine ⟨(V11_main_v16 m outs c).trans (weights_row m outs c hpre hO), ?_, ?_⟩
  · rw [h_v26 m outs c, V10_main_v22 m outs c, hidden_row m outs c hpre hO]
    exact (Cert.Twin.t_v73 _ _ _ _ _ _ _ _ _ _ _ _).symm
  · rw [V11_main_v25 m outs c, h_v25 m outs c, out_row m outs c hpre hO]
    exact (Cert.Twin.t_v72 _ _ _ _ _ _ _ _ _ _ _ _ _ _).symm

end chain

/-- The program's three results are the reference's stages at the same arguments. -/
theorem results (m : (ℓ : Loc nD τ sig) → Buf (Elt Ideal) ℓ) (hpre : Cert.Pre_KernelIdeal m) (outs : Outs (F := Ideal))
    (hO : OutsOk m outs) (c : Dev nD) :
    V11 m outs c main_v16 = val_main_v23 (F := Ideal) (m ((c : Thread nD τ).loc main_arg0)) (m ((c : Thread nD τ).loc main_arg1)) (m ((c : Thread nD τ).loc main_arg3)) (m ((c : Thread nD τ).loc main_arg4)) (m ((c : Thread nD τ).loc main_arg5))
      ∧ V11 m outs c main_v26 = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ V11 m outs c main_v25 = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  results_at m outs c hpre hO

end Cert.Bridge

end
-- ==== Proof.RefRunH.lean ====
/-
  The reference program's run, read back stage by stage.  @main is a straight line of 100 host operations; a run of it
  ends with every buffer at the fold of the operations' results over its launch contents.  Composed into one term of
  the arguments that fold is enormous, because almost every intermediate row is read more than once; so the line is
  cut into ten stretches at the rows later stretches read (the embedding row, the hidden row, the two joined rows, the
  attention logits and weights, the two gate rows, the new hidden state, the output logits, their shift by the row
  maximum), and each stretch is shown, from ANY contents that agree with the launch contents on @main's arguments and
  hold the incoming rows at their stages, to leave the outgoing rows at their stages and the arguments untouched.
  Threading the ten facts through the cut gives the three results at their stages of the arguments, which is the run.
-/
import proofs.«423497_j70342974374383_1_alg».proof.Proof.RefOps
import proofs.«423497_j70342974374383_1_alg».proof.Proof.RefRead

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- The contents of @main's arguments in a valuation. -/
abbrev a0 (V : Valuation τ sig (Elt F)) := V (Proc.devRef .tc main_arg0)
abbrev a1 (V : Valuation τ sig (Elt F)) := V (Proc.devRef .tc main_arg1)
abbrev a2 (V : Valuation τ sig (Elt F)) := V (Proc.devRef .tc main_arg2)
abbrev a3 (V : Valuation τ sig (Elt F)) := V (Proc.devRef .tc main_arg3)
abbrev a4 (V : Valuation τ sig (Elt F)) := V (Proc.devRef .tc main_arg4)
abbrev a5 (V : Valuation τ sig (Elt F)) := V (Proc.devRef .tc main_arg5)
abbrev a6 (V : Valuation τ sig (Elt F)) := V (Proc.devRef .tc main_arg6)
abbrev a7 (V : Valuation τ sig (Elt F)) := V (Proc.devRef .tc main_arg7)
abbrev a8 (V : Valuation τ sig (Elt F)) := V (Proc.devRef .tc main_arg8)
abbrev a9 (V : Valuation τ sig (Elt F)) := V (Proc.devRef .tc main_arg9)
abbrev a10 (V : Valuation τ sig (Elt F)) := V (Proc.devRef .tc main_arg10)
abbrev a11 (V : Valuation τ sig (Elt F)) := V (Proc.devRef .tc main_arg11)
abbrev a12 (V : Valuation τ sig (Elt F)) := V (Proc.devRef .tc main_arg12)
abbrev a13 (V : Valuation τ sig (Elt F)) := V (Proc.devRef .tc main_arg13)

/-- Two valuations agree on every argument of @main. -/
def SameArgs (V W : Valuation τ sig (Elt F)) : Prop :=
  a0 W = a0 V ∧ a1 W = a1 V ∧ a2 W = a2 V ∧ a3 W = a3 V ∧ a4 W = a4 V ∧ a5 W = a5 V ∧ a6 W = a6 V ∧ a7 W = a7 V
    ∧ a8 W = a8 V ∧ a9 W = a9 V ∧ a10 W = a10 V ∧ a11 W = a11 V ∧ a12 W = a12 V ∧ a13 W = a13 V

/-- A transport along a proof that a type is itself is the identity (proved by cases, so that a rewrite by it is an
    explicit step). -/
theorem cast_self' {α : Sort _} (h : α = α) (a : α) : cast h a = a := by cases h; rfl

/-! ## The stretches -/

/-- Operations 1 to 11: the token wrapped into range, its embedding row gathered, the hidden state reshaped to a row,
    the two rows joined. -/
abbrev ops1 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024,
    binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)) ]

set_option maxRecDepth 8192 in
set_option maxHeartbeats 1000000 in
/-- They write no argument of @main. -/
theorem keep1 (V W : Valuation τ sig (Elt F)) (h : SameArgs V W) : SameArgs V (after ops1 W) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_, ?_, ?_, ?_, ?_, ?_, ?_, ?_, ?_, ?_, ?_, ?_⟩
  all_goals (after_results_simp; assumption)

/-- None allocates. -/
theorem fresh1 : ∀ op ∈ (ops1 : List (HloOp τ sig (Elt F))), op.fresh = ∅ := by
  intro _ h; (repeat (cases h with | head => rfl | tail _ h => ?_)); exact nomatch h

set_option maxRecDepth 8192 in
/-- After them the embedding row, the hidden row and the joined row are at their stages. -/
theorem stage1 (V W : Valuation τ sig (Elt F)) (h : SameArgs V W) :
    after ops1 W (Proc.devRef .tc main_v6) = val_main_v6 (F := F) (a0 V) (a3 V)
    ∧ after ops1 W (Proc.devRef .tc main_v7) = val_main_v7 (F := F) (a1 V)
    ∧ after ops1 W (Proc.devRef .tc main_v8) = val_main_v8 (F := F) (a0 V) (a1 V) (a3 V) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_⟩
  · after_results
    rw [h0, h3]; rfl
  · after_results
    rw [h1]; rfl
  · after_results
    rw [h0, h1, h3]; rfl

/-- Operations 12 to 15: the attention logits, the joined row times the transposed attention weights plus the bias. -/
abbrev ops2 : List (HloOp τ sig (Elt F)) :=
  [ unary main_arg4 main_v9 ((transpose S2048x2048 [1, 0] · transposes_S2048x2048_S2048x2048_1_0) : (⟨S2048x2048, .f32⟩ : BufTy).Contents (Elt F) → (⟨S2048x2048, .f32⟩ : BufTy).Contents (Elt F)),
    binary main_v8 main_v9 main_v10 ((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F)),
    unary main_arg5 main_v11 (broadcastInDim S1x2048 ![1] bcast_S2048_S1x2048_1 : (⟨S2048, .f32⟩ : BufTy).Contents (Elt F) → (⟨S1x2048, .f32⟩ : BufTy).Contents (Elt F)),
    binary main_v10 main_v11 main_v12 (addf : (⟨S1x2048, .f32⟩ : BufTy).Contents (Elt F) → (⟨S1x2048, .f32⟩ : BufTy).Contents (Elt F) → (⟨S1x2048, .f32⟩ : BufTy).Contents (Elt F)) ]

set_option maxRecDepth 8192 in
set_option maxHeartbeats 1000000 in
/-- They write no argument of @main. -/
theorem keep2 (V W : Valuation τ sig (Elt F)) (h : SameArgs V W) : SameArgs V (after ops2 W) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_, ?_, ?_, ?_, ?_, ?_, ?_, ?_, ?_, ?_, ?_, ?_⟩
  all_goals (after_results_simp; assumption)

/-- None allocates. -/
theorem fresh2 : ∀ op ∈ (ops2 : List (HloOp τ sig (Elt F))), op.fresh = ∅ := by
  intro _ h; (repeat (cases h with | head => rfl | tail _ h => ?_)); exact nomatch h

set_option maxRecDepth 8192 in
/-- After them the logits are at their stage; the embedding row and the hidden row stay. -/
theorem stage2 (V W : Valuation τ sig (Elt F)) (h : SameArgs V W)
    (e6 : W (Proc.devRef .tc main_v6) = val_main_v6 (F := F) (a0 V) (a3 V))
    (e7 : W (Proc.devRef .tc main_v7) = val_main_v7 (F := F) (a1 V))
    (e8 : W (Proc.devRef .tc main_v8) = val_main_v8 (F := F) (a0 V) (a1 V) (a3 V)) :
    after ops2 W (Proc.devRef .tc main_v6) = val_main_v6 (F := F) (a0 V) (a3 V)
    ∧ after ops2 W (Proc.devRef .tc main_v7) = val_main_v7 (F := F) (a1 V)
    ∧ after ops2 W (Proc.devRef .tc main_v12) = val_main_v12 (F := F) (a0 V) (a1 V) (a3 V) (a4 V) (a5 V) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_⟩
  · after_results
    exact e6
  · after_results
    exact e7
  · after_results
    rw [e8, h4, h5]; rfl

/-- Operations 16 to 29: the softmax of the logits (the row maximum taken off, exponentials, their sum, the quotient). -/
abbrev ops3 : List (HloOp τ sig (Elt F)) :=
  [ nullary main_cst (constant S_ .f32 0xFF800000#32),
    binary main_v12 main_cst main_v13 ((fun x v => Host.reduce FloatOps.maximumf x v reducesTo_S1x2048_S1_d1 h_S_) : (⟨S1x2048, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x2048 ![0, 1] bcast_S1x1_S1x2048_0_1 : (⟨S1x1, .f32⟩ : BufTy).Contents (Elt F) → (⟨S1x2048, .f32⟩ : BufTy).Contents (Elt F)),
    binary main_v12 main_v17 main_v18 (subf : (⟨S1x2048, .f32⟩ : BufTy).Contents (Elt F) → (⟨S1x2048, .f32⟩ : BufTy).Contents (Elt F) → (⟨S1x2048, .f32⟩ : BufTy).Contents (Elt F)),
    unary main_v18 main_v19 (Host.exp : (⟨S1x2048, .f32⟩ : BufTy).Contents (Elt F) → (⟨S1x2048, .f32⟩ : BufTy).Contents (Elt F)),
    nullary main_cst_2 (constant S_ .f32 0x00000000#32),
    binary main_v19 main_cst_2 main_v20 ((fun x v => Host.reduceAdd x v reducesTo_S1x2048_S1_d1 h_S_) : (⟨S1x2048, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x2048 ![0, 1] bcast_S1x1_S1x2048_0_1 : (⟨S1x1, .f32⟩ : BufTy).Contents (Elt F) → (⟨S1x2048, .f32⟩ : BufTy).Contents (Elt F)),
    binary main_v19 main_v22 main_v23 (Host.divf : (⟨S1x2048, .f32⟩ : BufTy).Contents (Elt F) → (⟨S1x2048, .f32⟩ : BufTy).Contents (Elt F) → (⟨S1x2048, .f32⟩ : BufTy).Contents (Elt F)) ]

set_option maxRecDepth 8192 in
set_option maxHeartbeats 1000000 in
/-- They write no argument of @main. -/
theorem keep3 (V W : Valuation τ sig (Elt F)) (h : SameArgs V W) : SameArgs V (after ops3 W) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_, ?_, ?_, ?_, ?_, ?_, ?_, ?_, ?_, ?_, ?_, ?_⟩
  all_goals (after_results_simp; assumption)

/-- None allocates. -/
theorem fresh3 : ∀ op ∈ (ops3 : List (HloOp τ sig (Elt F))), op.fresh = ∅ := by
  intro _ h; (repeat (cases h with | head => rfl | tail _ h => ?_)); exact nomatch h

set_option maxRecDepth 8192 in
/-- After them the attention weights are at their stage; the embedding row and the hidden row stay. -/
theorem stage3 (V W : Valuation τ sig (Elt F)) (h : SameArgs V W)
    (e6 : W (Proc.devRef .tc main_v6) = val_main_v6 (F := F) (a0 V) (a3 V))
    (e7 : W (Proc.devRef .tc main_v7) = val_main_v7 (F := F) (a1 V))
    (e12 : W (Proc.devRef .tc main_v12) = val_main_v12 (F := F) (a0 V) (a1 V) (a3 V) (a4 V) (a5 V)) :
    after ops3 W (Proc.devRef .tc main_v6) = val_main_v6 (F := F) (a0 V) (a3 V)
    ∧ after ops3 W (Proc.devRef .tc main_v7) = val_main_v7 (F := F) (a1 V)
    ∧ after ops3 W (Proc.devRef .tc main_v23) = val_main_v23 (F := F) (a0 V) (a1 V) (a3 V) (a4 V) (a5 V) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_⟩
  · after_results
    exact e6
  · after_results
    exact e7
  · after_results
    rw [e12]; rfl

/-- Operations 30 to 32: the attention weights applied to the encoder rows, joined to the embedding row. -/
abbrev ops4 : List (HloOp τ sig (Elt F)) :=
  [ reshape main_arg2 main_v24 rfl shapeCasts_S1x2048x1024_S2048x1024,
    binary main_v23 main_v24 main_v25 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    binary main_v6 main_v25 main_v26 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)) ]

set_option maxRecDepth 8192 in
set_option maxHeartbeats 1000000 in
/-- They write no argument of @main. -/
theorem keep4 (V W : Valuation τ sig (Elt F)) (h : SameArgs V W) : SameArgs V (after ops4 W) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_, ?_, ?_, ?_, ?_, ?_, ?_, ?_, ?_, ?_, ?_, ?_⟩
  all_goals (after_results_simp; assumption)

/-- None allocates. -/
theorem fresh4 : ∀ op ∈ (ops4 : List (HloOp τ sig (Elt F))), op.fresh = ∅ := by
  intro _ h; (repeat (cases h with | head => rfl | tail _ h => ?_)); exact nomatch h

set_option maxRecDepth 8192 in
/-- After them the second joined row is at its stage; the hidden row and the attention weights stay. -/
theorem stage4 (V W : Valuation τ sig (Elt F)) (h : SameArgs V W)
    (e6 : W (Proc.devRef .tc main_v6) = val_main_v6 (F := F) (a0 V) (a3 V))
    (e7 : W (Proc.devRef .tc main_v7) = val_main_v7 (F := F) (a1 V))
    (e23 : W (Proc.devRef .tc main_v23) = val_main_v23 (F := F) (a0 V) (a1 V) (a3 V) (a4 V) (a5 V)) :
    after ops4 W (Proc.devRef .tc main_v7) = val_main_v7 (F := F) (a1 V)
    ∧ after ops4 W (Proc.devRef .tc main_v23) = val_main_v23 (F := F) (a0 V) (a1 V) (a3 V) (a4 V) (a5 V)
    ∧ after ops4 W (Proc.devRef .tc main_v26) = val_main_v26 (F := F) (a0 V) (a1 V) (a2 V) (a3 V) (a4 V) (a5 V) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_⟩
  · after_results
    exact e7
  · after_results
    exact e23
  · after_results
    rw [e6, e23, h2]; rfl

/-- Operations 33 to 47: the combined row (relu of the second joined row times the transposed combine weights plus the
    bias) and the two gate rows, of the combined row and of the hidden row. -/
abbrev ops5 : List (HloOp τ sig (Elt F)) :=
  [ unary main_arg6 main_v27 ((transpose S2048x1024 [1, 0] · transposes_S1024x2048_S2048x1024_1_0) : (⟨S1024x2048, .f32⟩ : BufTy).Contents (Elt F) → (⟨S2048x1024, .f32⟩ : BufTy).Contents (Elt F)),
    binary main_v26 main_v27 main_v28 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v29 (broadcastInDim S1x1024 ![1] bcast_S1024_S1x1024_1 : (⟨S1024, .f32⟩ : BufTy).Contents (Elt F) → (⟨S1x1024, .f32⟩ : BufTy).Contents (Elt F)),
    binary main_v28 main_v29 main_v30 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v30) (TRef.of (T := ⟨S1x1024, .f32⟩) main_call0_v0) (TRef.of (T := ⟨S1x1024, .f32⟩) main_v31) maximumf,
    unary main_arg8 main_v32 ((transpose S1024x3072 [1, 0] · transposes_S3072x1024_S1024x3072_1_0) : (⟨S3072x1024, .f32⟩ : BufTy).Contents (Elt F) → (⟨S1024x3072, .f32⟩ : BufTy).Contents (Elt F)),
    binary main_v31 main_v32 main_v33 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v34 (broadcastInDim S1x3072 ![1] bcast_S3072_S1x3072_1 : (⟨S3072, .f32⟩ : BufTy).Contents (Elt F) → (⟨S1x3072, .f32⟩ : BufTy).Contents (Elt F)),
    binary main_v33 main_v34 main_v35 (addf : (⟨S1x3072, .f32⟩ : BufTy).Contents (Elt F) → (⟨S1x3072, .f32⟩ : BufTy).Contents (Elt F) → (⟨S1x3072, .f32⟩ : BufTy).Contents (Elt F)),
    unary main_arg9 main_v36 ((transpose S1024x3072 [1, 0] · transposes_S3072x1024_S1024x3072_1_0) : (⟨S3072x1024, .f32⟩ : BufTy).Contents (Elt F) → (⟨S1024x3072, .f32⟩ : BufTy).Contents (Elt F)),
    binary main_v7 main_v36 main_v37 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v38 (broadcastInDim S1x3072 ![1] bcast_S3072_S1x3072_1 : (⟨S3072, .f32⟩ : BufTy).Contents (Elt F) → (⟨S1x3072, .f32⟩ : BufTy).Contents (Elt F)),
    binary main_v37 main_v38 main_v39 (addf : (⟨S1x3072, .f32⟩ : BufTy).Contents (Elt F) → (⟨S1x3072, .f32⟩ : BufTy).Contents (Elt F) → (⟨S1x3072, .f32⟩ : BufTy).Contents (Elt F)) ]

set_option maxRecDepth 8192 in
set_option maxHeartbeats 1000000 in
/-- They write no argument of @main. -/
theorem keep5 (V W : Valuation τ sig (Elt F)) (h : SameArgs V W) : SameArgs V (after ops5 W) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_, ?_, ?_, ?_, ?_, ?_, ?_, ?_, ?_, ?_, ?_, ?_⟩
  all_goals (after_results_simp; assumption)

/-- None allocates. -/
theorem fresh5 : ∀ op ∈ (ops5 : List (HloOp τ sig (Elt F))), op.fresh = ∅ := by
  intro _ h; (repeat (cases h with | head => rfl | tail _ h => ?_)); exact nomatch h

set_option maxRecDepth 8192 in
/-- After them the two gate rows are at their stages; the hidden row and the attention weights stay. -/
theorem stage5 (V W : Valuation τ sig (Elt F)) (h : SameArgs V W)
    (e7 : W (Proc.devRef .tc main_v7) = val_main_v7 (F := F) (a1 V))
    (e23 : W (Proc.devRef .tc main_v23) = val_main_v23 (F := F) (a0 V) (a1 V) (a3 V) (a4 V) (a5 V))
    (e26 : W (Proc.devRef .tc main_v26) = val_main_v26 (F := F) (a0 V) (a1 V) (a2 V) (a3 V) (a4 V) (a5 V)) :
    after ops5 W (Proc.devRef .tc main_v7) = val_main_v7 (F := F) (a1 V)
    ∧ after ops5 W (Proc.devRef .tc main_v23) = val_main_v23 (F := F) (a0 V) (a1 V) (a3 V) (a4 V) (a5 V)
    ∧ after ops5 W (Proc.devRef .tc main_v35) = val_main_v35 (F := F) (a0 V) (a1 V) (a2 V) (a3 V) (a4 V) (a5 V) (a6 V) (a7 V) (a8 V) (a10 V)
    ∧ after ops5 W (Proc.devRef .tc main_v39) = val_main_v39 (F := F) (a1 V) (a9 V) (a11 V) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_, ?_⟩
  · after_results
    exact e7
  · after_results
    exact e23
  · after_results
    rw [e26, h6, h7, h8, h10]; rfl
  · after_results
    rw [e7, h9, h11]; rfl

/-- Operations 48 to 80: the reset gate, the update gate, the candidate, and the new hidden state. -/
abbrev ops6 : List (HloOp τ sig (Elt F)) :=
  [ unary main_v35 main_v40 ((extractStridedSlice S1x1024 ![0, 0] · slices_S1x3072_S1x1024_0_0) : (⟨S1x3072, .f32⟩ : BufTy).Contents (Elt F) → (⟨S1x1024, .f32⟩ : BufTy).Contents (Elt F)),
    unary main_v39 main_v41 ((extractStridedSlice S1x1024 ![0, 0] · slices_S1x3072_S1x1024_0_0) : (⟨S1x3072, .f32⟩ : BufTy).Contents (Elt F) → (⟨S1x1024, .f32⟩ : BufTy).Contents (Elt F)),
    binary main_v40 main_v41 main_v42 (addf : (⟨S1x1024, .f32⟩ : BufTy).Contents (Elt F) → (⟨S1x1024, .f32⟩ : BufTy).Contents (Elt F) → (⟨S1x1024, .f32⟩ : BufTy).Contents (Elt F)),
    unary main_v42 main_v43 (Host.negf : (⟨S1x1024, .f32⟩ : BufTy).Contents (Elt F) → (⟨S1x1024, .f32⟩ : BufTy).Contents (Elt F)),
    unary main_v43 main_v44 (Host.exp : (⟨S1x1024, .f32⟩ : BufTy).Contents (Elt F) → (⟨S1x1024, .f32⟩ : BufTy).Contents (Elt F)),
    nullary main_cst_3 (constant S_ .f32 0x3F800000#32),
    unary main_cst_3 main_v45 (broadcastInDim S1x1024 ![] bcast_S_S1x1024 : (⟨S_, .f32⟩ : BufTy).Contents (Elt F) → (⟨S1x1024, .f32⟩ : BufTy).Contents (Elt F)),
    binary main_v45 main_v44 main_v46 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v47 (broadcastInDim S1x1024 ![] bcast_S_S1x1024 : (⟨S_, .f32⟩ : BufTy).Contents (Elt F) → (⟨S1x1024, .f32⟩ : BufTy).Contents (Elt F)),
    binary main_v47 main_v46 main_v48 (Host.divf : (⟨S1x1024, .f32⟩ : BufTy).Contents (Elt F) → (⟨S1x1024, .f32⟩ : BufTy).Contents (Elt F) → (⟨S1x1024, .f32⟩ : BufTy).Contents (Elt F)),
    unary main_v35 main_v49 ((extractStridedSlice S1x1024 ![0, 1024] · slices_S1x3072_S1x1024_0_1024) : (⟨S1x3072, .f32⟩ : BufTy).Contents (Elt F) → (⟨S1x1024, .f32⟩ : BufTy).Contents (Elt F)),
    unary main_v39 main_v50 ((extractStridedSlice S1x1024 ![0, 1024] · slices_S1x3072_S1x1024_0_1024) : (⟨S1x3072, .f32⟩ : BufTy).Contents (Elt F) → (⟨S1x1024, .f32⟩ : BufTy).Contents (Elt F)),
    binary main_v49 main_v50 main_v51 (addf : (⟨S1x1024, .f32⟩ : BufTy).Contents (Elt F) → (⟨S1x1024, .f32⟩ : BufTy).Contents (Elt F) → (⟨S1x1024, .f32⟩ : BufTy).Contents (Elt F)),
    unary main_v51 main_v52 (Host.negf : (⟨S1x1024, .f32⟩ : BufTy).Contents (Elt F) → (⟨S1x1024, .f32⟩ : BufTy).Contents (Elt F)),
    unary main_v52 main_v53 (Host.exp : (⟨S1x1024, .f32⟩ : BufTy).Contents (Elt F) → (⟨S1x1024, .f32⟩ : BufTy).Contents (Elt F)),
    nullary main_cst_5 (constant S_ .f32 0x3F800000#32),
    unary main_cst_5 main_v54 (broadcastInDim S1x1024 ![] bcast_S_S1x1024 : (⟨S_, .f32⟩ : BufTy).Contents (Elt F) → (⟨S1x1024, .f32⟩ : BufTy).Contents (Elt F)),
    binary main_v54 main_v53 main_v55 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v56 (broadcastInDim S1x1024 ![] bcast_S_S1x1024 : (⟨S_, .f32⟩ : BufTy).Contents (Elt F) → (⟨S1x1024, .f32⟩ : BufTy).Contents (Elt F)),
    binary main_v56 main_v55 main_v57 (Host.divf : (⟨S1x1024, .f32⟩ : BufTy).Contents (Elt F) → (⟨S1x1024, .f32⟩ : BufTy).Contents (Elt F) → (⟨S1x1024, .f32⟩ : BufTy).Contents (Elt F)),
    unary main_v35 main_v58 ((extractStridedSlice S1x1024 ![0, 2048] · slices_S1x3072_S1x1024_0_2048) : (⟨S1x3072, .f32⟩ : BufTy).Contents (Elt F) → (⟨S1x1024, .f32⟩ : BufTy).Contents (Elt F)),
    unary main_v39 main_v59 ((extractStridedSlice S1x1024 ![0, 2048] · slices_S1x3072_S1x1024_0_2048) : (⟨S1x3072, .f32⟩ : BufTy).Contents (Elt F) → (⟨S1x1024, .f32⟩ : BufTy).Contents (Elt F)),
    binary main_v48 main_v59 main_v60 (mulf : (⟨S1x1024, .f32⟩ : BufTy).Contents (Elt F) → (⟨S1x1024, .f32⟩ : BufTy).Contents (Elt F) → (⟨S1x1024, .f32⟩ : BufTy).Contents (Elt F)),
    binary main_v58 main_v60 main_v61 (addf : (⟨S1x1024, .f32⟩ : BufTy).Contents (Elt F) → (⟨S1x1024, .f32⟩ : BufTy).Contents (Elt F) → (⟨S1x1024, .f32⟩ : BufTy).Contents (Elt F)),
    unary main_v61 main_v62 (Host.tanh : (⟨S1x1024, .f32⟩ : BufTy).Contents (Elt F) → (⟨S1x1024, .f32⟩ : BufTy).Contents (Elt F)),
    nullary main_cst_7 (constant S_ .f32 0x3F800000#32),
    unary main_cst_7 main_v63 (broadcastInDim S1x1024 ![] bcast_S_S1x1024 : (⟨S_, .f32⟩ : BufTy).Contents (Elt F) → (⟨S1x1024, .f32⟩ : BufTy).Contents (Elt F)),
    binary main_v63 main_v57 main_v64 (subf : (⟨S1x1024, .f32⟩ : BufTy).Contents (Elt F) → (⟨S1x1024, .f32⟩ : BufTy).Contents (Elt F) → (⟨S1x1024, .f32⟩ : BufTy).Contents (Elt F)),
    binary main_v64 main_v62 main_v65 (mulf : (⟨S1x1024, .f32⟩ : BufTy).Contents (Elt F) → (⟨S1x1024, .f32⟩ : BufTy).Contents (Elt F) → (⟨S1x1024, .f32⟩ : BufTy).Contents (Elt F)),
    binary main_v57 main_v7 main_v66 (mulf : (⟨S1x1024, .f32⟩ : BufTy).Contents (Elt F) → (⟨S1x1024, .f32⟩ : BufTy).Contents (Elt F) → (⟨S1x1024, .f32⟩ : BufTy).Contents (Elt F)),
    binary main_v65 main_v66 main_v67 (addf : (⟨S1x1024, .f32⟩ : BufTy).Contents (Elt F) → (⟨S1x1024, .f32⟩ : BufTy).Contents (Elt F) → (⟨S1x1024, .f32⟩ : BufTy).Contents (Elt F)) ]

set_option maxRecDepth 8192 in
set_option maxHeartbeats 1000000 in
/-- They write no argument of @main. -/
theorem keep6 (V W : Valuation τ sig (Elt F)) (h : SameArgs V W) : SameArgs V (after ops6 W) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_, ?_, ?_, ?_, ?_, ?_, ?_, ?_, ?_, ?_, ?_, ?_⟩
  all_goals (after_results_simp; assumption)

/-- None allocates. -/
theorem fresh6 : ∀ op ∈ (ops6 : List (HloOp τ sig (Elt F))), op.fresh = ∅ := by
  intro _ h; (repeat (cases h with | head => rfl | tail _ h => ?_)); exact nomatch h

set_option maxRecDepth 8192 in
/-- After them the new hidden state is at its stage; the attention weights stay. -/
theorem stage6 (V W : Valuation τ sig (Elt F)) (h : SameArgs V W)
    (e7 : W (Proc.devRef .tc main_v7) = val_main_v7 (F := F) (a1 V))
    (e23 : W (Proc.devRef .tc main_v23) = val_main_v23 (F := F) (a0 V) (a1 V) (a3 V) (a4 V) (a5 V))
    (e35 : W (Proc.devRef .tc main_v35) = val_main_v35 (F := F) (a0 V) (a1 V) (a2 V) (a3 V) (a4 V) (a5 V) (a6 V) (a7 V) (a8 V) (a10 V))
    (e39 : W (Proc.devRef .tc main_v39) = val_main_v39 (F := F) (a1 V) (a9 V) (a11 V)) :
    after ops6 W (Proc.devRef .tc main_v23) = val_main_v23 (F := F) (a0 V) (a1 V) (a3 V) (a4 V) (a5 V)
    ∧ after ops6 W (Proc.devRef .tc main_v67) = val_main_v67 (F := F) (a0 V) (a1 V) (a2 V) (a3 V) (a4 V) (a5 V) (a6 V) (a7 V) (a8 V) (a9 V) (a10 V) (a11 V) := by
  obtain ⟨h0, h1, h2, h3, h4, h5, h6, h7, h8, h9, h10, h11, h12, h13⟩ := h
  unfold a0 a1 a2 a3 a4 a5 a6 a7 a8 a9 a10 a11 a12 a13 at *
  refine ⟨?_, ?_⟩
  · after_results_simp
    exact e23
  · after_results_simp
    rw [e7, e35, e39]; rfl

/-- Operations 81 to 84: the output logits, the new hidden state times the transposed output weights plus the bias. -/
abbrev ops7 : List (HloOp τ sig (Elt F)) :=
  [ unary main_arg12 main_v68 ((transpose S1024x50257 [1, 0] · transposes_S50257x1024_S1024x50257_1_0) : (⟨S50257x1024, .f32⟩ : BufTy).Contents (Elt F) → (⟨S1024x50257, .f32⟩ : BufTy).Contents (Elt F)),
    binary main_v67 main_v68 main_v69 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v70 (broadcastInDim S1x50257 ![1] bcast_S50257_S1x50257_1 : (⟨S50257, .f32⟩ : BufTy).Contents (Elt F) → (⟨S1x50257, .f32⟩ : BufTy).Contents (Elt F)),
    binary main_v69 main_v70 main_v71 (addf : (⟨S1x50257, .f32⟩ : BufTy).Contents (Elt F) → (⟨S1x50257, .f32⟩ : BufTy).Contents (Elt F) → (⟨S1x50257, .f32⟩ : BufTy).Contents (Elt F)) ]

set_option maxRecDepth 8192 in
set_option maxHeartbeats 1000000 in
/-- They write no argument of @main. -/
theorem keep7 (V W : Valuation τ sig (Elt F)) (h : SameArgs V W) : SameArgs V (after ops7 W) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_, ?_, ?_, ?_, ?_, ?_, ?_, ?_, ?_, ?_, ?_, ?_⟩
  all_goals (after_results_simp; assumption)

/-- None allocates. -/
theorem fresh7 : ∀ op ∈ (ops7 : List (HloOp τ sig (Elt F))), op.fresh = ∅ := by
  intro _ h; (repeat (cases h with | head => rfl | tail _ h => ?_)); exact nomatch h

set_option maxRecDepth 8192 in
/-- After them the output logits are at their stage; the attention weights and the new hidden state stay. -/
theorem stage7 (V W : Valuation τ sig (Elt F)) (h : SameArgs V W)
    (e23 : W (Proc.devRef .tc main_v23) = val_main_v23 (F := F) (a0 V) (a1 V) (a3 V) (a4 V) (a5 V))
    (e67 : W (Proc.devRef .tc main_v67) = val_main_v67 (F := F) (a0 V) (a1 V) (a2 V) (a3 V) (a4 V) (a5 V) (a6 V) (a7 V) (a8 V) (a9 V) (a10 V) (a11 V)) :
    after ops7 W (Proc.devRef .tc main_v23) = val_main_v23 (F := F) (a0 V) (a1 V) (a3 V) (a4 V) (a5 V)
    ∧ after ops7 W (Proc.devRef .tc main_v67) = val_main_v67 (F := F) (a0 V) (a1 V) (a2 V) (a3 V) (a4 V) (a5 V) (a6 V) (a7 V) (a8 V) (a9 V) (a10 V) (a11 V)
    ∧ after ops7 W (Proc.devRef .tc main_v71) = val_main_v71 (F := F) (a0 V) (a1 V) (a2 V) (a3 V) (a4 V) (a5 V) (a6 V) (a7 V) (a8 V) (a9 V) (a10 V) (a11 V) (a12 V) (a13 V) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_⟩
  · after_results
    exact e23
  · after_results
    exact e67
  · after_results
    rw [e67, h12, h13]; rfl

/-- Operations 85 to 92: the output logits with their row maximum taken off. -/
abbrev ops8 : List (HloOp τ sig (Elt F)) :=
  [ TRef.nullary (TRef.of (T := ⟨S_, .f32⟩) main_call1_cst) (constant S_ .f32 0xFF800000#32),
    TRef.binary (TRef.of (T := ⟨S1x50257, .f32⟩) main_v71) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v71) (TRef.of (T := ⟨S1x50257, .f32⟩) main_call1_v4) (TRef.of (T := ⟨S1x50257, .f32⟩) main_call1_v5) subf ]

set_option maxRecDepth 8192 in
set_option maxHeartbeats 1000000 in
/-- They write no argument of @main. -/
theorem keep8 (V W : Valuation τ sig (Elt F)) (h : SameArgs V W) : SameArgs V (after ops8 W) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_, ?_, ?_, ?_, ?_, ?_, ?_, ?_, ?_, ?_, ?_, ?_⟩
  all_goals (after_results_simp; assumption)

/-- None allocates. -/
theorem fresh8 : ∀ op ∈ (ops8 : List (HloOp τ sig (Elt F))), op.fresh = ∅ := by
  intro _ h; (repeat (cases h with | head => rfl | tail _ h => ?_)); exact nomatch h

set_option maxRecDepth 16384 in
/-- After them the shifted logits are at their stage; the attention weights and the new hidden state stay. -/
theorem stage8 (V W : Valuation τ sig (Elt F)) (h : SameArgs V W)
    (e23 : W (Proc.devRef .tc main_v23) = val_main_v23 (F := F) (a0 V) (a1 V) (a3 V) (a4 V) (a5 V))
    (e67 : W (Proc.devRef .tc main_v67) = val_main_v67 (F := F) (a0 V) (a1 V) (a2 V) (a3 V) (a4 V) (a5 V) (a6 V) (a7 V) (a8 V) (a9 V) (a10 V) (a11 V))
    (e71 : W (Proc.devRef .tc main_v71) = val_main_v71 (F := F) (a0 V) (a1 V) (a2 V) (a3 V) (a4 V) (a5 V) (a6 V) (a7 V) (a8 V) (a9 V) (a10 V) (a11 V) (a12 V) (a13 V)) :
    after ops8 W (Proc.devRef .tc main_v23) = val_main_v23 (F := F) (a0 V) (a1 V) (a3 V) (a4 V) (a5 V)
    ∧ after ops8 W (Proc.devRef .tc main_v67) = val_main_v67 (F := F) (a0 V) (a1 V) (a2 V) (a3 V) (a4 V) (a5 V) (a6 V) (a7 V) (a8 V) (a9 V) (a10 V) (a11 V)
    ∧ after ops8 W (Proc.devRef .tc main_call1_v5) = val_main_call1_v5 (F := F) (a0 V) (a1 V) (a2 V) (a3 V) (a4 V) (a5 V) (a6 V) (a7 V) (a8 V) (a9 V) (a10 V) (a11 V) (a12 V) (a13 V) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_⟩
  · after_results
    exact e23
  · after_results
    exact e67
  · unfold val_main_call1_v5 val_main_call1_v4 val_main_call1_v3 val_main_call1_v2 val_main_call1_v1 val_main_call1_v0
      val_main_call1_cst val_main_call1_cst_0
    after_results
    rw [e71]
    simp only [TRef.ofBuf, TRef.toBuf, cast_cast, cast_self']

/-- Operations 93 to 99: the logarithm of the sum of their exponentials taken off the shifted logits. -/
abbrev ops9 : List (HloOp τ sig (Elt F)) :=
  [ TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v72) subf ]

set_option maxRecDepth 8192 in
set_option maxHeartbeats 1000000 in
/-- They write no argument of @main. -/
theorem keep9 (V W : Valuation τ sig (Elt F)) (h : SameArgs V W) : SameArgs V (after ops9 W) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_, ?_, ?_, ?_, ?_, ?_, ?_, ?_, ?_, ?_, ?_, ?_⟩
  all_goals (after_results_simp; assumption)

/-- None allocates. -/
theorem fresh9 : ∀ op ∈ (ops9 : List (HloOp τ sig (Elt F))), op.fresh = ∅ := by
  intro _ h; (repeat (cases h with | head => rfl | tail _ h => ?_)); exact nomatch h

set_option maxRecDepth 16384 in
/-- After them the log-probabilities are at their stage; the attention weights and the new hidden state stay. -/
theorem stage9 (V W : Valuation τ sig (Elt F)) (h : SameArgs V W)
    (e23 : W (Proc.devRef .tc main_v23) = val_main_v23 (F := F) (a0 V) (a1 V) (a3 V) (a4 V) (a5 V))
    (e67 : W (Proc.devRef .tc main_v67) = val_main_v67 (F := F) (a0 V) (a1 V) (a2 V) (a3 V) (a4 V) (a5 V) (a6 V) (a7 V) (a8 V) (a9 V) (a10 V) (a11 V))
    (e5 : W (Proc.devRef .tc main_call1_v5) = val_main_call1_v5 (F := F) (a0 V) (a1 V) (a2 V) (a3 V) (a4 V) (a5 V) (a6 V) (a7 V) (a8 V) (a9 V) (a10 V) (a11 V) (a12 V) (a13 V)) :
    after ops9 W (Proc.devRef .tc main_v23) = val_main_v23 (F := F) (a0 V) (a1 V) (a3 V) (a4 V) (a5 V)
    ∧ after ops9 W (Proc.devRef .tc main_v67) = val_main_v67 (F := F) (a0 V) (a1 V) (a2 V) (a3 V) (a4 V) (a5 V) (a6 V) (a7 V) (a8 V) (a9 V) (a10 V) (a11 V)
    ∧ after ops9 W (Proc.devRef .tc main_v72) = val_main_v72 (F := F) (a0 V) (a1 V) (a2 V) (a3 V) (a4 V) (a5 V) (a6 V) (a7 V) (a8 V) (a9 V) (a10 V) (a11 V) (a12 V) (a13 V) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_⟩
  · after_results
    exact e23
  · after_results
    exact e67
  · after_results
    rw [e5]; rfl

/-- Operation 100: the new hidden state given its leading axis. -/
abbrev ops10 : List (HloOp τ sig (Elt F)) :=
  [ unary main_v67 main_v73 (broadcastInDim S1x1x1024 ![1, 2] bcast_S1x1024_S1x1x1024_1_2 : (⟨S1x1024, .f32⟩ : BufTy).Contents (Elt F) → (⟨S1x1x1024, .f32⟩ : BufTy).Contents (Elt F)) ]

set_option maxRecDepth 8192 in
set_option maxHeartbeats 1000000 in
/-- They write no argument of @main. -/
theorem keep10 (V W : Valuation τ sig (Elt F)) (h : SameArgs V W) : SameArgs V (after ops10 W) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_, ?_, ?_, ?_, ?_, ?_, ?_, ?_, ?_, ?_, ?_, ?_⟩
  all_goals (after_results_simp; assumption)

/-- None allocates. -/
theorem fresh10 : ∀ op ∈ (ops10 : List (HloOp τ sig (Elt F))), op.fresh = ∅ := by
  intro _ h; (repeat (cases h with | head => rfl | tail _ h => ?_)); exact nomatch h

set_option maxRecDepth 8192 in
/-- After it the returned hidden state is at its stage; the attention weights and the log-probabilities stay. -/
theorem stage10 (V W : Valuation τ sig (Elt F)) (h : SameArgs V W)
    (e23 : W (Proc.devRef .tc main_v23) = val_main_v23 (F := F) (a0 V) (a1 V) (a3 V) (a4 V) (a5 V))
    (e67 : W (Proc.devRef .tc main_v67) = val_main_v67 (F := F) (a0 V) (a1 V) (a2 V) (a3 V) (a4 V) (a5 V) (a6 V) (a7 V) (a8 V) (a9 V) (a10 V) (a11 V))
    (e72 : W (Proc.devRef .tc main_v72) = val_main_v72 (F := F) (a0 V) (a1 V) (a2 V) (a3 V) (a4 V) (a5 V) (a6 V) (a7 V) (a8 V) (a9 V) (a10 V) (a11 V) (a12 V) (a13 V)) :
    after ops10 W (Proc.devRef .tc main_v23) = val_main_v23 (F := F) (a0 V) (a1 V) (a3 V) (a4 V) (a5 V)
    ∧ after ops10 W (Proc.devRef .tc main_v72) = val_main_v72 (F := F) (a0 V) (a1 V) (a2 V) (a3 V) (a4 V) (a5 V) (a6 V) (a7 V) (a8 V) (a9 V) (a10 V) (a11 V) (a12 V) (a13 V)
    ∧ after ops10 W (Proc.devRef .tc main_v73) = val_main_v73 (F := F) (a0 V) (a1 V) (a2 V) (a3 V) (a4 V) (a5 V) (a6 V) (a7 V) (a8 V) (a9 V) (a10 V) (a11 V) := by
  obtain ⟨h0, h1, h2, h3, h4, h5, h6, h7, h8, h9, h10, h11, h12, h13⟩ := h
  unfold a0 a1 a2 a3 a4 a5 a6 a7 a8 a9 a10 a11 a12 a13 at *
  refine ⟨?_, ?_, ?_⟩
  · after_results
    exact e23
  · after_results
    exact e72
  · after_results
    rw [e67]; rfl

/-! ## The whole program -/

/-- @main's operations are the ten stretches in order. -/
theorem ops_eq : (Value.ops : List (HloOp τ sig (Elt F)))
    = ops1 ++ (ops2 ++ (ops3 ++ (ops4 ++ (ops5 ++ (ops6 ++ (ops7 ++ (ops8 ++ (ops9 ++ ops10)))))))) := rfl

/-- No operation of @main allocates. -/
theorem fresh_all : ∀ op ∈ (Value.ops : List (HloOp τ sig (Elt F))), op.fresh = ∅ := by
  rw [ops_eq]
  intro op h
  simp only [List.mem_append] at h
  rcases h with h | h | h | h | h | h | h | h | h | h
  · exact fresh1 op h
  · exact fresh2 op h
  · exact fresh3 op h
  · exact fresh4 op h
  · exact fresh5 op h
  · exact fresh6 op h
  · exact fresh7 op h
  · exact fresh8 op h
  · exact fresh9 op h
  · exact fresh10 op h

/-- From any contents `V`, after all of @main's operations the three results are at their stages of `V`'s arguments and
    the arguments are as they were: the stretches' facts, each handed the ones before it. -/
theorem after_ops (V : Valuation τ sig (Elt F)) :
    after Value.ops V (Proc.devRef .tc main_v72) = val_main_v72 (F := F) (a0 V) (a1 V) (a2 V) (a3 V) (a4 V) (a5 V) (a6 V) (a7 V) (a8 V) (a9 V) (a10 V) (a11 V) (a12 V) (a13 V)
    ∧ after Value.ops V (Proc.devRef .tc main_v73) = val_main_v73 (F := F) (a0 V) (a1 V) (a2 V) (a3 V) (a4 V) (a5 V) (a6 V) (a7 V) (a8 V) (a9 V) (a10 V) (a11 V)
    ∧ after Value.ops V (Proc.devRef .tc main_v23) = val_main_v23 (F := F) (a0 V) (a1 V) (a3 V) (a4 V) (a5 V)
    ∧ SameArgs V (after Value.ops V) := by
  rw [ops_eq, StableHlo.after_append, StableHlo.after_append, StableHlo.after_append, StableHlo.after_append,
    StableHlo.after_append, StableHlo.after_append, StableHlo.after_append, StableHlo.after_append,
    StableHlo.after_append]
  have k0 : SameArgs V V := ⟨rfl, rfl, rfl, rfl, rfl, rfl, rfl, rfl, rfl, rfl, rfl, rfl, rfl, rfl⟩
  have k1 := keep1 V V k0
  obtain ⟨e6, e7, e8⟩ := stage1 V V k0
  have k2 := keep2 V _ k1
  obtain ⟨e6, e7, e12⟩ := stage2 V _ k1 e6 e7 e8
  have k3 := keep3 V _ k2
  obtain ⟨e6, e7, e23⟩ := stage3 V _ k2 e6 e7 e12
  have k4 := keep4 V _ k3
  obtain ⟨e7, e23, e26⟩ := stage4 V _ k3 e6 e7 e23
  have k5 := keep5 V _ k4
  obtain ⟨e7, e23, e35, e39⟩ := stage5 V _ k4 e7 e23 e26
  have k6 := keep6 V _ k5
  obtain ⟨e23, e67⟩ := stage6 V _ k5 e7 e23 e35 e39
  have k7 := keep7 V _ k6
  obtain ⟨e23, e67, e71⟩ := stage7 V _ k6 e23 e67
  have k8 := keep8 V _ k7
  obtain ⟨e23, e67, e5⟩ := stage8 V _ k7 e23 e67 e71
  have k9 := keep9 V _ k8
  obtain ⟨e23, e67, e72⟩ := stage9 V _ k8 e23 e67 e5
  have k10 := keep10 V _ k9
  obtain ⟨e23, e72, e73⟩ := stage10 V _ k9 e23 e67 e72
  exact ⟨e72, e73, e23, k10⟩

/-- On every device, for any float values, from any memory with zero counters: every weakly fair execution of @main
    terminates with each result buffer at its stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v73) = val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v23) = val_main_v23 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
      obtain ⟨e72, e73, e23, k0, k1, k2, k3, k4, k5, k6, k7, k8, k9, k10, k11, k12, k13⟩ := after_ops (F := F) (launchContents m c)
      exact ⟨(h c main_v72).trans e72, (h c main_v73).trans e73, (h c main_v23).trans e23,
        (h c main_arg0).trans k0, (h c main_arg1).trans k1, (h c main_arg2).trans k2, (h c main_arg3).trans k3,
        (h c main_arg4).trans k4, (h c main_arg5).trans k5, (h c main_arg6).trans k6, (h c main_arg7).trans k7,
        (h c main_arg8).trans k8, (h c main_arg9).trans k9, (h c main_arg10).trans k10, (h c main_arg11).trans k11,
        (h c main_arg12).trans k12, (h c main_arg13).trans k13⟩)
    (run_seq Value.scopedRefs_eq Value.scopedSems_eq defs main (fun _ => Value.ops) Value.main_eq (fun _ => Value.ops_sub) m ρ
      (fun _ => fresh_all))

end Cert.ReferenceIdeal.RunH

end
-- ==== Proof.lean ====
/-
  The certificate of the attention-decoder step (embedding lookup, attention logits and softmax, applied attention,
  combine + relu + one GRU step, output logits and log-softmax) against its jnp reference.

  The kernel program runs four pallas regions between stretches of host operations.  Each region is certified from its
  own body: the attention logits and the output logits are a row vector times the transpose of a weight block plus a
  bias block, tile by tile (the last tile of the 50257-row output matrix overhangs the array: the columns written back
  never depend on rows outside it); the applied attention accumulates four 512-row partial products in a scratch that
  is carried from grid point to grid point; the combine and GRU step is one grid point.  At the ideal instance every
  region's output array is the index-level specification of `Proof/Spec.lean`, the reference's stages are the same
  specification, and the two programs' softmax and log-softmax are the same host operations; so the three results
  agree.  The embedding lookup is where the precondition is used: the kernel program fills an out-of-range row with a
  constant where the reference clamps, and the token is assumed to index the table (-50257 ≤ token < 50257), under
  which both read the same row.

  At the word level the frame is proved over relational proof data: the matrix product is opaque in its whole operand
  there, so the last region's output (whose last weight tile has rows the machine picks) is held at some contents, and
  the host operations after it are run from buffers that name it only so.  `preserves` has no entry.
-/
import proofs.«423497_j70342974374383_1_alg».proof.Defs
import proofs.«423497_j70342974374383_1_alg».proof.Proof.Gen.Kernel
import proofs.«423497_j70342974374383_1_alg».proof.Proof.Gen.KernelIdeal
import proofs.«423497_j70342974374383_1_alg».proof.Proof.Gen.ReferenceIdeal
import proofs.«423497_j70342974374383_1_alg».proof.Proof.Gen.Pre_finite_inputs
import proofs.«423497_j70342974374383_1_alg».proof.Proof.K.RRun
import proofs.«423497_j70342974374383_1_alg».proof.Proof.K.Outs
import proofs.«423497_j70342974374383_1_alg».proof.Proof.KI.Run
import proofs.«423497_j70342974374383_1_alg».proof.Proof.KI.Outs
import proofs.«423497_j70342974374383_1_alg».proof.Proof.Bridge
import proofs.«423497_j70342974374383_1_alg».proof.Proof.RefRunH

noncomputable section

namespace Cert.Proof

open Idealize.ShloMosaic Idealize.ShloMosaic.TcCoe Idealize.SL.Sem

/-- The word-level program runs to the end and leaves its arguments as launched. -/
theorem frame_k : @Cert.frame_Kernel Cert.Kernel.Gen.facts Cert.Pre_finite_inputs.Gen.facts :=
  fun m ρ _ => Cert.Kernel.Hand.frame_of_outs (Cert.Kernel.Hand.outsOf_ok m) ρ

section Ideal
open Cert.KernelIdeal Cert.KernelIdeal.Gen Cert.KernelIdeal.Hand

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The idealized kernel program's run, with the three results and the arguments read off the last boundary. -/
theorem run_ki (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25) = V11 m (outsOf m) c main_v25
      ∧ r.2.mem ((c.tc : Thread nD τ).loc main_v26) = V11 m (outsOf m) c main_v26
      ∧ r.2.mem ((c.tc : Thread nD τ).loc main_v16) = V11 m (outsOf m) c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c =>
    ⟨h c _ (mem_uc main_v25 (by decide)), h c _ (mem_uc main_v26 (by decide)), h c _ (mem_uc main_v16 (by decide)),
     (h c _ (mem_uc main_arg0 (by decide))).trans (V11_main_arg0 m (outsOf m) c),
     (h c _ (mem_uc main_arg1 (by decide))).trans (V11_main_arg1 m (outsOf m) c),
     (h c _ (mem_uc main_arg2 (by decide))).trans (V11_main_arg2 m (outsOf m) c),
     (h c _ (mem_uc main_arg3 (by decide))).trans (V11_main_arg3 m (outsOf m) c),
     (h c _ (mem_uc main_arg4 (by decide))).trans (V11_main_arg4 m (outsOf m) c),
     (h c _ (mem_uc main_arg5 (by decide))).trans (V11_main_arg5 m (outsOf m) c),
     (h c _ (mem_uc main_arg6 (by decide))).trans (V11_main_arg6 m (outsOf m) c),
     (h c _ (mem_uc main_arg7 (by decide))).trans (V11_main_arg7 m (outsOf m) c),
     (h c _ (mem_uc main_arg8 (by decide))).trans (V11_main_arg8 m (outsOf m) c),
     (h c _ (mem_uc main_arg9 (by decide))).trans (V11_main_arg9 m (outsOf m) c),
     (h c _ (mem_uc main_arg10 (by decide))).trans (V11_main_arg10 m (outsOf m) c),
     (h c _ (mem_uc main_arg11 (by decide))).trans (V11_main_arg11 m (outsOf m) c),
     (h c _ (mem_uc main_arg12 (by decide))).trans (V11_main_arg12 m (outsOf m) c),
     (h c _ (mem_uc main_arg13 (by decide))).trans (V11_main_arg13 m (outsOf m) c)⟩)
    (run_vals m ρ (outsOf m) (outsOf_ok m))

end Ideal

/-- The idealized kernel program runs to the end and leaves its arguments as launched. -/
theorem frame_ki : @Cert.frame_KernelIdeal Cert.KernelIdeal.Gen.facts Cert.Pre_finite_inputs.Gen.facts :=
  fun m ρ _ => (θ_run _ _ _).mono (fun r h c => (h c).2.2.2) (run_ki m ρ)

/-- The reference runs to the end and leaves its arguments as launched. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.RunH.run (F := Ideal) m ρ)

/-- From memories that agree on the arguments both idealized programs run to the end with the same three results:
    the kernel program's are the reference's stages at the kernel program's arguments (`Bridge.results`, where the
    precondition's token range is used), and the arguments agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.V11 m (Cert.KernelIdeal.Hand.outsOf m) c Cert.KernelIdeal.main_v25,
    fun c => Cert.KernelIdeal.Gen.V11 m (Cert.KernelIdeal.Hand.outsOf m) c Cert.KernelIdeal.main_v26,
    fun c => Cert.KernelIdeal.Gen.V11 m (Cert.KernelIdeal.Hand.outsOf m) c Cert.KernelIdeal.main_v16, run_ki m ρ, ?_⟩
  refine (θ_run Cert.ReferenceIdeal.defs _ _).mono (fun r h c => ?_) (Cert.ReferenceIdeal.RunH.run (F := Ideal) m' ρ')
  obtain ⟨b23, b73, b72⟩ := Cert.Bridge.results m hpre (Cert.KernelIdeal.Hand.outsOf m) (Cert.KernelIdeal.Hand.outsOf_ok m) c
  obtain ⟨a0, a1, a2, a3, a4, a5, a6, a7, a8, a9, a10, a11, a12, a13⟩ := hagree c
  refine ⟨(h c).1.trans ?_, (h c).2.1.trans ?_, (h c).2.2.1.trans ?_, (h c).2.2.2⟩
  · rw [a0, a1, a2, a3, a4, a5, a6, a7, a8, a9, a10, a11, a12, a13]; exact b72.symm
  · rw [a0, a1, a2, a3, a4, a5, a6, a7, a8, a9, a10, a11]; exact b73.symm
  · rw [a0, a1, a3, a4, a5]; exact b23.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
